-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x128 : Shape := ⟨2, ![32000, 128]⟩
abbrev S128x128 : Shape := ⟨2, ![128, 128]⟩
abbrev S128 : Shape := ⟨1, ![128]⟩
abbrev S50000 : Shape := ⟨1, ![50000]⟩
abbrev S600000 : Shape := ⟨1, ![600000]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg6 : IVec S600000 32) (main_v30 : IVec S_ 1) (main_v32 : IVec S600000 1) (main_c_12 : IVec S_ 32) : IVec S_ 1 :=
  let main_v33 : IVec S600000 32 := broadcastInDim S600000 ![] bcast_S_S600000 main_c_12
  let main_v34 : IVec S600000 1 := cmpi .slt main_arg6 main_v33
  let main_v35 : IVec S600000 1 := andi main_v32 main_v34
  let main_c_13 : IVec S_ 1 := constantI S_ 1 1#1
  let main_v36 : IVec S_ 1 := (fun x v => Host.reduce IntOp.andi x v reducesTo_S600000_S_d0 h_S_) main_v35 main_c_13
  let main_v37 : IVec S_ 1 := andi main_v30 main_v36
  main_v37

def fn_part1 {F : FTy → Type} [FloatOps F] (main_arg4 : FVec F S128 .f32) (main_arg5 : IVec S50000 32) (main_arg6 : IVec S600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S50000 32 := broadcastInDim S50000 ![] bcast_S_S50000 main_c_8
  let main_v25 : IVec S50000 1 := cmpi .sge main_arg5 main_v24
  let main_c_9 : IVec S_ 32 := constantI S_ 32 32000#32
  let main_v26 : IVec S50000 32 := broadcastInDim S50000 ![] bcast_S_S50000 main_c_9
  let main_v27 : IVec S50000 1 := cmpi .slt main_arg5 main_v26
  let main_v28 : IVec S50000 1 := andi main_v25 main_v27
  let main_c_10 : IVec S_ 1 := constantI S_ 1 1#1
  let main_v29 : IVec S_ 1 := (fun x v => Host.reduce IntOp.andi x v reducesTo_S50000_S_d0 h_S_) main_v28 main_c_10
  let main_v30 : IVec S_ 1 := andi main_v23 main_v29
  let main_c_11 : IVec S_ 32 := constantI S_ 32 0#32
  let main_v31 : IVec S600000 32 := broadcastInDim S600000 ![] bcast_S_S600000 main_c_11
  let main_v32 : IVec S600000 1 := cmpi .sge main_arg6 main_v31
  let main_c_12 : IVec S_ 32 := constantI S_ 32 32000#32
  fn_part2 (F := F) main_arg6 main_v30 main_v32 main_c_12

def fn {F : FTy → Type} [FloatOps F] (main_arg0 : FVec F S32000x128 .f32) (main_arg1 : FVec F S128x128 .f32) (main_arg2 : FVec F S128 .f32) (main_arg3 : FVec F S128x128 .f32) (main_arg4 : FVec F S128 .f32) (main_arg5 : IVec S50000 32) (main_arg6 : IVec S600000 32) (main_arg7 : IVec S600000 32) (main_arg8 : IVec S600000 32) : IVec S_ 1 :=
  let main_v0 : FVec F S32000x128 .f32 := Host.absf main_arg0
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S32000x128 : Shape := ⟨2, ![32000, 128]⟩
abbrev S128x128 : Shape := ⟨2, ![128, 128]⟩
abbrev S128 : Shape := ⟨1, ![128]⟩
abbrev S50000 : Shape := ⟨1, ![50000]⟩
abbrev S600000 : Shape := ⟨1, ![600000]⟩
abbrev S_ : Shape := ⟨0, ![]⟩
abbrev S50176 : Shape := ⟨1, ![50176]⟩
abbrev S50176x1 : Shape := ⟨2, ![50176, 1]⟩
abbrev S1x128 : Shape := ⟨2, ![1, 128]⟩
abbrev S50176x128 : Shape := ⟨2, ![50176, 128]⟩
abbrev S1024x1 : Shape := ⟨2, ![1024, 1]⟩
abbrev S3200x128 : Shape := ⟨2, ![3200, 128]⟩
abbrev S1024x128 : Shape := ⟨2, ![1024, 128]⟩
abbrev S1x3200 : Shape := ⟨2, ![1, 3200]⟩
abbrev S1024x3200 : Shape := ⟨2, ![1024, 3200]⟩
abbrev S50000x128 : Shape := ⟨2, ![50000, 128]⟩
abbrev S600064 : Shape := ⟨1, ![600064]⟩
abbrev S600064x1 : Shape := ⟨2, ![600064, 1]⟩
abbrev S600064x128 : Shape := ⟨2, ![600064, 128]⟩
abbrev S600000x128 : Shape := ⟨2, ![600000, 128]⟩
abbrev S600000x1 : Shape := ⟨2, ![600000, 1]⟩

abbrev nBuf : Space → Nat
  | .hbm => 41
  | .vmem => 16
  | .smem => 0
  | _ => 0

abbrev bufTy : (tb : Table) → Fin (tcTables nBuf tb) → BufTy
  | .hbm, ⟨0, _⟩ => ⟨S32000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S32000x128, .f32⟩
  | .hbm, ⟨10, _⟩ => ⟨S32000x128, .bf16⟩
  | .hbm, ⟨11, _⟩ => ⟨S32000x128, .f32⟩
  | .hbm, ⟨12, _⟩ => ⟨S32000x128, .bf16⟩
  | .hbm, ⟨13, _⟩ => ⟨S_, .i32⟩
  | .hbm, ⟨14, _⟩ => ⟨S_, .i32⟩
  | .hbm, ⟨15, _⟩ => ⟨S50176, .i32⟩
  | .hbm, ⟨16, _⟩ => ⟨S50176x1, .i32⟩
  | .hbm, ⟨17, _⟩ => ⟨S1x128, .f32⟩
  | .hbm, ⟨18, _⟩ => ⟨S50176x128, .f32⟩
  | .hbm, ⟨19, _⟩ => ⟨S50000x128, .f32⟩
  | .hbm, ⟨20, _⟩ => ⟨S_, .i32⟩
  | .hbm, ⟨21, _⟩ => ⟨S_, .i32⟩
  | .hbm, ⟨22, _⟩ => ⟨S600064, .i32⟩
  | .hbm, ⟨23, _⟩ => ⟨S600064x1, .i32⟩
  | .hbm, ⟨24, _⟩ => ⟨S1x128, .f32⟩
  | .hbm, ⟨25, _⟩ => ⟨S600064x128, .f32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .local _ .vmem, ⟨0, _⟩ => ⟨S1024x1, .i32⟩
  | .local _ .vmem, ⟨1, _⟩ => ⟨S1024x1, .i32⟩
  | .local _ .vmem, ⟨2, _⟩ => ⟨S3200x128, .bf16⟩
  | .local _ .vmem, ⟨3, _⟩ => ⟨S3200x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .i32⟩
  | .local _ .vmem, ⟨9, _⟩ => ⟨S1024x1, .i32⟩
  | .local _ .vmem, ⟨10, _⟩ => ⟨S3200x128, .bf16⟩
  | .local _ .vmem, ⟨11, _⟩ => ⟨S3200x128, .bf16⟩
  | .local _ .vmem, ⟨12, _⟩ => ⟨S1x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S32000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![49, 10], ![false, false]⟩

def k0_cond2 (i : grid0.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![586, 10], ![false, false]⟩

def k1_cond2 (i : grid1.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  pads_S50000_S50176_01760 : S50000.Pads (![0] : Fin 1 → Nat) ![176] ![0] S50176
  h_S_ : 0 < S_.numel
  shapeCasts_S50176_S50176x1 : S50176.ShapeCasts S50176x1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x3200_d1_w32 : S1x3200.Iotas .tc 32 [1]
  broadcasts_S1024x1_S1024x3200 : S1024x1.Broadcasts S1024x3200
  broadcasts_S1x3200_S1024x3200 : S1x3200.Broadcasts S1024x3200
  natLt_1_32 : 1 < 32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S50176x128_S50000x128_0_0 : S50176x128.Slices ![0, 0] S50000x128
  pads_S600000_S600064_0640 : S600000.Pads (![0] : Fin 1 → Nat) ![64] ![0] S600064
  shapeCasts_S600064_S600064x1 : S600064.ShapeCasts S600064x1
  slices_S600064x128_S600000x128_0_0 : S600064x128.Slices ![0, 0] S600000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  dot_S32000x128_S128x128_S32000x128_1_0_0_1_n_n_wf : DotDims.WF S32000x128 S128x128 S32000x128 [1] [0] [0] [1] [] []
  dot_S1024x3200_S3200x128_S1024x128_1_0_0_1_n_n_wf : DotDims.WF S1024x3200 S3200x128 S1024x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S50176x1.size a
  hwx0_0 : ∀ i : grid0.Coords, EltTy.bits .i32 = 32 ∨ (Rect.block (s := S50176x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S32000x128.size a
  hwx0_1 : ∀ i : grid0.Coords, EltTy.bits .bf16 = 32 ∨ (Rect.block (s := S32000x128) S3200x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S50176x128.size a
  hwx0_3 : ∀ i : grid0.Coords, EltTy.bits .f32 = 32 ∨ (Rect.block (s := S50176x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S600064x1.size a
  hwx1_0 : ∀ i : grid1.Coords, EltTy.bits .i32 = 32 ∨ (Rect.block (s := S600064x1) S1024x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S32000x128.size a
  hwx1_1 : ∀ i : grid1.Coords, EltTy.bits .bf16 = 32 ∨ (Rect.block (s := S32000x128) S3200x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S600064x128.size a
  hwx1_3 : ∀ i : grid1.Coords, EltTy.bits .f32 = 32 ∨ (Rect.block (s := S600064x128) S1024x128.size (cc1_transform_3 i) (hinb1_3 i)).WholeWords (EltTy.packing .f32)

variable [Facts₀]

def dot_S32000x128_S128x128_S32000x128_1_0_0_1_n_n : DotDims S32000x128 S128x128 S32000x128 where
  lhsContracting := [1]
  rhsContracting := [0]
  lhsNonContracting := [0]
  rhsNonContracting := [1]
  lhsBatch := []
  rhsBatch := []
  wf := dot_S32000x128_S128x128_S32000x128_1_0_0_1_n_n_wf
def dot_S1024x3200_S3200x128_S1024x128_1_0_0_1_n_n : DotDims S1024x3200 S3200x128 S1024x128 where
  lhsContracting := [1]
  rhsContracting := [0]
  lhsNonContracting := [0]
  rhsNonContracting := [1]
  lhsBatch := []
  rhsBatch := []
  wf := dot_S1024x3200_S3200x128_S1024x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v5) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S32000x128 : Shape := ⟨2, ![32000, 128]⟩
abbrev S128x128 : Shape := ⟨2, ![128, 128]⟩
abbrev S128 : Shape := ⟨1, ![128]⟩
abbrev S50000 : Shape := ⟨1, ![50000]⟩
abbrev S600000 : Shape := ⟨1, ![600000]⟩
abbrev S_ : Shape := ⟨0, ![]⟩
abbrev S50000x1 : Shape := ⟨2, ![50000, 1]⟩
abbrev S50000x128 : Shape := ⟨2, ![50000, 128]⟩
abbrev S1x128 : Shape := ⟨2, ![1, 128]⟩
abbrev S600000x1 : Shape := ⟨2, ![600000, 1]⟩
abbrev S600000x128 : Shape := ⟨2, ![600000, 128]⟩

abbrev nBuf : Space → Nat
  | .hbm => 55
  | .vmem => 0
  | .smem => 0
  | _ => 0

abbrev bufTy : (tb : Table) → Fin (tcTables nBuf tb) → BufTy
  | .hbm, ⟨0, _⟩ => ⟨S32000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | _, _ => ⟨S32000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  gather_S32000x128_S50000x1_S50000x128_1_0_n_n_0_1_1128_wf : GatherDims.WF S32000x128 S50000x1 S50000x128 [1] [0] [] [0] [] 1 ![1, 128]
  dot_S50000x128_S128x128_S50000x128_1_0_0_1_n_n_wf : DotDims.WF S50000x128 S128x128 S50000x128 [1] [0] [0] [1] [] []
  gather_S32000x128_S600000x1_S600000x128_1_0_n_n_0_1_1128_wf : GatherDims.WF S32000x128 S600000x1 S600000x128 [1] [0] [] [0] [] 1 ![1, 128]
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def gather_S32000x128_S50000x1_S50000x128_1_0_n_n_0_1_1128 : GatherDims S32000x128 S50000x1 S50000x128 where
  offsetDims := [1]
  collapsedSliceDims := [0]
  operandBatchingDims := []
  startIndicesBatchingDims := []
  startIndexMap := [0]
  indexVectorDim := 1
  sliceSizes := ![1, 128]
  wf := gather_S32000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S32000x128_S600000x1_S600000x128_1_0_n_n_0_1_1128 : GatherDims S32000x128 S600000x1 S600000x128 where
  offsetDims := [1]
  collapsedSliceDims := [0]
  operandBatchingDims := []
  startIndicesBatchingDims := []
  startIndexMap := [0]
  indexVectorDim := 1
  sliceSizes := ![1, 128]
  wf := gather_S32000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KbR0Rest.lean ====
/-
  Call 0's view of the core's scoped buffers that are none of its staging buffers: its own accumulator and the other
  call's staging buffers and accumulator. The class's invariant holds each whole at some contents; here the
  accumulator is singled out (`wrap0 c X`: the chain with `X` in the accumulator's place) so that it can be held
  at named contents while the others ride along.
-/
import proofs.«417099_j42588895707231_1_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator: a whole scoped buffer of the kernel's own. -/
abbrev scM0 : Memref sig .tc .vmem S1024x128 .f32 := Memref.whole cc0_scratch0

/-- The other eight, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The chain with `X` in the accumulator's place (the accumulator comes first in call 0's chain). -/
def wrap0 (c : Dev nD) (X : sProp 𝕄) : sProp 𝕄 := iprop(X ∗ rest0 (F := F) c)

theorem wrap0_out (c : Dev nD) (X : sProp 𝕄) : wrap0 c X ⊢ iprop(X ∗ rest0 (F := F) c) := .rfl
theorem wrap0_in (c : Dev nD) (X : sProp 𝕄) : iprop(X ∗ rest0 (F := F) c) ⊢ wrap0 c X := .rfl

/-- The class's invariant with the accumulator as a memref owned at some contents. -/
theorem PhiA0_eq (c : Dev nD) :
    (Pipeline.ΦA spec0 c : sProp 𝕄)
      = iprop(wrap0 c (iprop(∃ d, owns (c : Thread nD τ) scM0 fullShare d)) ∗ (∃ r, prngReg c r)) := by
  unfold Pipeline.ΦA wrap0 rest0; rw [scopedRest0_eq]; simp only [scM0, owns_whole]; try rfl

end Cert.Kernel.Hand

end
-- ==== Proof.KbR0Defs.lean ====
/-
  Region 0 (the node-token call) of the one-hot gather kernel, as data. The grid is 49 row tiles × 10 vocabulary
  tiles, walked row tile by row tile; a point's linear position is `10 * rowTile + vocabTile`. At a point the body
  adds, into an accumulator it keeps in scratch across the ten vocabulary tiles of a row tile, the product of the
  tile's one-hot matrix (token = vocabulary id) with the table's tile; at vocabulary tile 0 it starts from zero, at
  vocabulary tile 9 it also writes `max(acc + bias, 0)` to the output block. Stated here, at any region-entry
  contents `V`: each window's block at a point, the accumulator after each point (`accN0`, by recursion on the
  position), the invariant that carries it, and the pipeline's proof data.
-/
import proofs.«417099_j42588895707231_1_alg».proof.Proof.KbR0Rest
import proofs.«417099_j42588895707231_1_alg».proof.Proof.Gen.Kernel.Skeleton
import proofs.«417099_j42588895707231_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the row tile's first vocabulary tile" (the accumulator is reset), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the row tile's last vocabulary tile" (the output block is written). -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row tile's last vocabulary tile the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-! ## The accumulator after each point -/

/-- What the accumulator holds after the body at position `n`: the point's update (`k0_pay2`: the one-hot product
    added) of zero at a row tile's first vocabulary tile, of what the point before left elsewhere. -/
def accN0 (c : Dev nD) : (n : ℕ) → n < cfg0.N → Vec F S1024x128 .f32
  | 0, hn => k0_pay2 (grid0.coords ⟨0, hn⟩) (iblk0 V c 0 ⟨0, hn⟩) (k0_pay1 (F := F)) (iblk0 V c 1 ⟨0, hn⟩)
  | n + 1, hn =>
    if (n + 1) % 10 = 0 then k0_pay2 (grid0.coords ⟨n + 1, hn⟩) (iblk0 V c 0 ⟨n + 1, hn⟩) (k0_pay1 (F := F)) (iblk0 V c 1 ⟨n + 1, hn⟩)
    else k0_pay2 (grid0.coords ⟨n + 1, hn⟩) (iblk0 V c 0 ⟨n + 1, hn⟩) (accN0 c n (Nat.lt_of_succ_lt hn)) (iblk0 V c 1 ⟨n + 1, hn⟩)

/-- At a row tile's first vocabulary tile: the update of zero. -/
theorem accN0_first (c : Dev nD) (t : Fin cfg0.N) (h0 : t.val % 10 = 0) :
    accN0 V c t.val t.isLt = k0_pay2 (grid0.coords t) (iblk0 V c 0 t) (k0_pay1 (F := F)) (iblk0 V c 1 t) := by
  obtain ⟨n, hn⟩ := t
  cases n with
  | zero => rfl
  | succ n => exact (if_pos h0)

/-- Elsewhere: the update of what the point before left. -/
theorem accN0_next (c : Dev nD) (t : Fin cfg0.N) (h0 : ¬t.val % 10 = 0) :
    accN0 V c t.val t.isLt = k0_pay2 (grid0.coords t) (iblk0 V c 0 t) (accN0 V c (t.val - 1) (Nat.lt_of_le_of_lt (Nat.sub_le _ _) t.isLt)) (iblk0 V c 1 t) := by
  obtain ⟨n, hn⟩ := t
  cases n with
  | zero => exact absurd (Nat.zero_mod _) h0
  | succ n => exact (if_neg h0)

/-! ## The invariant and the proof data -/

/-- The region invariant before position `n`: before the first point the class's (every scoped buffer at anything);
    afterwards the accumulator at what the point before left, the other scoped buffers at anything, the generator
    register at some state. -/
def PhiS0 (c : Dev nD) : (n : ℕ) → n ≤ cfg0.N → sProp 𝕄
  | 0, _ => Pipeline.ΦA spec0 c
  | n + 1, hn => iprop(wrap0 c (owns (c : Thread nD τ) scM0 fullShare (accN0 V c n hn)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(wrap0 c (owns (c : Thread nD τ) scM0 fullShare (accN0 V c n hn)) ∗ (∃ r, prngReg c r)) := rfl
theorem PhiS0_pos (c : Dev nD) (n : ℕ) (h : n ≤ cfg0.N) (hz : n ≠ 0) :
    PhiS0 V c n h = iprop(wrap0 c (owns (c : Thread nD τ) scM0 fullShare (accN0 V c (n - 1) (by omega))) ∗ (∃ r, prngReg c r)) := by
  cases n with
  | zero => exact absurd rfl hz
  | succ n => rfl

/-- The proof data of pipeline 0 on core `c`: the arrays as the region finds them; after the body each input's
    buffer at its block, the output's at `max(acc + bias, 0)` of the accumulator after the point (read only where the
    block is written back: at a row tile's last vocabulary tile); the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accN0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accN0 V c t.val t.isLt) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.KbR0RunA.lean ====
/-
  Region 0's body run whole at a row tile's FIRST vocabulary tile (reset taken, output not written): on whole
  memrefs, the three inputs at their contents, the idle output handed back untouched, the accumulator at anything, the
  body runs to the continuation with the accumulator's stores as pieces; the pieces are what the run finds.
-/
import proofs.«417099_j42588895707231_1_alg».proof.Proof.KbR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S3200x128 .bf16) (x2 : Vec F S1x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_affine_relu_kernel i arg2 harg2 arg3 harg3 arg4 harg4 arg5 harg5 arg6 harg6) K } := by
  refine ⟨?_, fun xi3 E K => ?run⟩
  case run =>
    simp only [cc0__gather_affine_relu_kernel_eq_skeleton]; unfold cc0__gather_affine_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KbR0RunB.lean ====
/-
  Region 0's body run whole at a MIDDLE vocabulary tile (no reset, output not written): the accumulator comes in at
  what the point before left and leaves with this point's store as its piece.
-/
import proofs.«417099_j42588895707231_1_alg».proof.Proof.KbR0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S3200x128 .bf16) (x2 : Vec F S1x128 .f32) (xs0 : Vec F S1024x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_affine_relu_kernel i arg2 harg2 arg3 harg3 arg4 harg4 arg5 harg5 arg6 harg6) K } := by
  refine ⟨?_, fun xi3 E K => ?run⟩
  case run =>
    simp only [cc0__gather_affine_relu_kernel_eq_skeleton]; unfold cc0__gather_affine_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KbR0RunC.lean ====
/-
  Region 0's body run whole at a row tile's LAST vocabulary tile (no reset, output written): the accumulator comes
  in at what the point before left; the output's buffer, at anything, leaves with the body's one store as its piece.
-/
import proofs.«417099_j42588895707231_1_alg».proof.Proof.KbR0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S3200x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_affine_relu_kernel i arg2 harg2 arg3 harg3 arg4 harg4 arg5 harg5 arg6 harg6) K } := by
  refine ⟨?_, ?_, fun E K => ?run⟩
  case run =>
    simp only [cc0__gather_affine_relu_kernel_eq_skeleton]; unfold cc0__gather_affine_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KbR0Body.lean ====
/-
  Region 0's body obligation. The three whole-body runs leave their stores as pieces; read back, the accumulator's
  pieces are the point's update (of zero at a row tile's first vocabulary tile, of the incoming contents elsewhere)
  and the output's one piece at a row tile's last vocabulary tile is `max(acc + bias, 0)` of the updated accumulator.
  With these the body maps the invariant before a point to the invariant after it, at every point of the grid.
-/
import proofs.«417099_j42588895707231_1_alg».proof.Proof.KbR0RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-- The accumulator as a view, and one staging buffer of the output window: contents are stated through them. -/
abbrev VS0 : View sig .tc .vmem S1024x128 .f32 := scM0.view
abbrev VO0 : View sig .tc .vmem S1024x128 .f32 := (Memref.whole cc0_stg3_0 : Memref sig .tc .vmem S1024x128 .f32).view

/-! ## The pieces cover their buffers -/

theorem scover0_A (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1 .i32) (x1 : Vec F S3200x128 .bf16) (x2 : Vec F S1x128 .f32) (y : S1024x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x128.size (by sl_kernel_rfl) y
theorem scover0_B (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1 .i32) (x1 : Vec F S3200x128 .bf16) (x2 : Vec F S1x128 .f32) (xs0 : Vec F S1024x128 .f32) (y : S1024x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1024x128.size (by sl_kernel_rfl) y
theorem scover0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y
theorem ocover0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y

/-! ## The pieces read back -/

/-- First vocabulary tile: the reset's zero block is stored, read back, and updated. -/
theorem sacc0_A (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1 .i32) (x1 : Vec F S3200x128 .bf16) (x2 : Vec F S1x128 .f32) :
    VS0.read (Elt F) (VS0.writes (Elt F) VS0.junk (kernelRun0_A c i arg2 harg2 arg3 harg3 arg4 harg4 arg5 harg5 arg6 harg6 hc0 hc1 x0 x1 x2).1)
      = k0_pay2 i x0 (k0_pay1 (F := F)) x1 := by
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x128) hz0, View.readCov_unit_zero (S := S1024x128) _ hz0]
  simp only [View.readAt_eq_ld, harg2.read_unread, harg3.read_unread, View.ld_unit_zero (S := S1024x1) hz0, View.ld_unit_zero (S := S3200x128) hz0]

/-- A middle vocabulary tile: the incoming accumulator updated. -/
theorem sacc0_B (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1 .i32) (x1 : Vec F S3200x128 .bf16) (x2 : Vec F S1x128 .f32) (xs0 : Vec F S1024x128 .f32) :
    VS0.read (Elt F) (VS0.writes (Elt F) VS0.junk (kernelRun0_B c i arg2 harg2 arg3 harg3 arg4 harg4 arg5 harg5 arg6 harg6 hc0 hc1 x0 x1 x2 xs0).1)
      = k0_pay2 i x0 xs0 x1 := by
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz0]
  simp only [View.readAt_eq_ld, harg2.read_unread, harg3.read_unread, harg6.read_unread, View.ld_unit_zero (S := S1024x1) hz0, View.ld_unit_zero (S := S3200x128) hz0, View.ld_unit_zero (S := S1024x128) hz0]

/-- The last vocabulary tile: the same update of the accumulator, -/
theorem sacc0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) :
    VS0.read (Elt F) (VS0.writes (Elt F) VS0.junk (kernelRun0_C c i arg2 harg2 arg3 harg3 arg4 harg4 arg5 harg5 arg6 harg6 hc0 hc1 x0 x1 x2 xs0).2.1)
      = k0_pay2 i x0 xs0 x1 := by
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz0]
  simp only [View.readAt_eq_ld, harg2.read_unread, harg3.read_unread, harg6.read_unread, View.ld_unit_zero (S := S1024x1) hz0, View.ld_unit_zero (S := S3200x128) hz0, View.ld_unit_zero (S := S1024x128) hz0]

/-- and the output block: `max(acc + bias, 0)` of the updated accumulator read back. -/
theorem out0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) :
    VO0.read (Elt F) (VO0.writes (Elt F) VO0.junk (kernelRun0_C c i arg2 harg2 arg3 harg3 arg4 harg4 arg5 harg5 arg6 harg6 hc0 hc1 x0 x1 x2 xs0).1)
      = k0_pay3 (k0_pay2 i x0 xs0 x1) x2 := by
  rw [View.read_writes_eq_canon _ _ _ (ocover0_C c i arg2 harg2 arg3 harg3 arg4 harg4 arg5 harg5 arg6 harg6 hc0 hc1 x0 x1 x2 xs0)]
  unfold kernelRun0_C
  dsimp only
  sl_unfold_words
  rw [View.canon_unit_zero hz0]
  simp only [View.readAt_eq_ld, harg2.read_unread, harg3.read_unread, harg4.read_unread, harg6.read_unread, View.readCov_unit_zero (S := S1024x128) _ hz0, View.ld_unit_zero (S := S1024x1) hz0, View.ld_unit_zero (S := S3200x128) hz0, View.ld_unit_zero (S := S1024x128) hz0, View.ld_unit_zero (S := S1x128) hz0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's position modulo ten says which case it
    is in; the invariant hands over the accumulator (at anything at the first point, else at what the point before
    left) and takes it back at this point's contents; away from a row tile's last vocabulary tile the output's buffer
    goes back untouched, there it goes back holding the block to be written. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 490 := lt_of_lt_of_eq t.isLt (show cfg0.N = 490 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 10 = 9
  · have h0 : ¬t.val % 10 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [accN0_next V c t h0]
    rw [PhiS0_castSucc V c t, PhiS0_pos V c _ _ hz]
    iintro ⟨⟨HW, Hg⟩, Ho, ⟨%d0, H0⟩, ⟨%d1, H1⟩, ⟨%d2, H2⟩, ⟨%d3, H3⟩⟩
    ihave HW' := (wrap0_out c _) $$ HW
    icases HW' with ⟨HS0, Hrest⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · iapply (wrap0_in c _)
        isplitl [HS0]
        · unfold owns; iexists _; isplitr
          swap; · iexact HS0
          ipureintro
          exact (View.read_writes_of_cover _ _ _ _ _ (scover0_C c _ _ _ _ _ _ _ _ _ _ _ _ _ _ _ _ _)).trans (sacc0_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (ocover0_C c _ _ _ _ _ _ _ _ _ _ _ _ _ _ _ _ _)).trans (out0_C c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 10 = 0
    · rw [accN0_first V c t h0]
      by_cases hz : t.val = 0
      · rw [PhiS0_castSucc V c t, PhiS0_zero V c _ _ hz, PhiA0_eq]
        iintro ⟨⟨HW, Hg⟩, Ho, ⟨%d0, H0⟩, ⟨%d1, H1⟩, ⟨%d2, H2⟩, ⟨%d3, H3⟩⟩
        ihave HW' := (wrap0_out c _) $$ HW
        icases HW' with ⟨HS0, Hrest⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · iapply (wrap0_in c _)
            isplitl [HS0]
            · unfold owns; iexists _; isplitr
              swap; · iexact HS0
              ipureintro
              exact (View.read_writes_of_cover _ _ _ _ _ (scover0_A c _ _ _ _ _ _ _ _ _ _ _ _ _ _ _ _)).trans (sacc0_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HW, Hg⟩, Ho, ⟨%d0, H0⟩, ⟨%d1, H1⟩, ⟨%d2, H2⟩, ⟨%d3, H3⟩⟩
        ihave HW' := (wrap0_out c _) $$ HW
        icases HW' with ⟨HS0, Hrest⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · iapply (wrap0_in c _)
            isplitl [HS0]
            · unfold owns; iexists _; isplitr
              swap; · iexact HS0
              ipureintro
              exact (View.read_writes_of_cover _ _ _ _ _ (scover0_A c _ _ _ _ _ _ _ _ _ _ _ _ _ _ _ _)).trans (sacc0_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accN0_next V c t h0]
      rw [PhiS0_castSucc V c t, PhiS0_pos V c _ _ hz]
      iintro ⟨⟨HW, Hg⟩, Ho, ⟨%d0, H0⟩, ⟨%d1, H1⟩, ⟨%d2, H2⟩, ⟨%d3, H3⟩⟩
      ihave HW' := (wrap0_out c _) $$ HW
      icases HW' with ⟨HS0, Hrest⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · iapply (wrap0_in c _)
          isplitl [HS0]
          · unfold owns; iexists _; isplitr
            swap; · iexact HS0
            ipureintro
            exact (View.read_writes_of_cover _ _ _ _ _ (scover0_B c _ _ _ _ _ _ _ _ _ _ _ _ _ _ _ _ _)).trans (sacc0_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 490 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨HW, Hg⟩
  isplitl [HW]
  · ihave HW' := (wrap0_out c _) $$ HW
    icases HW' with ⟨HS0, Hrest⟩
    iapply (wrap0_in c _)
    isplitl [HS0]; · iexists _; iexact HS0
    iexact Hrest
  iexact Hg

end Cert.Kernel.Hand

end
-- ==== Proof.KbR1Rest.lean ====
/-
  Call 1's view of the core's scoped buffers that are none of its staging buffers: its own accumulator and the other
  call's staging buffers and accumulator. The class's invariant holds each whole at some contents; here the
  accumulator is singled out (`wrap1 c X`: the chain with `X` in the accumulator's place) so that it can be held
  at named contents while the others ride along.
-/
import proofs.«417099_j42588895707231_1_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator: a whole scoped buffer of the kernel's own. -/
abbrev scM1 : Memref sig .tc .vmem S1024x128 .f32 := Memref.whole cc1_scratch0

/-- The other eight, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The chain with `X` in the accumulator's place (the accumulator comes last in call 1's chain). -/
def wrap1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

theorem wrap1_out (c : Dev nD) (X : sProp 𝕄) : wrap1 c X ⊢ iprop(X ∗ rest1 (F := F) c) := by
  unfold wrap1 rest1
  iintro ⟨H1, H2, H3, H4, H5, H6, H7, H8, HX⟩
  isplitl [HX]; · iexact HX
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
theorem wrap1_in (c : Dev nD) (X : sProp 𝕄) : iprop(X ∗ rest1 (F := F) c) ⊢ wrap1 c X := by
  unfold wrap1 rest1
  iintro ⟨HX, H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HX

/-- The class's invariant with the accumulator as a memref owned at some contents. -/
theorem PhiA1_eq (c : Dev nD) :
    (Pipeline.ΦA spec1 c : sProp 𝕄)
      = iprop(wrap1 c (iprop(∃ d, owns (c : Thread nD τ) scM1 fullShare d)) ∗ (∃ r, prngReg c r)) := by
  unfold Pipeline.ΦA wrap1; rw [scopedRest1_eq]; simp only [scM1, owns_whole]; try rfl

end Cert.Kernel.Hand

end
-- ==== Proof.KbR1Defs.lean ====
/-
  Region 1 (the edge-token call) of the one-hot gather kernel, as data. The grid is 586 row tiles × 10 vocabulary
  tiles, walked row tile by row tile; a point's linear position is `10 * rowTile + vocabTile`. At a point the body
  adds, into an accumulator it keeps in scratch across the ten vocabulary tiles of a row tile, the product of the
  tile's one-hot matrix (token = vocabulary id) with the table's tile; at vocabulary tile 0 it starts from zero, at
  vocabulary tile 9 it also writes `max(acc + bias, 0)` to the output block. Stated here, at any region-entry
  contents `V`: each window's block at a point, the accumulator after each point (`accN1`, by recursion on the
  position), the invariant that carries it, and the pipeline's proof data.
-/
import proofs.«417099_j42588895707231_1_alg».proof.Proof.KbR1Rest
import proofs.«417099_j42588895707231_1_alg».proof.Proof.Gen.Kernel.Skeleton
import proofs.«417099_j42588895707231_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the row tile's first vocabulary tile" (the accumulator is reset), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "This is the row tile's last vocabulary tile" (the output block is written). -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row tile's last vocabulary tile the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-! ## The accumulator after each point -/

/-- What the accumulator holds after the body at position `n`: the point's update (`k1_pay2`: the one-hot product
    added) of zero at a row tile's first vocabulary tile, of what the point before left elsewhere. -/
def accN1 (c : Dev nD) : (n : ℕ) → n < cfg1.N → Vec F S1024x128 .f32
  | 0, hn => k1_pay2 (grid1.coords ⟨0, hn⟩) (iblk1 V c 0 ⟨0, hn⟩) (k1_pay1 (F := F)) (iblk1 V c 1 ⟨0, hn⟩)
  | n + 1, hn =>
    if (n + 1) % 10 = 0 then k1_pay2 (grid1.coords ⟨n + 1, hn⟩) (iblk1 V c 0 ⟨n + 1, hn⟩) (k1_pay1 (F := F)) (iblk1 V c 1 ⟨n + 1, hn⟩)
    else k1_pay2 (grid1.coords ⟨n + 1, hn⟩) (iblk1 V c 0 ⟨n + 1, hn⟩) (accN1 c n (Nat.lt_of_succ_lt hn)) (iblk1 V c 1 ⟨n + 1, hn⟩)

/-- At a row tile's first vocabulary tile: the update of zero. -/
theorem accN1_first (c : Dev nD) (t : Fin cfg1.N) (h0 : t.val % 10 = 0) :
    accN1 V c t.val t.isLt = k1_pay2 (grid1.coords t) (iblk1 V c 0 t) (k1_pay1 (F := F)) (iblk1 V c 1 t) := by
  obtain ⟨n, hn⟩ := t
  cases n with
  | zero => rfl
  | succ n => exact (if_pos h0)

/-- Elsewhere: the update of what the point before left. -/
theorem accN1_next (c : Dev nD) (t : Fin cfg1.N) (h0 : ¬t.val % 10 = 0) :
    accN1 V c t.val t.isLt = k1_pay2 (grid1.coords t) (iblk1 V c 0 t) (accN1 V c (t.val - 1) (Nat.lt_of_le_of_lt (Nat.sub_le _ _) t.isLt)) (iblk1 V c 1 t) := by
  obtain ⟨n, hn⟩ := t
  cases n with
  | zero => exact absurd (Nat.zero_mod _) h0
  | succ n => exact (if_neg h0)

/-! ## The invariant and the proof data -/

/-- The region invariant before position `n`: before the first point the class's (every scoped buffer at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(wrap1 c (owns (c : Thread nD τ) scM1 fullShare (accN1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(wrap1 c (owns (c : Thread nD τ) scM1 fullShare (accN1 V c n hn)) ∗ (∃ r, prngReg c r)) := rfl
theorem PhiS1_pos (c : Dev nD) (n : ℕ) (h : n ≤ cfg1.N) (hz : n ≠ 0) :
    PhiS1 V c n h = iprop(wrap1 c (owns (c : Thread nD τ) scM1 fullShare (accN1 V c (n - 1) (by omega))) ∗ (∃ r, prngReg c r)) := by
  cases n with
  | zero => exact absurd rfl hz
  | succ n => rfl

/-- The proof data of pipeline 1 on core `c`: the arrays as the region finds them; after the body each input's
    buffer at its block, the output's at `max(acc + bias, 0)` of the accumulator after the point (read only where the
    block is written back: at a row tile's last vocabulary tile); the invariant carrying the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accN1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accN1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KbR1RunA.lean ====
/-
  Region 1's body run whole at a row tile's FIRST vocabulary tile (reset taken, output not written): on whole
  memrefs, the three inputs at their contents, the idle output handed back untouched, the accumulator at anything, the
  body runs to the continuation with the accumulator's stores as pieces; the pieces are what the run finds.
-/
import proofs.«417099_j42588895707231_1_alg».proof.Proof.KbR1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1 .i32) (x1 : Vec F S3200x128 .bf16) (x2 : Vec F S1x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_affine_relu_kernel i arg2 harg2 arg3 harg3 arg4 harg4 arg5 harg5 arg6 harg6) K } := by
  refine ⟨?_, fun xi3 E K => ?run⟩
  case run =>
    simp only [cc1__gather_affine_relu_kernel_eq_skeleton]; unfold cc1__gather_affine_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KbR1RunB.lean ====
/-
  Region 1's body run whole at a MIDDLE vocabulary tile (no reset, output not written): the accumulator comes in at
  what the point before left and leaves with this point's store as its piece.
-/
import proofs.«417099_j42588895707231_1_alg».proof.Proof.KbR1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1 .i32) (x1 : Vec F S3200x128 .bf16) (x2 : Vec F S1x128 .f32) (xs0 : Vec F S1024x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_affine_relu_kernel i arg2 harg2 arg3 harg3 arg4 harg4 arg5 harg5 arg6 harg6) K } := by
  refine ⟨?_, fun xi3 E K => ?run⟩
  case run =>
    simp only [cc1__gather_affine_relu_kernel_eq_skeleton]; unfold cc1__gather_affine_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KbR1RunC.lean ====
/-
  Region 1's body run whole at a row tile's LAST vocabulary tile (no reset, output written): the accumulator comes
  in at what the point before left; the output's buffer, at anything, leaves with the body's one store as its piece.
-/
import proofs.«417099_j42588895707231_1_alg».proof.Proof.KbR1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1 .i32) (x1 : Vec F S3200x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_affine_relu_kernel i arg2 harg2 arg3 harg3 arg4 harg4 arg5 harg5 arg6 harg6) K } := by
  refine ⟨?_, ?_, fun E K => ?run⟩
  case run =>
    simp only [cc1__gather_affine_relu_kernel_eq_skeleton]; unfold cc1__gather_affine_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KbR1Body.lean ====
/-
  Region 1's body obligation. The three whole-body runs leave their stores as pieces; read back, the accumulator's
  pieces are the point's update (of zero at a row tile's first vocabulary tile, of the incoming contents elsewhere)
  and the output's one piece at a row tile's last vocabulary tile is `max(acc + bias, 0)` of the updated accumulator.
  With these the body maps the invariant before a point to the invariant after it, at every point of the grid.
-/
import proofs.«417099_j42588895707231_1_alg».proof.Proof.KbR1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

/-- The accumulator as a view, and one staging buffer of the output window: contents are stated through them. -/
abbrev VS1 : View sig .tc .vmem S1024x128 .f32 := scM1.view
abbrev VO1 : View sig .tc .vmem S1024x128 .f32 := (Memref.whole cc1_stg3_0 : Memref sig .tc .vmem S1024x128 .f32).view

/-! ## The pieces cover their buffers -/

theorem scover1_A (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1 .i32) (x1 : Vec F S3200x128 .bf16) (x2 : Vec F S1x128 .f32) (y : S1024x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x128.size (by sl_kernel_rfl) y
theorem scover1_B (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1 .i32) (x1 : Vec F S3200x128 .bf16) (x2 : Vec F S1x128 .f32) (xs0 : Vec F S1024x128 .f32) (y : S1024x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1024x128.size (by sl_kernel_rfl) y
theorem scover1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y
theorem ocover1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y

/-! ## The pieces read back -/

/-- First vocabulary tile: the reset's zero block is stored, read back, and updated. -/
theorem sacc1_A (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1 .i32) (x1 : Vec F S3200x128 .bf16) (x2 : Vec F S1x128 .f32) :
    VS1.read (Elt F) (VS1.writes (Elt F) VS1.junk (kernelRun1_A c i arg2 harg2 arg3 harg3 arg4 harg4 arg5 harg5 arg6 harg6 hc0 hc1 x0 x1 x2).1)
      = k1_pay2 i x0 (k1_pay1 (F := F)) x1 := by
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, View.ld_unit_zero (S := S1024x1) hz1, View.ld_unit_zero (S := S3200x128) hz1]

/-- A middle vocabulary tile: the incoming accumulator updated. -/
theorem sacc1_B (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1 .i32) (x1 : Vec F S3200x128 .bf16) (x2 : Vec F S1x128 .f32) (xs0 : Vec F S1024x128 .f32) :
    VS1.read (Elt F) (VS1.writes (Elt F) VS1.junk (kernelRun1_B c i arg2 harg2 arg3 harg3 arg4 harg4 arg5 harg5 arg6 harg6 hc0 hc1 x0 x1 x2 xs0).1)
      = k1_pay2 i x0 xs0 x1 := by
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero hz1]
  simp only [View.readAt_eq_ld, harg2.read_unread, harg3.read_unread, harg6.read_unread, View.ld_unit_zero (S := S1024x1) hz1, View.ld_unit_zero (S := S3200x128) hz1, View.ld_unit_zero (S := S1024x128) hz1]

/-- The last vocabulary tile: the same update of the accumulator, -/
theorem sacc1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) :
    VS1.read (Elt F) (VS1.writes (Elt F) VS1.junk (kernelRun1_C c i arg2 harg2 arg3 harg3 arg4 harg4 arg5 harg5 arg6 harg6 hc0 hc1 x0 x1 x2 xs0).2.1)
      = k1_pay2 i x0 xs0 x1 := by
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg6.read_unread, View.ld_unit_zero (S := S1024x1) hz1, View.ld_unit_zero (S := S3200x128) hz1, View.ld_unit_zero (S := S1024x128) hz1]

/-- and the output block: `max(acc + bias, 0)` of the updated accumulator read back. -/
theorem out1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) :
    VO1.read (Elt F) (VO1.writes (Elt F) VO1.junk (kernelRun1_C c i arg2 harg2 arg3 harg3 arg4 harg4 arg5 harg5 arg6 harg6 hc0 hc1 x0 x1 x2 xs0).1)
      = k1_pay3 (k1_pay2 i x0 xs0 x1) x2 := by
  rw [View.read_writes_eq_canon _ _ _ (ocover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.readCov_unit_zero (S := S1024x128) _ hz1, View.ld_unit_zero (S := S1024x1) hz1, View.ld_unit_zero (S := S3200x128) hz1, View.ld_unit_zero (S := S1024x128) hz1, View.ld_unit_zero (S := S1x128) hz1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position modulo ten says which case it
    is in; the invariant hands over the accumulator (at anything at the first point, else at what the point before
    left) and takes it back at this point's contents; away from a row tile's last vocabulary tile the output's buffer
    goes back untouched, there it goes back holding the block to be written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 5860 := lt_of_lt_of_eq t.isLt (show cfg1.N = 5860 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 10 = 9
  · have h0 : ¬t.val % 10 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [accN1_next V c t h0]
    rw [PhiS1_castSucc V c t, PhiS1_pos V c _ _ hz]
    iintro ⟨⟨HW, Hg⟩, Ho, ⟨%d0, H0⟩, ⟨%d1, H1⟩, ⟨%d2, H2⟩, ⟨%d3, H3⟩⟩
    ihave HW' := (wrap1_out c _) $$ HW
    icases HW' with ⟨HS0, Hrest⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · iapply (wrap1_in c _)
        isplitl [HS0]
        · unfold owns; iexists _; isplitr
          swap; · iexact HS0
          ipureintro
          exact (View.read_writes_of_cover _ _ _ _ _ (scover1_C c _ _ _ _ _ _ _ _ _ _ _ _ _ _ _ _ _)).trans (sacc1_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (ocover1_C c _ _ _ _ _ _ _ _ _ _ _ _ _ _ _ _ _)).trans (out1_C c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 10 = 0
    · rw [accN1_first V c t h0]
      by_cases hz : t.val = 0
      · rw [PhiS1_castSucc V c t, PhiS1_zero V c _ _ hz, PhiA1_eq]
        iintro ⟨⟨HW, Hg⟩, Ho, ⟨%d0, H0⟩, ⟨%d1, H1⟩, ⟨%d2, H2⟩, ⟨%d3, H3⟩⟩
        ihave HW' := (wrap1_out c _) $$ HW
        icases HW' with ⟨HS0, Hrest⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · iapply (wrap1_in c _)
            isplitl [HS0]
            · unfold owns; iexists _; isplitr
              swap; · iexact HS0
              ipureintro
              exact (View.read_writes_of_cover _ _ _ _ _ (scover1_A c _ _ _ _ _ _ _ _ _ _ _ _ _ _ _ _)).trans (sacc1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HW, Hg⟩, Ho, ⟨%d0, H0⟩, ⟨%d1, H1⟩, ⟨%d2, H2⟩, ⟨%d3, H3⟩⟩
        ihave HW' := (wrap1_out c _) $$ HW
        icases HW' with ⟨HS0, Hrest⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · iapply (wrap1_in c _)
            isplitl [HS0]
            · unfold owns; iexists _; isplitr
              swap; · iexact HS0
              ipureintro
              exact (View.read_writes_of_cover _ _ _ _ _ (scover1_A c _ _ _ _ _ _ _ _ _ _ _ _ _ _ _ _)).trans (sacc1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accN1_next V c t h0]
      rw [PhiS1_castSucc V c t, PhiS1_pos V c _ _ hz]
      iintro ⟨⟨HW, Hg⟩, Ho, ⟨%d0, H0⟩, ⟨%d1, H1⟩, ⟨%d2, H2⟩, ⟨%d3, H3⟩⟩
      ihave HW' := (wrap1_out c _) $$ HW
      icases HW' with ⟨HS0, Hrest⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · iapply (wrap1_in c _)
          isplitl [HS0]
          · unfold owns; iexists _; isplitr
            swap; · iexact HS0
            ipureintro
            exact (View.read_writes_of_cover _ _ _ _ _ (scover1_B c _ _ _ _ _ _ _ _ _ _ _ _ _ _ _ _ _)).trans (sacc1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 5860 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨HW, Hg⟩
  isplitl [HW]
  · ihave HW' := (wrap1_out c _) $$ HW
    icases HW' with ⟨HS0, Hrest⟩
    iapply (wrap1_in c _)
    isplitl [HS0]; · iexists _; iexact HS0
    iexact Hrest
  iexact Hg

end Cert.Kernel.Hand

end
-- ==== Proof.KbRun.lean ====
/-
  The kernel program's run to the end, given a segment record per kernel region: every weakly fair execution of
  @main terminates and the final memory holds every unscoped buffer at the last of the valuations that fold @main's
  items from the launch memory. The launch is the library's several-regions launch theorem over the program's own segment list; the end
  reads all the unscoped buffers off the last thread state at once.
-/
import proofs.«417099_j42588895707231_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- The run, given the regions' records: under the same hypotheses as the conditional frame (a segment record per
    region, entered from the thread state before it and left at the one after it), every weakly fair execution of @main
    terminates and every final memory holds EVERY unscoped buffer at the last valuation — the result buffer among
    them, which is what a value claim reads. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD, ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, .rfl, .rfl, hpre1 c, hpost1 c, sep_mono .rfl (hE2 c)⟩)
    (hinit := ?_) (QY := fun c s => ∀ b ∈ Pipeline.ucRefs τ sig, s.mem (((c : Thread nD τ)).1, b) = V9 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.Kernel.Hand

end
-- ==== Proof.KbRegs.lean ====
/-
  The kernel program's two kernel regions as segments of @main, and the program's run. Each region's proof data is
  stated at the buffer contents the region is entered with: region 0 at the fold of the host operations before it
  from the launch memory, region 1 at the fold continued through region 0's output and the host operations between.
  What a region leaves in its output array is the pipeline library's fold of its write-backs (`out0`, `out1`); these
  are the unknowns the program's valuations are written over. From the records: the run (every unscoped buffer at the
  last valuation in the final memory) and, read at the arguments, the frame.
-/
import proofs.«417099_j42588895707231_1_alg».proof.Proof.KbR0Body
import proofs.«417099_j42588895707231_1_alg».proof.Proof.KbR1Body
import proofs.«417099_j42588895707231_1_alg».proof.Proof.KbRun
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions are entered with and what they leave -/

/-- Region 0's entry contents: the launch memory folded through the host operations before it. -/
abbrev Vin0 : (c : Dev nD) → (b : Ref sig .tc) → Buf (Elt F) ((c : Thread nD τ).loc b) := fun c b => V3 m c b
/-- What region 0 leaves in its output array. -/
def out0 (c : Dev nD) : Buf (Elt F) ((c : Thread nD τ).loc main_v7) := (dat0 (Vin0 m) c).arrAt 3 cfg0.N
/-- The unknowns of the valuations with region 0's output filled in (any other buffer: its entry contents, never read). -/
def outs4 (r : Ref sig .tc) (c : Dev nD) : Buf (Elt F) ((c : Thread nD τ).loc r) :=
  if h : r = main_v7 then h ▸ out0 m c else V3 m c r
abbrev outsA : Outs (F := F) := fun _ r c => outs4 m r c
/-- Region 1's entry contents: folded on through region 0's output and the host operations between the regions. -/
abbrev Vin1 : (c : Dev nD) → (b : Ref sig .tc) → Buf (Elt F) ((c : Thread nD τ).loc b) := fun c b => V7 m (outsA m) c b
/-- What region 1 leaves in its output array. -/
def out1 (c : Dev nD) : Buf (Elt F) ((c : Thread nD τ).loc main_v12) := (dat1 (Vin1 m) c).arrAt 3 cfg1.N
/-- The unknowns with both outputs filled in. -/
def outsK : Outs (F := F) := fun _ r c => if h : r = main_v12 then h ▸ out1 m c else outs4 m r c

theorem outsK_v7 (c : Dev nD) : outsK m 4 main_v7 c = out0 m c := by
  unfold outsK outs4; rw [dif_neg (by decide), dif_pos rfl]
theorem outsK_v12 (c : Dev nD) : outsK m 8 main_v12 c = out1 m c := by
  unfold outsK; rw [dif_pos rfl]
/-- Region 1's entry contents do not depend on its own output. -/
theorem V7_outsK (c : Dev nD) : V7 m (outsK m) c = V7 m (outsA m) c := by
  have h : outsK m 4 main_v7 c = outs4 m main_v7 c := by unfold outsK; rw [dif_neg (by decide)]
  show StableHlo.after hostOps1_2 (StableHlo.after hostOps1_1 (StableHlo.after hostOps1 (Function.update (V3 m c) main_v7 (outsK m 4 main_v7 c))))
    = StableHlo.after hostOps1_2 (StableHlo.after hostOps1_1 (StableHlo.after hostOps1 (Function.update (V3 m c) main_v7 (outs4 m main_v7 c))))
  rw [h]

/-! ## The proof data family and the thread state -/

def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- At region 0's exit each of its arrays holds what the pipeline leaves, every other buffer what it held at entry. -/
theorem hF0 (c : Dev nD) (w : Fin cfg0.W) : (pdats m 0 c).arrAt w cfg0.N = V4 m (outsK m) c (Pipeline.arrRef spec0 w) :=
  match w with
  | ⟨0, _⟩ => ((dat0 (Vin0 m) c).arrAt_in 0 rfl _).trans ((A_eq0 (Vin0 m) c 0).trans (V4_of m (outsK m) c main_v5 (by decide)).symm)
  | ⟨1, _⟩ => ((dat0 (Vin0 m) c).arrAt_in 1 rfl _).trans ((A_eq0 (Vin0 m) c 1).trans (V4_of m (outsK m) c main_v1 (by decide)).symm)
  | ⟨2, _⟩ => ((dat0 (Vin0 m) c).arrAt_in 2 rfl _).trans ((A_eq0 (Vin0 m) c 2).trans (V4_of m (outsK m) c main_v6 (by decide)).symm)
  | ⟨3, _⟩ => ((outsK_v7 m c).symm.trans (Function.update_self (β := fun b => Buf (Elt F) ((c : Thread nD τ).1, b)) _ _ (V3 m c)).symm)
  | ⟨_ + 4, h⟩ => absurd h (Nat.not_lt.2 (Nat.le_add_left _ _))
theorem hrest0 (c : Dev nD) : ∀ b, b ∉ Finset.univ.image (Pipeline.arrRef spec0) → V4 m (outsK m) c b = Vin0 m c b :=
  fun b hb => V4_of m (outsK m) c b (fun hmem => hb (Finset.mem_image.mpr ⟨3, Finset.mem_univ _, (List.mem_singleton.mp hmem).symm⟩))
theorem hF1 (c : Dev nD) (w : Fin cfg1.W) : (pdats m 1 c).arrAt w cfg1.N = V8 m (outsK m) c (Pipeline.arrRef spec1 w) :=
  match w with
  | ⟨0, _⟩ => ((dat1 (Vin1 m) c).arrAt_in 0 rfl _).trans ((A_eq1 (Vin1 m) c 0).trans ((V8_of m (outsK m) c main_v10 (by decide)).trans (congrFun (V7_outsK m c) _)).symm)
  | ⟨1, _⟩ => ((dat1 (Vin1 m) c).arrAt_in 1 rfl _).trans ((A_eq1 (Vin1 m) c 1).trans ((V8_of m (outsK m) c main_v3 (by decide)).trans (congrFun (V7_outsK m c) _)).symm)
  | ⟨2, _⟩ => ((dat1 (Vin1 m) c).arrAt_in 2 rfl _).trans ((A_eq1 (Vin1 m) c 2).trans ((V8_of m (outsK m) c main_v11 (by decide)).trans (congrFun (V7_outsK m c) _)).symm)
  | ⟨3, _⟩ => ((outsK_v12 m c).symm.trans (Function.update_self (β := fun b => Buf (Elt F) ((c : Thread nD τ).1, b)) _ _ (V7 m (outsK m) c)).symm)
  | ⟨_ + 4, h⟩ => absurd h (Nat.not_lt.2 (Nat.le_add_left _ _))
theorem hrest1 (c : Dev nD) : ∀ b, b ∉ Finset.univ.image (Pipeline.arrRef spec1) → V8 m (outsK m) c b = Vin1 m c b :=
  fun b hb => (V8_of m (outsK m) c b (fun hmem => hb (Finset.mem_image.mpr ⟨3, Finset.mem_univ _, (List.mem_singleton.mp hmem).symm⟩))).trans (congrFun (V7_outsK m c) _)

/-! ## The regions as segments -/

set_option backward.isDefEq.respectTransparency.types false in
/-- Region 0 over the thread state: entered from every unscoped buffer at the valuation before it, left at the one
    after it. Its arrays are split out of the unscoped buffers and put back at their final contents; the generator
    register goes into the invariant and comes back; the accumulator's named contents are forgotten at the exit;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (Vin0 m) c)
    unfold Pipeline.ΦA
    iintro ⟨Hp, -, Hr⟩
    isplitl [Hr]; · iexact Hr
    iexact Hp
  hout c := by
    refine (show (pdats m 0 c).Φ (Fin.last _) ⊢ Pipeline.ΦA spec0 c from hout0 (Vin0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => (V4 m (outsK m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the one
    after it. Its arrays are split out of the unscoped buffers and put back at their final contents; the generator
    register goes into the invariant and comes back; the accumulator's named contents are forgotten at the exit;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V7 m (outsK m) c) ∗ R c)
  post c := iprop(StableHlo.held (c : Thread nD τ) (Pipeline.ucRefs τ sig) (V8 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    rw [V7_outsK m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (Vin1 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (Vin1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => (V8 m (outsK m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- The kernel program runs to the end and every unscoped buffer ends at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V9 m (outsK m) c b) :=
  run_cond m emb₁ () 𝒱₀ L lv (fun _ _ => rfl) ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hcore : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ (R (F := F) c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ (fun c : Dev nD => R (F := F) c) : sProp 𝕄) :=
        bigSep_mono fun c _ => hcore c
      iintro ⟨H, -⟩
      imodintro
      iapply hmono
      iexact H)
    (fun c => by iintro ⟨-, HO⟩; iexact HO)
    (reg0 m) (fun c => .rfl) (fun c => .rfl)
    (reg1 m) (fun c => .rfl) (fun c => .rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (V9_main_arg0 m (outsK m) c),
     (h c _ (mem_uc main_arg1 (by decide))).trans (V9_main_arg1 m (outsK m) c),
     (h c _ (mem_uc main_arg2 (by decide))).trans (V9_main_arg2 m (outsK m) c),
     (h c _ (mem_uc main_arg3 (by decide))).trans (V9_main_arg3 m (outsK m) c),
     (h c _ (mem_uc main_arg4 (by decide))).trans (V9_main_arg4 m (outsK m) c),
     (h c _ (mem_uc main_arg5 (by decide))).trans (V9_main_arg5 m (outsK m) c),
     (h c _ (mem_uc main_arg6 (by decide))).trans (V9_main_arg6 m (outsK m) c),
     (h c _ (mem_uc main_arg7 (by decide))).trans (V9_main_arg7 m (outsK m) c),
     (h c _ (mem_uc main_arg8 (by decide))).trans (V9_main_arg8 m (outsK m) c)⟩) (run_all m ρ)

end Cert.Kernel.Hand

end
-- ==== Proof.KiR0Rest.lean ====
/-
  Call 0's view of the core's scoped buffers that are none of its staging buffers: its own accumulator and the other
  call's staging buffers and accumulator. The class's invariant holds each whole at some contents; here the
  accumulator is singled out (`wrap0 c X`: the chain with `X` in the accumulator's place) so that it can be held
  at named contents while the others ride along.
-/
import proofs.«417099_j42588895707231_1_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator: a whole scoped buffer of the kernel's own. -/
abbrev scM0 : Memref sig .tc .vmem S1024x128 .f32 := Memref.whole cc0_scratch0

/-- The other eight, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The chain with `X` in the accumulator's place (the accumulator comes first in call 0's chain). -/
def wrap0 (c : Dev nD) (X : sProp 𝕄) : sProp 𝕄 := iprop(X ∗ rest0 (F := F) c)

theorem wrap0_out (c : Dev nD) (X : sProp 𝕄) : wrap0 c X ⊢ iprop(X ∗ rest0 (F := F) c) := .rfl
theorem wrap0_in (c : Dev nD) (X : sProp 𝕄) : iprop(X ∗ rest0 (F := F) c) ⊢ wrap0 c X := .rfl

/-- The class's invariant with the accumulator as a memref owned at some contents. -/
theorem PhiA0_eq (c : Dev nD) :
    (Pipeline.ΦA spec0 c : sProp 𝕄)
      = iprop(wrap0 c (iprop(∃ d, owns (c : Thread nD τ) scM0 fullShare d)) ∗ (∃ r, prngReg c r)) := by
  unfold Pipeline.ΦA wrap0 rest0; rw [scopedRest0_eq]; simp only [scM0, owns_whole]; try rfl

end Cert.KernelIdeal.Hand

end
-- ==== Proof.KiR0Defs.lean ====
/-
  Region 0 (the node-token call) of the one-hot gather kernel, as data. The grid is 49 row tiles × 10 vocabulary
  tiles, walked row tile by row tile; a point's linear position is `10 * rowTile + vocabTile`. At a point the body
  adds, into an accumulator it keeps in scratch across the ten vocabulary tiles of a row tile, the product of the
  tile's one-hot matrix (token = vocabulary id) with the table's tile; at vocabulary tile 0 it starts from zero, at
  vocabulary tile 9 it also writes `max(acc + bias, 0)` to the output block. Stated here, at any region-entry
  contents `V`: each window's block at a point, the accumulator after each point (`accN0`, by recursion on the
  position), the invariant that carries it, and the pipeline's proof data.
-/
import proofs.«417099_j42588895707231_1_alg».proof.Proof.KiR0Rest
import proofs.«417099_j42588895707231_1_alg».proof.Proof.Gen.KernelIdeal.Skeleton
import proofs.«417099_j42588895707231_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the row tile's first vocabulary tile" (the accumulator is reset), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the row tile's last vocabulary tile" (the output block is written). -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row tile's last vocabulary tile the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-! ## The accumulator after each point -/

/-- What the accumulator holds after the body at position `n`: the point's update (`k0_pay2`: the one-hot product
    added) of zero at a row tile's first vocabulary tile, of what the point before left elsewhere. -/
def accN0 (c : Dev nD) : (n : ℕ) → n < cfg0.N → Vec F S1024x128 .f32
  | 0, hn => k0_pay2 (grid0.coords ⟨0, hn⟩) (iblk0 V c 0 ⟨0, hn⟩) (k0_pay1 (F := F)) (iblk0 V c 1 ⟨0, hn⟩)
  | n + 1, hn =>
    if (n + 1) % 10 = 0 then k0_pay2 (grid0.coords ⟨n + 1, hn⟩) (iblk0 V c 0 ⟨n + 1, hn⟩) (k0_pay1 (F := F)) (iblk0 V c 1 ⟨n + 1, hn⟩)
    else k0_pay2 (grid0.coords ⟨n + 1, hn⟩) (iblk0 V c 0 ⟨n + 1, hn⟩) (accN0 c n (Nat.lt_of_succ_lt hn)) (iblk0 V c 1 ⟨n + 1, hn⟩)

/-- At a row tile's first vocabulary tile: the update of zero. -/
theorem accN0_first (c : Dev nD) (t : Fin cfg0.N) (h0 : t.val % 10 = 0) :
    accN0 V c t.val t.isLt = k0_pay2 (grid0.coords t) (iblk0 V c 0 t) (k0_pay1 (F := F)) (iblk0 V c 1 t) := by
  obtain ⟨n, hn⟩ := t
  cases n with
  | zero => rfl
  | succ n => exact (if_pos h0)

/-- Elsewhere: the update of what the point before left. -/
theorem accN0_next (c : Dev nD) (t : Fin cfg0.N) (h0 : ¬t.val % 10 = 0) :
    accN0 V c t.val t.isLt = k0_pay2 (grid0.coords t) (iblk0 V c 0 t) (accN0 V c (t.val - 1) (Nat.lt_of_le_of_lt (Nat.sub_le _ _) t.isLt)) (iblk0 V c 1 t) := by
  obtain ⟨n, hn⟩ := t
  cases n with
  | zero => exact absurd (Nat.zero_mod _) h0
  | succ n => exact (if_neg h0)

/-! ## The invariant and the proof data -/

/-- The region invariant before position `n`: before the first point the class's (every scoped buffer at anything);
    afterwards the accumulator at what the point before left, the other scoped buffers at anything, the generator
    register at some state. -/
def PhiS0 (c : Dev nD) : (n : ℕ) → n ≤ cfg0.N → sProp 𝕄
  | 0, _ => Pipeline.ΦA spec0 c
  | n + 1, hn => iprop(wrap0 c (owns (c : Thread nD τ) scM0 fullShare (accN0 V c n hn)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(wrap0 c (owns (c : Thread nD τ) scM0 fullShare (accN0 V c n hn)) ∗ (∃ r, prngReg c r)) := rfl
theorem PhiS0_pos (c : Dev nD) (n : ℕ) (h : n ≤ cfg0.N) (hz : n ≠ 0) :
    PhiS0 V c n h = iprop(wrap0 c (owns (c : Thread nD τ) scM0 fullShare (accN0 V c (n - 1) (by omega))) ∗ (∃ r, prngReg c r)) := by
  cases n with
  | zero => exact absurd rfl hz
  | succ n => rfl

/-- The proof data of pipeline 0 on core `c`: the arrays as the region finds them; after the body each input's
    buffer at its block, the output's at `max(acc + bias, 0)` of the accumulator after the point (read only where the
    block is written back: at a row tile's last vocabulary tile); the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accN0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (accN0 V c t.val t.isLt) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.KiR0RunA.lean ====
/-
  Region 0's body run whole at a row tile's FIRST vocabulary tile (reset taken, output not written): on whole
  memrefs, the three inputs at their contents, the idle output handed back untouched, the accumulator at anything, the
  body runs to the continuation with the accumulator's stores as pieces; the pieces are what the run finds.
-/
import proofs.«417099_j42588895707231_1_alg».proof.Proof.KiR0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1 .i32) (x1 : Vec F S3200x128 .bf16) (x2 : Vec F S1x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_affine_relu_kernel i arg2 harg2 arg3 harg3 arg4 harg4 arg5 harg5 arg6 harg6) K } := by
  refine ⟨?_, fun xi3 E K => ?run⟩
  case run =>
    simp only [cc0__gather_affine_relu_kernel_eq_skeleton]; unfold cc0__gather_affine_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KiR0RunB.lean ====
/-
  Region 0's body run whole at a MIDDLE vocabulary tile (no reset, output not written): the accumulator comes in at
  what the point before left and leaves with this point's store as its piece.
-/
import proofs.«417099_j42588895707231_1_alg».proof.Proof.KiR0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S3200x128 .bf16) (x2 : Vec F S1x128 .f32) (xs0 : Vec F S1024x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_affine_relu_kernel i arg2 harg2 arg3 harg3 arg4 harg4 arg5 harg5 arg6 harg6) K } := by
  refine ⟨?_, fun xi3 E K => ?run⟩
  case run =>
    simp only [cc0__gather_affine_relu_kernel_eq_skeleton]; unfold cc0__gather_affine_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KiR0RunC.lean ====
/-
  Region 0's body run whole at a row tile's LAST vocabulary tile (no reset, output written): the accumulator comes
  in at what the point before left; the output's buffer, at anything, leaves with the body's one store as its piece.
-/
import proofs.«417099_j42588895707231_1_alg».proof.Proof.KiR0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1 .i32) (x1 : Vec F S3200x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_affine_relu_kernel i arg2 harg2 arg3 harg3 arg4 harg4 arg5 harg5 arg6 harg6) K } := by
  refine ⟨?_, ?_, fun E K => ?run⟩
  case run =>
    simp only [cc0__gather_affine_relu_kernel_eq_skeleton]; unfold cc0__gather_affine_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KiR0Body.lean ====
/-
  Region 0's body obligation. The three whole-body runs leave their stores as pieces; read back, the accumulator's
  pieces are the point's update (of zero at a row tile's first vocabulary tile, of the incoming contents elsewhere)
  and the output's one piece at a row tile's last vocabulary tile is `max(acc + bias, 0)` of the updated accumulator.
  With these the body maps the invariant before a point to the invariant after it, at every point of the grid.
-/
import proofs.«417099_j42588895707231_1_alg».proof.Proof.KiR0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

/-- The accumulator as a view, and one staging buffer of the output window: contents are stated through them. -/
abbrev VS0 : View sig .tc .vmem S1024x128 .f32 := scM0.view
abbrev VO0 : View sig .tc .vmem S1024x128 .f32 := (Memref.whole cc0_stg3_0 : Memref sig .tc .vmem S1024x128 .f32).view

/-! ## The pieces cover their buffers -/

theorem scover0_A (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1 .i32) (x1 : Vec F S3200x128 .bf16) (x2 : Vec F S1x128 .f32) (y : S1024x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x128.size (by sl_kernel_rfl) y
theorem scover0_B (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1 .i32) (x1 : Vec F S3200x128 .bf16) (x2 : Vec F S1x128 .f32) (xs0 : Vec F S1024x128 .f32) (y : S1024x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1024x128.size (by sl_kernel_rfl) y
theorem scover0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y
theorem ocover0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y

/-! ## The pieces read back -/

/-- First vocabulary tile: the reset's zero block is stored, read back, and updated. -/
theorem sacc0_A (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1 .i32) (x1 : Vec F S3200x128 .bf16) (x2 : Vec F S1x128 .f32) :
    VS0.read (Elt F) (VS0.writes (Elt F) VS0.junk (kernelRun0_A c i arg2 harg2 arg3 harg3 arg4 harg4 arg5 harg5 arg6 harg6 hc0 hc1 x0 x1 x2).1)
      = k0_pay2 i x0 (k0_pay1 (F := F)) x1 := by
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x128) hz0, View.readCov_unit_zero (S := S1024x128) _ hz0]
  simp only [View.readAt_eq_ld, harg2.read_unread, harg3.read_unread, View.ld_unit_zero (S := S1024x1) hz0, View.ld_unit_zero (S := S3200x128) hz0]

/-- A middle vocabulary tile: the incoming accumulator updated. -/
theorem sacc0_B (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1 .i32) (x1 : Vec F S3200x128 .bf16) (x2 : Vec F S1x128 .f32) (xs0 : Vec F S1024x128 .f32) :
    VS0.read (Elt F) (VS0.writes (Elt F) VS0.junk (kernelRun0_B c i arg2 harg2 arg3 harg3 arg4 harg4 arg5 harg5 arg6 harg6 hc0 hc1 x0 x1 x2 xs0).1)
      = k0_pay2 i x0 xs0 x1 := by
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz0]
  simp only [View.readAt_eq_ld, harg2.read_unread, harg3.read_unread, harg6.read_unread, View.ld_unit_zero (S := S1024x1) hz0, View.ld_unit_zero (S := S3200x128) hz0, View.ld_unit_zero (S := S1024x128) hz0]

/-- The last vocabulary tile: the same update of the accumulator, -/
theorem sacc0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) :
    VS0.read (Elt F) (VS0.writes (Elt F) VS0.junk (kernelRun0_C c i arg2 harg2 arg3 harg3 arg4 harg4 arg5 harg5 arg6 harg6 hc0 hc1 x0 x1 x2 xs0).2.1)
      = k0_pay2 i x0 xs0 x1 := by
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz0]
  simp only [View.readAt_eq_ld, harg2.read_unread, harg3.read_unread, harg6.read_unread, View.ld_unit_zero (S := S1024x1) hz0, View.ld_unit_zero (S := S3200x128) hz0, View.ld_unit_zero (S := S1024x128) hz0]

/-- and the output block: `max(acc + bias, 0)` of the updated accumulator read back. -/
theorem out0_C (c : Dev nD) (i : grid0.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1 .i32) (x1 : Vec F S3200x128 .bf16) (x2 : Vec F S1x128 .f32) (xs0 : Vec F S1024x128 .f32) :
    VO0.read (Elt F) (VO0.writes (Elt F) VO0.junk (kernelRun0_C c i arg2 harg2 arg3 harg3 arg4 harg4 arg5 harg5 arg6 harg6 hc0 hc1 x0 x1 x2 xs0).1)
      = k0_pay3 (k0_pay2 i x0 xs0 x1) x2 := by
  rw [View.read_writes_eq_canon _ _ _ (ocover0_C c i arg2 harg2 arg3 harg3 arg4 harg4 arg5 harg5 arg6 harg6 hc0 hc1 x0 x1 x2 xs0)]
  unfold kernelRun0_C
  dsimp only
  sl_unfold_words
  rw [View.canon_unit_zero hz0]
  simp only [View.readAt_eq_ld, harg2.read_unread, harg3.read_unread, harg4.read_unread, harg6.read_unread, View.readCov_unit_zero (S := S1024x128) _ hz0, View.ld_unit_zero (S := S1024x1) hz0, View.ld_unit_zero (S := S3200x128) hz0, View.ld_unit_zero (S := S1024x128) hz0, View.ld_unit_zero (S := S1x128) hz0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's position modulo ten says which case it
    is in; the invariant hands over the accumulator (at anything at the first point, else at what the point before
    left) and takes it back at this point's contents; away from a row tile's last vocabulary tile the output's buffer
    goes back untouched, there it goes back holding the block to be written. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 490 := lt_of_lt_of_eq t.isLt (show cfg0.N = 490 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 10 = 9
  · have h0 : ¬t.val % 10 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [accN0_next V c t h0]
    rw [PhiS0_castSucc V c t, PhiS0_pos V c _ _ hz]
    iintro ⟨⟨HW, Hg⟩, Ho, ⟨%d0, H0⟩, ⟨%d1, H1⟩, ⟨%d2, H2⟩, ⟨%d3, H3⟩⟩
    ihave HW' := (wrap0_out c _) $$ HW
    icases HW' with ⟨HS0, Hrest⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · iapply (wrap0_in c _)
        isplitl [HS0]
        · unfold owns; iexists _; isplitr
          swap; · iexact HS0
          ipureintro
          exact (View.read_writes_of_cover _ _ _ _ _ (scover0_C c _ _ _ _ _ _ _ _ _ _ _ _ _ _ _ _ _)).trans (sacc0_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (ocover0_C c _ _ _ _ _ _ _ _ _ _ _ _ _ _ _ _ _)).trans (out0_C c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 10 = 0
    · rw [accN0_first V c t h0]
      by_cases hz : t.val = 0
      · rw [PhiS0_castSucc V c t, PhiS0_zero V c _ _ hz, PhiA0_eq]
        iintro ⟨⟨HW, Hg⟩, Ho, ⟨%d0, H0⟩, ⟨%d1, H1⟩, ⟨%d2, H2⟩, ⟨%d3, H3⟩⟩
        ihave HW' := (wrap0_out c _) $$ HW
        icases HW' with ⟨HS0, Hrest⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · iapply (wrap0_in c _)
            isplitl [HS0]
            · unfold owns; iexists _; isplitr
              swap; · iexact HS0
              ipureintro
              exact (View.read_writes_of_cover _ _ _ _ _ (scover0_A c _ _ _ _ _ _ _ _ _ _ _ _ _ _ _ _)).trans (sacc0_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HW, Hg⟩, Ho, ⟨%d0, H0⟩, ⟨%d1, H1⟩, ⟨%d2, H2⟩, ⟨%d3, H3⟩⟩
        ihave HW' := (wrap0_out c _) $$ HW
        icases HW' with ⟨HS0, Hrest⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · iapply (wrap0_in c _)
            isplitl [HS0]
            · unfold owns; iexists _; isplitr
              swap; · iexact HS0
              ipureintro
              exact (View.read_writes_of_cover _ _ _ _ _ (scover0_A c _ _ _ _ _ _ _ _ _ _ _ _ _ _ _ _)).trans (sacc0_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accN0_next V c t h0]
      rw [PhiS0_castSucc V c t, PhiS0_pos V c _ _ hz]
      iintro ⟨⟨HW, Hg⟩, Ho, ⟨%d0, H0⟩, ⟨%d1, H1⟩, ⟨%d2, H2⟩, ⟨%d3, H3⟩⟩
      ihave HW' := (wrap0_out c _) $$ HW
      icases HW' with ⟨HS0, Hrest⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · iapply (wrap0_in c _)
          isplitl [HS0]
          · unfold owns; iexists _; isplitr
            swap; · iexact HS0
            ipureintro
            exact (View.read_writes_of_cover _ _ _ _ _ (scover0_B c _ _ _ _ _ _ _ _ _ _ _ _ _ _ _ _ _)).trans (sacc0_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 490 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨HW, Hg⟩
  isplitl [HW]
  · ihave HW' := (wrap0_out c _) $$ HW
    icases HW' with ⟨HS0, Hrest⟩
    iapply (wrap0_in c _)
    isplitl [HS0]; · iexists _; iexact HS0
    iexact Hrest
  iexact Hg

end Cert.KernelIdeal.Hand

end
-- ==== Proof.KiR1Rest.lean ====
/-
  Call 1's view of the core's scoped buffers that are none of its staging buffers: its own accumulator and the other
  call's staging buffers and accumulator. The class's invariant holds each whole at some contents; here the
  accumulator is singled out (`wrap1 c X`: the chain with `X` in the accumulator's place) so that it can be held
  at named contents while the others ride along.
-/
import proofs.«417099_j42588895707231_1_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator: a whole scoped buffer of the kernel's own. -/
abbrev scM1 : Memref sig .tc .vmem S1024x128 .f32 := Memref.whole cc1_scratch0

/-- The other eight, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The chain with `X` in the accumulator's place (the accumulator comes last in call 1's chain). -/
def wrap1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

theorem wrap1_out (c : Dev nD) (X : sProp 𝕄) : wrap1 c X ⊢ iprop(X ∗ rest1 (F := F) c) := by
  unfold wrap1 rest1
  iintro ⟨H1, H2, H3, H4, H5, H6, H7, H8, HX⟩
  isplitl [HX]; · iexact HX
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
theorem wrap1_in (c : Dev nD) (X : sProp 𝕄) : iprop(X ∗ rest1 (F := F) c) ⊢ wrap1 c X := by
  unfold wrap1 rest1
  iintro ⟨HX, H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HX

/-- The class's invariant with the accumulator as a memref owned at some contents. -/
theorem PhiA1_eq (c : Dev nD) :
    (Pipeline.ΦA spec1 c : sProp 𝕄)
      = iprop(wrap1 c (iprop(∃ d, owns (c : Thread nD τ) scM1 fullShare d)) ∗ (∃ r, prngReg c r)) := by
  unfold Pipeline.ΦA wrap1; rw [scopedRest1_eq]; simp only [scM1, owns_whole]; try rfl

end Cert.KernelIdeal.Hand

end
-- ==== Proof.KiR1Defs.lean ====
/-
  Region 1 (the edge-token call) of the one-hot gather kernel, as data. The grid is 586 row tiles × 10 vocabulary
  tiles, walked row tile by row tile; a point's linear position is `10 * rowTile + vocabTile`. At a point the body
  adds, into an accumulator it keeps in scratch across the ten vocabulary tiles of a row tile, the product of the
  tile's one-hot matrix (token = vocabulary id) with the table's tile; at vocabulary tile 0 it starts from zero, at
  vocabulary tile 9 it also writes `max(acc + bias, 0)` to the output block. Stated here, at any region-entry
  contents `V`: each window's block at a point, the accumulator after each point (`accN1`, by recursion on the
  position), the invariant that carries it, and the pipeline's proof data.
-/
import proofs.«417099_j42588895707231_1_alg».proof.Proof.KiR1Rest
import proofs.«417099_j42588895707231_1_alg».proof.Proof.Gen.KernelIdeal.Skeleton
import proofs.«417099_j42588895707231_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the row tile's first vocabulary tile" (the accumulator is reset), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "This is the row tile's last vocabulary tile" (the output block is written). -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row tile's last vocabulary tile the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-! ## The accumulator after each point -/

/-- What the accumulator holds after the body at position `n`: the point's update (`k1_pay2`: the one-hot product
    added) of zero at a row tile's first vocabulary tile, of what the point before left elsewhere. -/
def accN1 (c : Dev nD) : (n : ℕ) → n < cfg1.N → Vec F S1024x128 .f32
  | 0, hn => k1_pay2 (grid1.coords ⟨0, hn⟩) (iblk1 V c 0 ⟨0, hn⟩) (k1_pay1 (F := F)) (iblk1 V c 1 ⟨0, hn⟩)
  | n + 1, hn =>
    if (n + 1) % 10 = 0 then k1_pay2 (grid1.coords ⟨n + 1, hn⟩) (iblk1 V c 0 ⟨n + 1, hn⟩) (k1_pay1 (F := F)) (iblk1 V c 1 ⟨n + 1, hn⟩)
    else k1_pay2 (grid1.coords ⟨n + 1, hn⟩) (iblk1 V c 0 ⟨n + 1, hn⟩) (accN1 c n (Nat.lt_of_succ_lt hn)) (iblk1 V c 1 ⟨n + 1, hn⟩)

/-- At a row tile's first vocabulary tile: the update of zero. -/
theorem accN1_first (c : Dev nD) (t : Fin cfg1.N) (h0 : t.val % 10 = 0) :
    accN1 V c t.val t.isLt = k1_pay2 (grid1.coords t) (iblk1 V c 0 t) (k1_pay1 (F := F)) (iblk1 V c 1 t) := by
  obtain ⟨n, hn⟩ := t
  cases n with
  | zero => rfl
  | succ n => exact (if_pos h0)

/-- Elsewhere: the update of what the point before left. -/
theorem accN1_next (c : Dev nD) (t : Fin cfg1.N) (h0 : ¬t.val % 10 = 0) :
    accN1 V c t.val t.isLt = k1_pay2 (grid1.coords t) (iblk1 V c 0 t) (accN1 V c (t.val - 1) (Nat.lt_of_le_of_lt (Nat.sub_le _ _) t.isLt)) (iblk1 V c 1 t) := by
  obtain ⟨n, hn⟩ := t
  cases n with
  | zero => exact absurd (Nat.zero_mod _) h0
  | succ n => exact (if_neg h0)

/-! ## The invariant and the proof data -/

/-- The region invariant before position `n`: before the first point the class's (every scoped buffer at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(wrap1 c (owns (c : Thread nD τ) scM1 fullShare (accN1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(wrap1 c (owns (c : Thread nD τ) scM1 fullShare (accN1 V c n hn)) ∗ (∃ r, prngReg c r)) := rfl
theorem PhiS1_pos (c : Dev nD) (n : ℕ) (h : n ≤ cfg1.N) (hz : n ≠ 0) :
    PhiS1 V c n h = iprop(wrap1 c (owns (c : Thread nD τ) scM1 fullShare (accN1 V c (n - 1) (by omega))) ∗ (∃ r, prngReg c r)) := by
  cases n with
  | zero => exact absurd rfl hz
  | succ n => rfl

/-- The proof data of pipeline 1 on core `c`: the arrays as the region finds them; after the body each input's
    buffer at its block, the output's at `max(acc + bias, 0)` of the accumulator after the point (read only where the
    block is written back: at a row tile's last vocabulary tile); the invariant carrying the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accN1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accN1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KiR1RunA.lean ====
/-
  Region 1's body run whole at a row tile's FIRST vocabulary tile (reset taken, output not written): on whole
  memrefs, the three inputs at their contents, the idle output handed back untouched, the accumulator at anything, the
  body runs to the continuation with the accumulator's stores as pieces; the pieces are what the run finds.
-/
import proofs.«417099_j42588895707231_1_alg».proof.Proof.KiR1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1 .i32) (x1 : Vec F S3200x128 .bf16) (x2 : Vec F S1x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_affine_relu_kernel i arg2 harg2 arg3 harg3 arg4 harg4 arg5 harg5 arg6 harg6) K } := by
  refine ⟨?_, fun xi3 E K => ?run⟩
  case run =>
    simp only [cc1__gather_affine_relu_kernel_eq_skeleton]; unfold cc1__gather_affine_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KiR1RunB.lean ====
/-
  Region 1's body run whole at a MIDDLE vocabulary tile (no reset, output not written): the accumulator comes in at
  what the point before left and leaves with this point's store as its piece.
-/
import proofs.«417099_j42588895707231_1_alg».proof.Proof.KiR1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1 .i32) (x1 : Vec F S3200x128 .bf16) (x2 : Vec F S1x128 .f32) (xs0 : Vec F S1024x128 .f32) :
    { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_affine_relu_kernel i arg2 harg2 arg3 harg3 arg4 harg4 arg5 harg5 arg6 harg6) K } := by
  refine ⟨?_, fun xi3 E K => ?run⟩
  case run =>
    simp only [cc1__gather_affine_relu_kernel_eq_skeleton]; unfold cc1__gather_affine_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KiR1RunC.lean ====
/-
  Region 1's body run whole at a row tile's LAST vocabulary tile (no reset, output written): the accumulator comes
  in at what the point before left; the output's buffer, at anything, leaves with the body's one store as its piece.
-/
import proofs.«417099_j42588895707231_1_alg».proof.Proof.KiR1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1 .i32) (x1 : Vec F S3200x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_affine_relu_kernel i arg2 harg2 arg3 harg3 arg4 harg4 arg5 harg5 arg6 harg6) K } := by
  refine ⟨?_, ?_, fun E K => ?run⟩
  case run =>
    simp only [cc1__gather_affine_relu_kernel_eq_skeleton]; unfold cc1__gather_affine_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KiR1Body.lean ====
/-
  Region 1's body obligation. The three whole-body runs leave their stores as pieces; read back, the accumulator's
  pieces are the point's update (of zero at a row tile's first vocabulary tile, of the incoming contents elsewhere)
  and the output's one piece at a row tile's last vocabulary tile is `max(acc + bias, 0)` of the updated accumulator.
  With these the body maps the invariant before a point to the invariant after it, at every point of the grid.
-/
import proofs.«417099_j42588895707231_1_alg».proof.Proof.KiR1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

/-- The accumulator as a view, and one staging buffer of the output window: contents are stated through them. -/
abbrev VS1 : View sig .tc .vmem S1024x128 .f32 := scM1.view
abbrev VO1 : View sig .tc .vmem S1024x128 .f32 := (Memref.whole cc1_stg3_0 : Memref sig .tc .vmem S1024x128 .f32).view

/-! ## The pieces cover their buffers -/

theorem scover1_A (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1 .i32) (x1 : Vec F S3200x128 .bf16) (x2 : Vec F S1x128 .f32) (y : S1024x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S1024x128.size (by sl_kernel_rfl) y
theorem scover1_B (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1 .i32) (x1 : Vec F S3200x128 .bf16) (x2 : Vec F S1x128 .f32) (xs0 : Vec F S1024x128 .f32) (y : S1024x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1024x128.size (by sl_kernel_rfl) y
theorem scover1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y
theorem ocover1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y

/-! ## The pieces read back -/

/-- First vocabulary tile: the reset's zero block is stored, read back, and updated. -/
theorem sacc1_A (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i) (x0 : Vec F S1024x1 .i32) (x1 : Vec F S3200x128 .bf16) (x2 : Vec F S1x128 .f32) :
    VS1.read (Elt F) (VS1.writes (Elt F) VS1.junk (kernelRun1_A c i arg2 harg2 arg3 harg3 arg4 harg4 arg5 harg5 arg6 harg6 hc0 hc1 x0 x1 x2).1)
      = k1_pay2 i x0 (k1_pay1 (F := F)) x1 := by
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, View.ld_unit_zero (S := S1024x1) hz1, View.ld_unit_zero (S := S3200x128) hz1]

/-- A middle vocabulary tile: the incoming accumulator updated. -/
theorem sacc1_B (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i) (x0 : Vec F S1024x1 .i32) (x1 : Vec F S3200x128 .bf16) (x2 : Vec F S1x128 .f32) (xs0 : Vec F S1024x128 .f32) :
    VS1.read (Elt F) (VS1.writes (Elt F) VS1.junk (kernelRun1_B c i arg2 harg2 arg3 harg3 arg4 harg4 arg5 harg5 arg6 harg6 hc0 hc1 x0 x1 x2 xs0).1)
      = k1_pay2 i x0 xs0 x1 := by
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero hz1]
  simp only [View.readAt_eq_ld, harg2.read_unread, harg3.read_unread, harg6.read_unread, View.ld_unit_zero (S := S1024x1) hz1, View.ld_unit_zero (S := S3200x128) hz1, View.ld_unit_zero (S := S1024x128) hz1]

/-- The last vocabulary tile: the same update of the accumulator, -/
theorem sacc1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) :
    VS1.read (Elt F) (VS1.writes (Elt F) VS1.junk (kernelRun1_C c i arg2 harg2 arg3 harg3 arg4 harg4 arg5 harg5 arg6 harg6 hc0 hc1 x0 x1 x2 xs0).2.1)
      = k1_pay2 i x0 xs0 x1 := by
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg6.read_unread, View.ld_unit_zero (S := S1024x1) hz1, View.ld_unit_zero (S := S3200x128) hz1, View.ld_unit_zero (S := S1024x128) hz1]

/-- and the output block: `max(acc + bias, 0)` of the updated accumulator read back. -/
theorem out1_C (c : Dev nD) (i : grid1.Coords) (arg2 : Memref sig .tc .vmem S1024x1 .i32) (harg2 : arg2.IsWhole) (arg3 : Memref sig .tc .vmem S3200x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i) (x0 : Vec F S1024x1 .i32) (x1 : Vec F S3200x128 .bf16) (x2 : Vec F S1x128 .f32) (xs0 : Vec F S1024x128 .f32) :
    VO1.read (Elt F) (VO1.writes (Elt F) VO1.junk (kernelRun1_C c i arg2 harg2 arg3 harg3 arg4 harg4 arg5 harg5 arg6 harg6 hc0 hc1 x0 x1 x2 xs0).1)
      = k1_pay3 (k1_pay2 i x0 xs0 x1) x2 := by
  rw [View.read_writes_eq_canon _ _ _ (ocover1_C c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.readCov_unit_zero (S := S1024x128) _ hz1, View.ld_unit_zero (S := S1024x1) hz1, View.ld_unit_zero (S := S3200x128) hz1, View.ld_unit_zero (S := S1024x128) hz1, View.ld_unit_zero (S := S1x128) hz1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position modulo ten says which case it
    is in; the invariant hands over the accumulator (at anything at the first point, else at what the point before
    left) and takes it back at this point's contents; away from a row tile's last vocabulary tile the output's buffer
    goes back untouched, there it goes back holding the block to be written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 5860 := lt_of_lt_of_eq t.isLt (show cfg1.N = 5860 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 10 = 9
  · have h0 : ¬t.val % 10 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [accN1_next V c t h0]
    rw [PhiS1_castSucc V c t, PhiS1_pos V c _ _ hz]
    iintro ⟨⟨HW, Hg⟩, Ho, ⟨%d0, H0⟩, ⟨%d1, H1⟩, ⟨%d2, H2⟩, ⟨%d3, H3⟩⟩
    ihave HW' := (wrap1_out c _) $$ HW
    icases HW' with ⟨HS0, Hrest⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · iapply (wrap1_in c _)
        isplitl [HS0]
        · unfold owns; iexists _; isplitr
          swap; · iexact HS0
          ipureintro
          exact (View.read_writes_of_cover _ _ _ _ _ (scover1_C c _ _ _ _ _ _ _ _ _ _ _ _ _ _ _ _ _)).trans (sacc1_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (ocover1_C c _ _ _ _ _ _ _ _ _ _ _ _ _ _ _ _ _)).trans (out1_C c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 10 = 0
    · rw [accN1_first V c t h0]
      by_cases hz : t.val = 0
      · rw [PhiS1_castSucc V c t, PhiS1_zero V c _ _ hz, PhiA1_eq]
        iintro ⟨⟨HW, Hg⟩, Ho, ⟨%d0, H0⟩, ⟨%d1, H1⟩, ⟨%d2, H2⟩, ⟨%d3, H3⟩⟩
        ihave HW' := (wrap1_out c _) $$ HW
        icases HW' with ⟨HS0, Hrest⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · iapply (wrap1_in c _)
            isplitl [HS0]
            · unfold owns; iexists _; isplitr
              swap; · iexact HS0
              ipureintro
              exact (View.read_writes_of_cover _ _ _ _ _ (scover1_A c _ _ _ _ _ _ _ _ _ _ _ _ _ _ _ _)).trans (sacc1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HW, Hg⟩, Ho, ⟨%d0, H0⟩, ⟨%d1, H1⟩, ⟨%d2, H2⟩, ⟨%d3, H3⟩⟩
        ihave HW' := (wrap1_out c _) $$ HW
        icases HW' with ⟨HS0, Hrest⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · iapply (wrap1_in c _)
            isplitl [HS0]
            · unfold owns; iexists _; isplitr
              swap; · iexact HS0
              ipureintro
              exact (View.read_writes_of_cover _ _ _ _ _ (scover1_A c _ _ _ _ _ _ _ _ _ _ _ _ _ _ _ _)).trans (sacc1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accN1_next V c t h0]
      rw [PhiS1_castSucc V c t, PhiS1_pos V c _ _ hz]
      iintro ⟨⟨HW, Hg⟩, Ho, ⟨%d0, H0⟩, ⟨%d1, H1⟩, ⟨%d2, H2⟩, ⟨%d3, H3⟩⟩
      ihave HW' := (wrap1_out c _) $$ HW
      icases HW' with ⟨HS0, Hrest⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · iapply (wrap1_in c _)
          isplitl [HS0]
          · unfold owns; iexists _; isplitr
            swap; · iexact HS0
            ipureintro
            exact (View.read_writes_of_cover _ _ _ _ _ (scover1_B c _ _ _ _ _ _ _ _ _ _ _ _ _ _ _ _ _)).trans (sacc1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 5860 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨HW, Hg⟩
  isplitl [HW]
  · ihave HW' := (wrap1_out c _) $$ HW
    icases HW' with ⟨HS0, Hrest⟩
    iapply (wrap1_in c _)
    isplitl [HS0]; · iexists _; iexact HS0
    iexact Hrest
  iexact Hg

end Cert.KernelIdeal.Hand

end
-- ==== Proof.KiRun.lean ====
/-
  The kernel program's run to the end, given a segment record per kernel region: every weakly fair execution of
  @main terminates and the final memory holds every unscoped buffer at the last of the valuations that fold @main's
  items from the launch memory. The launch is the library's several-regions launch theorem over the program's own segment list; the end
  reads all the unscoped buffers off the last thread state at once.
-/
import proofs.«417099_j42588895707231_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The run, given the regions' records: under the same hypotheses as the conditional frame (a segment record per
    region, entered from the thread state before it and left at the one after it), every weakly fair execution of @main
    terminates and every final memory holds EVERY unscoped buffer at the last valuation — the result buffer among
    them, which is what a value claim reads. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD, ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, .rfl, .rfl, hpre1 c, hpost1 c, sep_mono .rfl (hE2 c)⟩)
    (hinit := ?_) (QY := fun c s => ∀ b ∈ Pipeline.ucRefs τ sig, s.mem (((c : Thread nD τ)).1, b) = V9 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.KernelIdeal.Hand

end
-- ==== Proof.KiRegs.lean ====
/-
  The kernel program's two kernel regions as segments of @main, and the program's run. Each region's proof data is
  stated at the buffer contents the region is entered with: region 0 at the fold of the host operations before it
  from the launch memory, region 1 at the fold continued through region 0's output and the host operations between.
  What a region leaves in its output array is the pipeline library's fold of its write-backs (`out0`, `out1`); these
  are the unknowns the program's valuations are written over. From the records: the run (every unscoped buffer at the
  last valuation in the final memory) and, read at the arguments, the frame.
-/
import proofs.«417099_j42588895707231_1_alg».proof.Proof.KiR0Body
import proofs.«417099_j42588895707231_1_alg».proof.Proof.KiR1Body
import proofs.«417099_j42588895707231_1_alg».proof.Proof.KiRun
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions are entered with and what they leave -/

/-- Region 0's entry contents: the launch memory folded through the host operations before it. -/
abbrev Vin0 : (c : Dev nD) → (b : Ref sig .tc) → Buf (Elt F) ((c : Thread nD τ).loc b) := fun c b => V3 m c b
/-- What region 0 leaves in its output array. -/
def out0 (c : Dev nD) : Buf (Elt F) ((c : Thread nD τ).loc main_v7) := (dat0 (Vin0 m) c).arrAt 3 cfg0.N
/-- The unknowns of the valuations with region 0's output filled in (any other buffer: its entry contents, never read). -/
def outs4 (r : Ref sig .tc) (c : Dev nD) : Buf (Elt F) ((c : Thread nD τ).loc r) :=
  if h : r = main_v7 then h ▸ out0 m c else V3 m c r
abbrev outsA : Outs (F := F) := fun _ r c => outs4 m r c
/-- Region 1's entry contents: folded on through region 0's output and the host operations between the regions. -/
abbrev Vin1 : (c : Dev nD) → (b : Ref sig .tc) → Buf (Elt F) ((c : Thread nD τ).loc b) := fun c b => V7 m (outsA m) c b
/-- What region 1 leaves in its output array. -/
def out1 (c : Dev nD) : Buf (Elt F) ((c : Thread nD τ).loc main_v12) := (dat1 (Vin1 m) c).arrAt 3 cfg1.N
/-- The unknowns with both outputs filled in. -/
def outsK : Outs (F := F) := fun _ r c => if h : r = main_v12 then h ▸ out1 m c else outs4 m r c

theorem outsK_v7 (c : Dev nD) : outsK m 4 main_v7 c = out0 m c := by
  unfold outsK outs4; rw [dif_neg (by decide), dif_pos rfl]
theorem outsK_v12 (c : Dev nD) : outsK m 8 main_v12 c = out1 m c := by
  unfold outsK; rw [dif_pos rfl]
/-- Region 1's entry contents do not depend on its own output. -/
theorem V7_outsK (c : Dev nD) : V7 m (outsK m) c = V7 m (outsA m) c := by
  have h : outsK m 4 main_v7 c = outs4 m main_v7 c := by unfold outsK; rw [dif_neg (by decide)]
  show StableHlo.after hostOps1_2 (StableHlo.after hostOps1_1 (StableHlo.after hostOps1 (Function.update (V3 m c) main_v7 (outsK m 4 main_v7 c))))
    = StableHlo.after hostOps1_2 (StableHlo.after hostOps1_1 (StableHlo.after hostOps1 (Function.update (V3 m c) main_v7 (outs4 m main_v7 c))))
  rw [h]

/-! ## The proof data family and the thread state -/

def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- At region 0's exit each of its arrays holds what the pipeline leaves, every other buffer what it held at entry. -/
theorem hF0 (c : Dev nD) (w : Fin cfg0.W) : (pdats m 0 c).arrAt w cfg0.N = V4 m (outsK m) c (Pipeline.arrRef spec0 w) :=
  match w with
  | ⟨0, _⟩ => ((dat0 (Vin0 m) c).arrAt_in 0 rfl _).trans ((A_eq0 (Vin0 m) c 0).trans (V4_of m (outsK m) c main_v5 (by decide)).symm)
  | ⟨1, _⟩ => ((dat0 (Vin0 m) c).arrAt_in 1 rfl _).trans ((A_eq0 (Vin0 m) c 1).trans (V4_of m (outsK m) c main_v1 (by decide)).symm)
  | ⟨2, _⟩ => ((dat0 (Vin0 m) c).arrAt_in 2 rfl _).trans ((A_eq0 (Vin0 m) c 2).trans (V4_of m (outsK m) c main_v6 (by decide)).symm)
  | ⟨3, _⟩ => ((outsK_v7 m c).symm.trans (Function.update_self (β := fun b => Buf (Elt F) ((c : Thread nD τ).1, b)) _ _ (V3 m c)).symm)
  | ⟨_ + 4, h⟩ => absurd h (Nat.not_lt.2 (Nat.le_add_left _ _))
theorem hrest0 (c : Dev nD) : ∀ b, b ∉ Finset.univ.image (Pipeline.arrRef spec0) → V4 m (outsK m) c b = Vin0 m c b :=
  fun b hb => V4_of m (outsK m) c b (fun hmem => hb (Finset.mem_image.mpr ⟨3, Finset.mem_univ _, (List.mem_singleton.mp hmem).symm⟩))
theorem hF1 (c : Dev nD) (w : Fin cfg1.W) : (pdats m 1 c).arrAt w cfg1.N = V8 m (outsK m) c (Pipeline.arrRef spec1 w) :=
  match w with
  | ⟨0, _⟩ => ((dat1 (Vin1 m) c).arrAt_in 0 rfl _).trans ((A_eq1 (Vin1 m) c 0).trans ((V8_of m (outsK m) c main_v10 (by decide)).trans (congrFun (V7_outsK m c) _)).symm)
  | ⟨1, _⟩ => ((dat1 (Vin1 m) c).arrAt_in 1 rfl _).trans ((A_eq1 (Vin1 m) c 1).trans ((V8_of m (outsK m) c main_v3 (by decide)).trans (congrFun (V7_outsK m c) _)).symm)
  | ⟨2, _⟩ => ((dat1 (Vin1 m) c).arrAt_in 2 rfl _).trans ((A_eq1 (Vin1 m) c 2).trans ((V8_of m (outsK m) c main_v11 (by decide)).trans (congrFun (V7_outsK m c) _)).symm)
  | ⟨3, _⟩ => ((outsK_v12 m c).symm.trans (Function.update_self (β := fun b => Buf (Elt F) ((c : Thread nD τ).1, b)) _ _ (V7 m (outsK m) c)).symm)
  | ⟨_ + 4, h⟩ => absurd h (Nat.not_lt.2 (Nat.le_add_left _ _))
theorem hrest1 (c : Dev nD) : ∀ b, b ∉ Finset.univ.image (Pipeline.arrRef spec1) → V8 m (outsK m) c b = Vin1 m c b :=
  fun b hb => (V8_of m (outsK m) c b (fun hmem => hb (Finset.mem_image.mpr ⟨3, Finset.mem_univ _, (List.mem_singleton.mp hmem).symm⟩))).trans (congrFun (V7_outsK m c) _)

/-! ## The regions as segments -/

set_option backward.isDefEq.respectTransparency.types false in
/-- Region 0 over the thread state: entered from every unscoped buffer at the valuation before it, left at the one
    after it. Its arrays are split out of the unscoped buffers and put back at their final contents; the generator
    register goes into the invariant and comes back; the accumulator's named contents are forgotten at the exit;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (Vin0 m) c)
    unfold Pipeline.ΦA
    iintro ⟨Hp, -, Hr⟩
    isplitl [Hr]; · iexact Hr
    iexact Hp
  hout c := by
    refine (show (pdats m 0 c).Φ (Fin.last _) ⊢ Pipeline.ΦA spec0 c from hout0 (Vin0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => (V4 m (outsK m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the one
    after it. Its arrays are split out of the unscoped buffers and put back at their final contents; the generator
    register goes into the invariant and comes back; the accumulator's named contents are forgotten at the exit;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V7 m (outsK m) c) ∗ R c)
  post c := iprop(StableHlo.held (c : Thread nD τ) (Pipeline.ucRefs τ sig) (V8 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    rw [V7_outsK m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (Vin1 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (Vin1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => (V8 m (outsK m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- The kernel program runs to the end and every unscoped buffer ends at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V9 m (outsK m) c b) :=
  run_cond m emb₁ () 𝒱₀ L lv (fun _ _ => rfl) ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hcore : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ (R (F := F) c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ (fun c : Dev nD => R (F := F) c) : sProp 𝕄) :=
        bigSep_mono fun c _ => hcore c
      iintro ⟨H, -⟩
      imodintro
      iapply hmono
      iexact H)
    (fun c => by iintro ⟨-, HO⟩; iexact HO)
    (reg0 m) (fun c => .rfl) (fun c => .rfl)
    (reg1 m) (fun c => .rfl) (fun c => .rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (V9_main_arg0 m (outsK m) c),
     (h c _ (mem_uc main_arg1 (by decide))).trans (V9_main_arg1 m (outsK m) c),
     (h c _ (mem_uc main_arg2 (by decide))).trans (V9_main_arg2 m (outsK m) c),
     (h c _ (mem_uc main_arg3 (by decide))).trans (V9_main_arg3 m (outsK m) c),
     (h c _ (mem_uc main_arg4 (by decide))).trans (V9_main_arg4 m (outsK m) c),
     (h c _ (mem_uc main_arg5 (by decide))).trans (V9_main_arg5 m (outsK m) c),
     (h c _ (mem_uc main_arg6 (by decide))).trans (V9_main_arg6 m (outsK m) c),
     (h c _ (mem_uc main_arg7 (by decide))).trans (V9_main_arg7 m (outsK m) c),
     (h c _ (mem_uc main_arg8 (by decide))).trans (V9_main_arg8 m (outsK m) c)⟩) (run_all m ρ)

end Cert.KernelIdeal.Hand

end
-- ==== Proof.KiCover0.lean ====
/-
  Region 0: from the output window's blocks to the whole output array, and each input window's block read at an
  index. The grid is walked row tile by row tile, ten vocabulary tiles to a row tile; the output block of a row tile is
  written back at its last vocabulary tile only, and those blocks tile the output array by rows. Hence the array after
  the run is ONE function of the region-entry contents: row `r` of it is row `r % 1024` of what row tile `r / 1024`
  writes at its last vocabulary tile. The input blocks are rows `1024 * rowTile + ·` of the token column, rows
  `3200 * vocabTile + ·` of the table, and the bias row itself.
-/
import proofs.«417099_j42588895707231_1_alg».proof.Proof.KiR0Defs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-! ## The grid's coordinates and the windows' block indices, decided over the grid -/

/-- A point's vocabulary tile is its position modulo ten. -/
theorem coords0_1 (t : Fin cfg0.N) : ((grid0.coords t) 1).val = t.val % 10 :=
  (by decide +kernel : ∀ t : Fin grid0.N, ((grid0.coords t) 1).val = t.val % 10) t
/-- A point's row tile is its position divided by ten. -/
theorem coords0_0 (t : Fin cfg0.N) : ((grid0.coords t) 0).val = t.val / 10 :=
  (by decide +kernel : ∀ t : Fin grid0.N, ((grid0.coords t) 0).val = t.val / 10) t

/-- The printed index maps at a point: the token column and the output move with the row tile, the table with the
    vocabulary tile, the bias stays; every block index on the second axis is zero. -/
theorem idx_facts0 : ∀ t : Fin cfg0.N, win0_3.index t (0 : Fin 2) = t.val / 10
    ∧ win0_3.index t (1 : Fin 2) = 0
    ∧ win0_0.index t (0 : Fin 2) = t.val / 10
    ∧ win0_0.index t (1 : Fin 2) = 0
    ∧ win0_1.index t (0 : Fin 2) = t.val % 10
    ∧ win0_1.index t (1 : Fin 2) = 0
    ∧ win0_2.index t (0 : Fin 2) = 0
    ∧ win0_2.index t (1 : Fin 2) = 0 :=
  (by decide +kernel : ∀ t : Fin grid0.N, _)

/-! ## Bounds -/

theorem pos0_lt (t : Fin cfg0.N) : t.val < 490 := lt_of_lt_of_eq t.isLt (show cfg0.N = 490 from N_0)
/-- The last vocabulary tile of the row tile that holds row `r` is a point of the grid. -/
theorem lastPt0_lt (r : ℕ) (hr : r < 50176) : 10 * (r / 1024) + 9 < cfg0.N := by
  rw [show cfg0.N = 490 from N_0]; omega
theorem tokRow0_lt (t : Fin cfg0.N) (r : Fin 1024) : 1024 * (t.val / 10) + r.val < 50176 := by
  have := pos0_lt t; have := r.isLt; omega
theorem tabRow0_lt (t : Fin cfg0.N) (v : Fin 3200) : 3200 * (t.val % 10) + v.val < 32000 := by
  have := v.isLt; omega
theorem rowIn0_lt (r : ℕ) : r % 1024 < 1024 := Nat.mod_lt _ (by decide)

/-! ## The input blocks, read at an index -/

/-- Row `r` of the token block at a point is row `1024 * rowTile + r` of the token column. -/
theorem iblk0_tok (c : Dev nD) (t : Fin cfg0.N) (r : Fin 1024) :
    (iblk0 V c 0 t : Vec F S1024x1 .i32) (ix2 r 0)
      = (V c main_v5 : Vec F S50176x1 .i32) (ix2 ⟨1024 * (t.val / 10) + r.val, tokRow0_lt t r⟩ 0) := by
  obtain ⟨-, -, e0, e1, -⟩ := idx_facts0 t
  unfold iblk0
  rw [View.read_apply]
  show V c main_v5 (((cfg0.win 0).blk t).view.emb (ix2 r 0)) = V c main_v5 _
  refine congrArg (V c main_v5) (funext fun a => Fin.ext ?_)
  match a with
  | ⟨0, _⟩ => show win0_0.index t (0 : Fin 2) * 1024 + 1 * r.val = 1024 * (t.val / 10) + r.val; rw [e0]; omega
  | ⟨1, _⟩ => show win0_0.index t (1 : Fin 2) * 1 + 1 * (0 : Fin 1).val = (0 : Fin 1).val; rw [e1]; rfl

/-- Row `v` of the table block at a point is row `3200 * vocabTile + v` of the table. -/
theorem iblk0_tab (c : Dev nD) (t : Fin cfg0.N) (v : Fin 3200) (d : Fin 128) :
    (iblk0 V c 1 t : Vec F S3200x128 .bf16) (ix2 v d)
      = (V c main_v1 : Vec F S32000x128 .bf16) (ix2 ⟨3200 * (t.val % 10) + v.val, tabRow0_lt t v⟩ d) := by
  obtain ⟨-, -, -, -, e0, e1, -⟩ := idx_facts0 t
  unfold iblk0
  rw [View.read_apply]
  show V c main_v1 (((cfg0.win 1).blk t).view.emb (ix2 v d)) = V c main_v1 _
  refine congrArg (V c main_v1) (funext fun a => Fin.ext ?_)
  match a with
  | ⟨0, _⟩ => show win0_1.index t (0 : Fin 2) * 3200 + 1 * v.val = 3200 * (t.val % 10) + v.val; rw [e0]; omega
  | ⟨1, _⟩ => show win0_1.index t (1 : Fin 2) * 128 + 1 * d.val = d.val; rw [e1]; omega

/-- The bias block at a point is the bias row. -/
theorem iblk0_bias (c : Dev nD) (t : Fin cfg0.N) (d : Fin 128) :
    (iblk0 V c 2 t : Vec F S1x128 .f32) (ix2 0 d) = (V c main_v6 : Vec F S1x128 .f32) (ix2 0 d) := by
  obtain ⟨-, -, -, -, -, -, e0, e1⟩ := idx_facts0 t
  unfold iblk0
  rw [View.read_apply]
  show V c main_v6 (((cfg0.win 2).blk t).view.emb (ix2 0 d)) = V c main_v6 _
  refine congrArg (V c main_v6) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 128 + 1 * d.val = d.val; rw [e1]; omega

/-! ## The output array as one function -/

/-- The output array as ONE function: row `r` of it is row `r % 1024` of what row tile `r / 1024` writes at its last
    vocabulary tile. -/
def G0 (c : Dev nD) : Vec F S50176x128 .f32 := fun j =>
  (k0_pay3 (accN0 V c (10 * ((j 0).val / 1024) + 9) (lastPt0_lt _ (idx2_lt0 j)))
      (iblk0 V c 2 ⟨10 * ((j 0).val / 1024) + 9, lastPt0_lt _ (idx2_lt0 j)⟩) : Vec F S1024x128 .f32)
    (ix2 ⟨(j 0).val % 1024, rowIn0_lt _⟩ (j 1))

/-- The function at an index whose row lies in the row tile whose last vocabulary tile is position `n`. -/
theorem G0_at (c : Dev nD) (n : ℕ) (hn : n < cfg0.N) (i : S50176x128.Idx) (x : S1024x128.Idx)
    (hq : 10 * ((i 0).val / 1024) + 9 = n) (h0 : (x 0).val = (i 0).val % 1024) (h1 : (x 1).val = (i 1).val) :
    G0 V c i = (k0_pay3 (accN0 V c n hn) (iblk0 V c 2 ⟨n, hn⟩) : Vec F S1024x128 .f32) x := by
  subst hq
  unfold G0
  refine congrArg (k0_pay3 (accN0 V c _ _) (iblk0 V c 2 _)) (funext fun a => Fin.ext ?_)
  match a with
  | ⟨0, _⟩ => exact h0.symm
  | ⟨1, _⟩ => exact h1.symm

/-- What a point that writes back writes is its block of that function. -/
theorem flushed0_eq (c : Dev nD) (t : Fin cfg0.N) (hf : (cfg0.win 3).flush t = true) :
    (dat0 V c).flushed 3 t = ((cfg0.win 3).blk t).view.read (Elt F) (G0 V c) := by
  have h9 : t.val % 10 = 9 := (flush0_3 t).mp hf
  obtain ⟨e0, e1, -⟩ := idx_facts0 t
  show (cfg0.win 3).cut (grid0.coords t) ((dat0 V c).after 3 t) = _
  rw [after0_3]
  funext j
  rw [View.read_apply]
  have hj0 : (j 0).val < 1024 := (j 0).isLt
  have hj1 : (j 1).val < 128 := (j 1).isLt
  have hq : 10 * (((((cfg0.win 3).blk t).view.emb j) 0).val / 1024) + 9 = t.val := by
    show 10 * ((win0_3.index t (0 : Fin 2) * 1024 + 1 * (j 0).val) / 1024) + 9 = t.val
    rw [e0]; omega
  have h0 : (j 0).val = ((((cfg0.win 3).blk t).view.emb j) 0).val % 1024 := by
    show (j 0).val = (win0_3.index t (0 : Fin 2) * 1024 + 1 * (j 0).val) % 1024
    omega
  have h1 : (j 1).val = ((((cfg0.win 3).blk t).view.emb j) 1).val := by
    show (j 1).val = win0_3.index t (1 : Fin 2) * 128 + 1 * (j 1).val
    rw [e1]; omega
  exact (G0_at V c t.val t.isLt (((cfg0.win 3).blk t).view.emb j) ((cfg0.win 3).xinj (grid0.coords t) j) hq h0 h1).symm

/-- An index of the output array is in a point's block iff each coordinate is in the block's range on its axis. -/
theorem mem_blk0 (t : Fin cfg0.N) (i : S50176x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v7).slice (win0_3.rect t)).set ↔ _
  rw [View.set_slice_whole, Rect.mem_set_unit]
  exact Iff.rfl

/-- Every index of the output array is in the block written back at the last vocabulary tile of its row's row tile. -/
theorem cover0 (i : S50176x128.Idx) :
    ∃ t : Fin cfg0.N, (cfg0.win 3).flush t = true ∧ i ∈ ((cfg0.win 3).blk t).view.set := by
  have hi0 : (i 0).val < 50176 := idx2_lt0 i
  have hi1 : (i 1).val < 128 := idx2_lt1 i
  refine ⟨⟨10 * ((i 0).val / 1024) + 9, lastPt0_lt _ hi0⟩, (flush0_3 _).mpr (by show (10 * ((i 0).val / 1024) + 9) % 10 = 9; omega), ?_⟩
  obtain ⟨e0, e1, -⟩ := idx_facts0 ⟨10 * ((i 0).val / 1024) + 9, lastPt0_lt _ hi0⟩
  have e0' : win0_3.index ⟨10 * ((i 0).val / 1024) + 9, lastPt0_lt _ hi0⟩ (0 : Fin 2) = (10 * ((i 0).val / 1024) + 9) / 10 := e0
  rw [mem_blk0]
  intro a
  match a with
  | ⟨0, _⟩ => show win0_3.index _ (0 : Fin 2) * 1024 ≤ (i 0).val ∧ (i 0).val < win0_3.index _ (0 : Fin 2) * 1024 + 1024; rw [e0']; omega
  | ⟨1, _⟩ => show win0_3.index _ (1 : Fin 2) * 128 ≤ (i 1).val ∧ (i 1).val < win0_3.index _ (1 : Fin 2) * 128 + 128; rw [e1]; omega

/-- The output array after the run is that function. -/
theorem final0 (c : Dev nD) : (dat0 V c).arrAt 3 cfg0.N = G0 V c :=
  (dat0 V c).arrAt_eq_of_cover 3 (G0 V c) (fun t hf => flushed0_eq V c t hf) cover0

end Cert.KernelIdeal.Hand

end
-- ==== Proof.PayIdx.lean ====
/-
  The three payloads of each of the two kernel calls, read at an index, at the ideal values:
  the zero splat, the accumulator plus the one-hot rows' product with the table tile, and the
  rectified accumulator plus bias.
-/
import proofs.«417099_j42588895707231_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-- the one-hot weight of vocabulary id 3200*vi + v for a token word (vi is the vocabulary tile) -/
def hot (tok : BitVec 32) (vi : ℕ) (v : Fin 3200) : EReal :=
  if tok = BitVec.ofNat 32 (3200 * vi + v.val) then 1 else 0

/-! ## Scalar facts -/

/-- An equality test widened to a word and read as a signed integer is the real 1 or 0. -/
theorem sitofp_eq_bit (x y : BitVec 32) :
    FloatOps.sitofp (F := Ideal) .f32 ((IntOp.cmpi .eq x y).setWidth 32) = if x = y then (1 : EReal) else 0 := by
  by_cases h : x = y
  · rw [if_pos h]
    have e : IntOp.cmpi .eq x y = 1#1 := by simp [IntOp.cmpi, h]
    rw [e]
    show (((BitVec.setWidth 32 1#1).toInt : ℝ) : EReal) = 1
    have e2 : (BitVec.setWidth 32 1#1).toInt = 1 := by decide
    rw [e2]
    simp
  · rw [if_neg h]
    have e : IntOp.cmpi .eq x y = 0#1 := by
      show BitVec.ofBool (x == y) = 0#1
      rw [beq_eq_false_iff_ne.2 h]; rfl
    rw [e]
    show (((BitVec.setWidth 32 0#1).toInt : ℝ) : EReal) = 0
    have e2 : (BitVec.setWidth 32 0#1).toInt = 0 := by decide
    rw [e2]
    simp

/-- The tile's base word plus the lane word is the word of the vocabulary id (both sides modulo 2^32). -/
theorem base_add_lane (vi : ℕ) (v : ℕ) :
    IntOp.addi (Scalar.muli (BitVec.ofNat 32 vi) 3200#32) (BitVec.ofNat 32 v) = BitVec.ofNat 32 (3200 * vi + v) := by
  show BitVec.ofNat 32 vi * BitVec.ofNat 32 3200 + BitVec.ofNat 32 v = BitVec.ofNat 32 (3200 * vi + v)
  rw [← BitVec.ofNat_mul, ← BitVec.ofNat_add, Nat.mul_comm]

/-! ## Layout reads -/

/-- A column `[a, 1]` broadcast to `[a, b]` reads, at `(p, c)`, the column at row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot rows -/

/-- The one-hot rows of a tile of tokens against vocabulary tile `vi`, as the kernel builds them. -/
def oneHot (vi : ℕ) (tok : Vec Ideal S1024x1 .i32) : FVec Ideal S1024x3200 .bf16 :=
  truncf .bf16 (sitofp .f32 (extui 32 (cmpi .eq
    (broadcastTo S1024x3200 (shapeCast S1024x1 tok shapeCasts_S1024x1_S1024x1) broadcasts_S1024x1_S1024x3200)
    (broadcastTo S1024x3200 (addi (broadcast S1x3200 (Scalar.muli (BitVec.ofNat 32 vi) 3200#32))
      (iota .tc S1x3200 32 [1] iota_S1x3200_d1_w32)) broadcasts_S1x3200_S1024x3200)) natLt_1_32)) bitsLt_bf16_f32

/-- Read at row `r` and lane `v`, the one-hot rows are the one-hot weight of the row's token. -/
theorem oneHot_apply (vi : ℕ) (tok : Vec Ideal S1024x1 .i32) (r : Fin 1024) (v : Fin 3200) :
    oneHot vi tok (ix2 r v) = hot (tok (ix2 r 0)) vi v := by
  unfold oneHot hot
  rw [truncf_apply, sitofp_apply, extui_apply]
  show FloatOps.sitofp (F := Ideal) .f32 ((IntOp.cmpi .eq
      (broadcastTo S1024x3200 (shapeCast S1024x1 tok shapeCasts_S1024x1_S1024x1) broadcasts_S1024x1_S1024x3200 (ix2 r v))
      (broadcastTo S1024x3200 (addi (broadcast S1x3200 (Scalar.muli (BitVec.ofNat 32 vi) 3200#32))
        (iota .tc S1x3200 32 [1] iota_S1x3200_d1_w32)) broadcasts_S1x3200_S1024x3200 (ix2 r v))).setWidth 32) = _
  rw [broadcastTo_a1_ab_apply, broadcastTo_1b_ab_apply, shapeCast_self]
  show FloatOps.sitofp (F := Ideal) .f32 ((IntOp.cmpi .eq (tok (ix2 r 0))
      (IntOp.addi (Scalar.muli (BitVec.ofNat 32 vi) 3200#32)
        (iota .tc S1x3200 32 [1] iota_S1x3200_d1_w32 (ix2 (0 : Fin 1) v)))).setWidth 32) = _
  rw [iota_single_apply]
  show FloatOps.sitofp (F := Ideal) .f32 ((IntOp.cmpi .eq (tok (ix2 r 0))
      (IntOp.addi (Scalar.muli (BitVec.ofNat 32 vi) 3200#32) (BitVec.ofNat 32 v.val))).setWidth 32) = _
  rw [base_add_lane, sitofp_eq_bit]

/-! ## The product into the zero splat -/

theorem lhs_mm_0 (i : S1024x128.Idx) (q : dot_S1024x3200_S3200x128_S1024x128_1_0_0_1_n_n.contr.Idx) :
    (dot_S1024x3200_S3200x128_S1024x128_1_0_0_1_n_n.lhsIdx i q 0).val = (i 0).val := by
  unfold DotDims.lhsIdx
  rw [dif_neg (show ¬(0 : Fin S1024x3200.rank) ∈ dot_S1024x3200_S3200x128_S1024x128_1_0_0_1_n_n.lhsBatch by decide), dif_pos (show (0 : Fin S1024x3200.rank) ∈ dot_S1024x3200_S3200x128_S1024x128_1_0_0_1_n_n.lhsNonContracting by decide)]
  rfl
theorem lhs_mm_1 (i : S1024x128.Idx) (q : dot_S1024x3200_S3200x128_S1024x128_1_0_0_1_n_n.contr.Idx) :
    (dot_S1024x3200_S3200x128_S1024x128_1_0_0_1_n_n.lhsIdx i q 1).val = (q ⟨0, by decide⟩).val :=
  dot_S1024x3200_S3200x128_S1024x128_1_0_0_1_n_n.lhsIdx_val_of_single rfl i q
theorem rhs_mm_0 (i : S1024x128.Idx) (q : dot_S1024x3200_S3200x128_S1024x128_1_0_0_1_n_n.contr.Idx) :
    (dot_S1024x3200_S3200x128_S1024x128_1_0_0_1_n_n.rhsIdx i q 0).val = (q ⟨0, by decide⟩).val :=
  dot_S1024x3200_S3200x128_S1024x128_1_0_0_1_n_n.rhsIdx_val_of_single rfl i q
theorem rhs_mm_1 (i : S1024x128.Idx) (q : dot_S1024x3200_S3200x128_S1024x128_1_0_0_1_n_n.contr.Idx) :
    (dot_S1024x3200_S3200x128_S1024x128_1_0_0_1_n_n.rhsIdx i q 1).val = (i 1).val := by
  unfold DotDims.rhsIdx
  rw [dif_neg (show ¬(1 : Fin S3200x128.rank) ∈ dot_S1024x3200_S3200x128_S1024x128_1_0_0_1_n_n.rhsBatch by decide), dif_pos (show (1 : Fin S3200x128.rank) ∈ dot_S1024x3200_S3200x128_S1024x128_1_0_0_1_n_n.rhsNonContracting by decide)]
  rfl

/-- The product of a `[1024, 3200]` by a `[3200, 128]` array into the zero splat, read at `(r, d)`:
    the sum over the contracted lane of the products. -/
theorem mm_apply (A : FVec Ideal S1024x3200 .bf16) (B : FVec Ideal S3200x128 .bf16) (r : Fin 1024) (d : Fin 128) :
    matmul dot_S1024x3200_S3200x128_S1024x128_1_0_0_1_n_n none A B (constant (F := Ideal) S1024x128 .f32 0x00000000#32) (ix2 r d)
      = ∑ v : Fin 3200, A (ix2 r v) * B (ix2 v d) := by
  show FloatOps.matmul dot_S1024x3200_S3200x128_S1024x128_1_0_0_1_n_n none A B (constant (F := Ideal) S1024x128 .f32 0x00000000#32) (ix2 r d) = _
  rw [Ideal.matmul_constant_zero_apply, ← Equiv.sum_comp (ValueIdx.contrEquiv1 dot_S1024x3200_S3200x128_S1024x128_1_0_0_1_n_n 3200 rfl rfl).symm]
  refine Finset.sum_congr rfl fun k _ => ?_
  have hk := ValueIdx.contrEquiv1_symm_val dot_S1024x3200_S3200x128_S1024x128_1_0_0_1_n_n 3200 rfl rfl k
  have el : dot_S1024x3200_S3200x128_S1024x128_1_0_0_1_n_n.lhsIdx (ix2 r d) ((ValueIdx.contrEquiv1 dot_S1024x3200_S3200x128_S1024x128_1_0_0_1_n_n 3200 rfl rfl).symm k) = ix2 r k := funext fun a => Fin.ext (by
    match a with
    | ⟨0, _⟩ => exact lhs_mm_0 _ _
    | ⟨1, _⟩ => exact (lhs_mm_1 _ _).trans hk)
  have er : dot_S1024x3200_S3200x128_S1024x128_1_0_0_1_n_n.rhsIdx (ix2 r d) ((ValueIdx.contrEquiv1 dot_S1024x3200_S3200x128_S1024x128_1_0_0_1_n_n 3200 rfl rfl).symm k) = ix2 k d := funext fun a => Fin.ext (by
    match a with
    | ⟨0, _⟩ => exact (rhs_mm_0 _ _).trans hk
    | ⟨1, _⟩ => exact rhs_mm_1 _ _)
  rw [el, er]

/-! ## The first call's payloads -/

theorem pay1_apply (r : Fin 1024) (d : Fin 128) : (k0_pay1 (F := Ideal)) (ix2 r d) = 0 := by
  unfold k0_pay1
  show shapeCast S1024x128 (broadcast S1024x128 (Scalar.ofBits (F := Ideal) .f32 0x00000000#32)) shapeCasts_S1024x128_S1024x128 (ix2 r d) = 0
  rw [shapeCast_self]
  exact Ideal.ofBits_zero_f32

/-- The second payload is the accumulator plus the product of the one-hot rows and the table tile. -/
theorem pay2_eq (i : grid0.Coords) (tok : Vec Ideal S1024x1 .i32) (acc : Vec Ideal S1024x128 .f32) (et : Vec Ideal S3200x128 .bf16) :
    k0_pay2 (F := Ideal) i tok acc et
      = shapeCast S1024x128 (addf acc (matmul (φ₁ := .bf16) (φ₂ := .bf16) dot_S1024x3200_S3200x128_S1024x128_1_0_0_1_n_n none (oneHot (i 1).val tok)
          (shapeCast S3200x128 et shapeCasts_S3200x128_S3200x128) (constant (F := Ideal) S1024x128 .f32 0x00000000#32)))
          shapeCasts_S1024x128_S1024x128 := rfl

theorem pay2_apply (i : grid0.Coords) (tok : Vec Ideal S1024x1 .i32) (acc : Vec Ideal S1024x128 .f32) (et : Vec Ideal S3200x128 .bf16) (r : Fin 1024) (d : Fin 128) :
    k0_pay2 (F := Ideal) i tok acc et (ix2 r d) = acc (ix2 r d) + ∑ v : Fin 3200, hot (tok (ix2 r 0)) (i 1).val v * et (ix2 v d) := by
  rw [pay2_eq, shapeCast_self, addf_apply, mm_apply, shapeCast_self]
  refine congrArg (acc (ix2 r d) + ·) (Finset.sum_congr rfl fun v _ => ?_)
  rw [oneHot_apply]

theorem pay3_apply (acc : Vec Ideal S1024x128 .f32) (b : Vec Ideal S1x128 .f32) (r : Fin 1024) (d : Fin 128) :
    k0_pay3 (F := Ideal) acc b (ix2 r d) = max (acc (ix2 r d) + b (ix2 0 d)) 0 := by
  unfold k0_pay3
  show maximumf (addf acc (broadcastTo S1024x128 (shapeCast S1x128 b shapeCasts_S1x128_S1x128) broadcasts_S1x128_S1024x128))
      (broadcast S1024x128 (Scalar.ofBits (F := Ideal) .f32 0x00000000#32)) (ix2 r d) = _
  rw [maximumf_apply, addf_apply, broadcastTo_1b_ab_apply, shapeCast_self, broadcast_apply]
  exact congrArg (max (acc (ix2 r d) + b (ix2 0 d))) Ideal.ofBits_zero_f32

/-! ## The second call's payloads: the same terms over the second grid -/

theorem pay1_apply' (r : Fin 1024) (d : Fin 128) : (k1_pay1 (F := Ideal)) (ix2 r d) = 0 :=
  pay1_apply r d

theorem pay2_eq' (i : grid1.Coords) (tok : Vec Ideal S1024x1 .i32) (acc : Vec Ideal S1024x128 .f32) (et : Vec Ideal S3200x128 .bf16) :
    k1_pay2 (F := Ideal) i tok acc et
      = shapeCast S1024x128 (addf acc (matmul (φ₁ := .bf16) (φ₂ := .bf16) dot_S1024x3200_S3200x128_S1024x128_1_0_0_1_n_n none (oneHot (i 1).val tok)
          (shapeCast S3200x128 et shapeCasts_S3200x128_S3200x128) (constant (F := Ideal) S1024x128 .f32 0x00000000#32)))
          shapeCasts_S1024x128_S1024x128 := rfl

theorem pay2_apply' (i : grid1.Coords) (tok : Vec Ideal S1024x1 .i32) (acc : Vec Ideal S1024x128 .f32) (et : Vec Ideal S3200x128 .bf16) (r : Fin 1024) (d : Fin 128) :
    k1_pay2 (F := Ideal) i tok acc et (ix2 r d) = acc (ix2 r d) + ∑ v : Fin 3200, hot (tok (ix2 r 0)) (i 1).val v * et (ix2 v d) := by
  rw [pay2_eq', shapeCast_self, addf_apply, mm_apply, shapeCast_self]
  refine congrArg (acc (ix2 r d) + ·) (Finset.sum_congr rfl fun v _ => ?_)
  rw [oneHot_apply]

theorem pay3_apply' (acc : Vec Ideal S1024x128 .f32) (b : Vec Ideal S1x128 .f32) (r : Fin 1024) (d : Fin 128) :
    k1_pay3 (F := Ideal) acc b (ix2 r d) = max (acc (ix2 r d) + b (ix2 0 d)) 0 :=
  pay3_apply acc b r d

end Cert.KernelIdeal.Hand

end
-- ==== Proof.KiRow0.lean ====
/-
  Region 0: the accumulator in closed form and one row of the output array. For a token word that is a
  vocabulary id `k < 32000`, the ten one-hot products a row tile accumulates sum to row `k` of the table, so the
  output array's row is `max (table[k, ·] + bias, 0)`. At the ideal values, at any region-entry contents.
-/
import proofs.«417099_j42588895707231_1_alg».proof.Proof.KiCover0
import proofs.«417099_j42588895707231_1_alg».proof.Proof.PayIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The one-hot weights of a vocabulary id -/

/-- Two words of numbers below 2^32 are equal iff the numbers are. -/
theorem ofNat32_eq_iff (a b : ℕ) (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    omega
  · intro h; rw [h]

/-- For a vocabulary id `k` the weight at tile `j < 10`, lane `v` is 1 exactly when `k = 3200 * j + v`. -/
theorem hot_ofNat (k : ℕ) (hk : k < 32000) (j : ℕ) (hj : j < 10) (v : Fin 3200) :
    hot (BitVec.ofNat 32 k) j v = if k = 3200 * j + v.val then 1 else 0 := by
  unfold hot
  have hv := v.isLt
  by_cases h : k = 3200 * j + v.val
  · rw [if_pos h, if_pos (by rw [h])]
  · rw [if_neg h, if_neg (fun e => h ((ofNat32_eq_iff _ _ (by omega) (by omega)).mp e))]

/-- pure: for a vocabulary id `k` the one-hot weights pick out exactly the pair `(k / 3200, k % 3200)`;
    `0 * x = 0` and `1 * x = x` for every extended real, and the sum is a commutative-monoid sum. -/
theorem hot_collapse (k : ℕ) (hk : k < 32000) (g : ℕ → Fin 3200 → EReal) :
    ∑ j ∈ Finset.range 10, ∑ v : Fin 3200, hot (BitVec.ofNat 32 k) j v * g j v
      = g (k / 3200) ⟨k % 3200, Nat.mod_lt _ (by decide)⟩ := by
  rw [Finset.sum_eq_single (k / 3200)]
  · rw [Finset.sum_eq_single (⟨k % 3200, Nat.mod_lt _ (by decide)⟩ : Fin 3200)]
    · rw [hot_ofNat k hk (k / 3200) (by omega), if_pos (by show k = 3200 * (k / 3200) + k % 3200; omega), one_mul]
    · intro v _ hv
      rw [hot_ofNat k hk (k / 3200) (by omega), if_neg, zero_mul]
      intro e
      exact hv (Fin.ext (by show v.val = k % 3200; omega))
    · intro h; exact absurd (Finset.mem_univ _) h
  · intro j hj hne
    have hj' : j < 10 := Finset.mem_range.mp hj
    refine Finset.sum_eq_zero fun v _ => ?_
    have hv := v.isLt
    rw [hot_ofNat k hk j hj', if_neg (by omega), zero_mul]
  · intro h
    exact absurd (Finset.mem_range.mpr (by omega)) h

/-! ## The arrays of the call, by their literal types -/

variable (V : (c : Dev nD) → (b : Ref sig .tc) → Buf (Elt Ideal) ((c : Thread nD τ).loc b))

/-- the token column -/
abbrev tokA0 (c : Dev nD) : Vec Ideal S50176x1 .i32 := V c main_v5
/-- the table -/
abbrev tabA0 (c : Dev nD) : Vec Ideal S32000x128 .bf16 := V c main_v1
/-- the bias row -/
abbrev biasA0 (c : Dev nD) : Vec Ideal S1x128 .f32 := V c main_v6

/-- Row `n` of the table at column `d`, and zero beyond the table's rows. -/
def tabAt0 (c : Dev nD) (n : ℕ) (d : Fin 128) : EReal :=
  if h : n < 32000 then tabA0 V c (ix2 ⟨n, h⟩ d) else 0

theorem tabAt0_eq (c : Dev nD) (n k : ℕ) (hk : k < 32000) (e : n = k) (d : Fin 128) :
    tabAt0 V c n d = tabA0 V c (ix2 ⟨k, hk⟩ d) := by
  subst e; exact dif_pos hk

/-! ## Bounds -/

theorem accPos0_lt (ti : ℕ) (hti : ti < 49) (vi : ℕ) (hvi : vi < 10) : 10 * ti + vi < cfg0.N := by
  rw [show cfg0.N = 490 from N_0]; omega
theorem tokRowAt0_lt (ti : ℕ) (hti : ti < 49) (rr : Fin 1024) : 1024 * ti + rr.val < 50176 := by
  have := rr.isLt; omega

/-! ## One point's update, read at an index of the arrays -/

/-- The accumulator's value depends on the position only. -/
theorem accN0_congr (c : Dev nD) (m n : ℕ) (hm : m < cfg0.N) (hn : n < cfg0.N) (e : m = n) :
    accN0 V c m hm = accN0 V c n hn := by
  subst e; rfl

/-- Row `rr` of the token block at a point of row tile `ti`. -/
theorem tok0_at (c : Dev nD) (t : Fin cfg0.N) (ti : ℕ) (hti : ti < 49) (ht : t.val / 10 = ti) (rr : Fin 1024) :
    (iblk0 V c 0 t : Vec Ideal S1024x1 .i32) (ix2 rr 0)
      = tokA0 V c (ix2 ⟨1024 * ti + rr.val, tokRowAt0_lt ti hti rr⟩ 0) := by
  subst ht
  exact iblk0_tok V c t rr

/-- Row `v` of the table block at a point of vocabulary tile `j`. -/
theorem tab0_at (c : Dev nD) (t : Fin cfg0.N) (j : ℕ) (hj : t.val % 10 = j) (v : Fin 3200) (d : Fin 128) :
    (iblk0 V c 1 t : Vec Ideal S3200x128 .bf16) (ix2 v d) = tabAt0 V c (3200 * j + v.val) d := by
  subst hj
  rw [tabAt0_eq V c _ _ (tabRow0_lt t v) rfl d]
  exact iblk0_tab V c t v d

/-- The update at a point of row tile `ti`, vocabulary tile `j`: the one-hot weights of the row's token against
    the tile's rows of the table are added. -/
theorem upd0_at (c : Dev nD) (t : Fin cfg0.N) (ti : ℕ) (hti : ti < 49) (ht : t.val / 10 = ti) (j : ℕ)
    (hj : t.val % 10 = j) (acc : Vec Ideal S1024x128 .f32) (rr : Fin 1024) (d : Fin 128) :
    k0_pay2 (F := Ideal) (grid0.coords t) (iblk0 V c 0 t) acc (iblk0 V c 1 t) (ix2 rr d)
      = acc (ix2 rr d) + ∑ v : Fin 3200,
          hot (tokA0 V c (ix2 ⟨1024 * ti + rr.val, tokRowAt0_lt ti hti rr⟩ 0)) j v * tabAt0 V c (3200 * j + v.val) d := by
  rw [pay2_apply, tok0_at V c t ti hti ht rr, coords0_1, hj]
  refine congrArg (acc (ix2 rr d) + ·) (Finset.sum_congr rfl fun v _ => ?_)
  rw [tab0_at V c t j hj v d]

/-! ## The accumulator in closed form -/

/-- The accumulator after vocabulary tile `vi` of row tile `ti`, read at `(rr, d)`: the partial sum over the
    tiles `0..vi` of the one-hot weights of the row's token against the table's rows. -/
theorem acc0_partial (c : Dev nD) (ti : ℕ) (hti : ti < 49) (vi : ℕ) (hvi : vi < 10) (rr : Fin 1024) (d : Fin 128) :
    (accN0 V c (10 * ti + vi) (accPos0_lt ti hti vi hvi)) (ix2 rr d)
      = ∑ j ∈ Finset.range (vi + 1), ∑ v : Fin 3200,
          hot (tokA0 V c (ix2 ⟨1024 * ti + rr.val, tokRowAt0_lt ti hti rr⟩ 0)) j v * tabAt0 V c (3200 * j + v.val) d := by
  induction vi with
  | zero =>
    refine (congrFun (accN0_first V c ⟨10 * ti + 0, accPos0_lt ti hti 0 hvi⟩
      (by show (10 * ti + 0) % 10 = 0; omega)) (ix2 rr d)).trans ?_
    rw [upd0_at V c ⟨10 * ti + 0, accPos0_lt ti hti 0 hvi⟩ ti hti (by show (10 * ti + 0) / 10 = ti; omega) 0
      (by show (10 * ti + 0) % 10 = 0; omega), pay1_apply, zero_add, Finset.sum_range_one]
  | succ n ih =>
    have hn : n < 10 := by omega
    refine (congrFun (accN0_next V c ⟨10 * ti + (n + 1), accPos0_lt ti hti (n + 1) hvi⟩
      (by show ¬(10 * ti + (n + 1)) % 10 = 0; omega)) (ix2 rr d)).trans ?_
    rw [upd0_at V c ⟨10 * ti + (n + 1), accPos0_lt ti hti (n + 1) hvi⟩ ti hti
      (by show (10 * ti + (n + 1)) / 10 = ti; omega) (n + 1) (by show (10 * ti + (n + 1)) % 10 = n + 1; omega),
      Finset.sum_range_succ _ (n + 1)]
    refine congrArg (· + _) ?_
    refine (congrFun (accN0_congr V c _ (10 * ti + n) _ (accPos0_lt ti hti n hn)
      (by show 10 * ti + (n + 1) - 1 = 10 * ti + n; omega)) (ix2 rr d)).trans ?_
    exact ih hn

/-- After the row tile's last vocabulary tile: the sum over all ten tiles. -/
theorem acc0_full (c : Dev nD) (ti : ℕ) (hti : ti < 49) (rr : Fin 1024) (d : Fin 128) :
    (accN0 V c (10 * ti + 9) (accPos0_lt ti hti 9 (by decide))) (ix2 rr d)
      = ∑ j ∈ Finset.range 10, ∑ v : Fin 3200,
          hot (tokA0 V c (ix2 ⟨1024 * ti + rr.val, tokRowAt0_lt ti hti rr⟩ 0)) j v * tabAt0 V c (3200 * j + v.val) d :=
  acc0_partial V c ti hti 9 (by decide) rr d

/-! ## One row of the output array -/

/-- For a row whose token word is the vocabulary id `k`, the output array's row is the rectified sum of row `k` of
    the table and the bias. -/
theorem G0_row (c : Dev nD) (r : Fin 50176) (d : Fin 128) (k : ℕ) (hk : k < 32000)
    (htok : tokA0 V c (ix2 r 0) = BitVec.ofNat 32 k) :
    (G0 V c : Vec Ideal S50176x128 .f32) (ix2 r d) = max (tabA0 V c (ix2 ⟨k, hk⟩ d) + biasA0 V c (ix2 0 d)) 0 := by
  have hr := r.isLt
  have hti : r.val / 1024 < 49 := by omega
  have er : (⟨1024 * (r.val / 1024) + (⟨r.val % 1024, rowIn0_lt _⟩ : Fin 1024).val,
      tokRowAt0_lt (r.val / 1024) hti ⟨r.val % 1024, rowIn0_lt _⟩⟩ : Fin 50176) = r :=
    Fin.ext (by show 1024 * (r.val / 1024) + r.val % 1024 = r.val; omega)
  have hc := hot_collapse k hk (fun j v => tabAt0 V c (3200 * j + v.val) d)
  beta_reduce at hc
  rw [G0_at V c (10 * (r.val / 1024) + 9) (lastPt0_lt r.val hr) (ix2 r d) (ix2 ⟨r.val % 1024, rowIn0_lt _⟩ d) rfl rfl rfl,
    pay3_apply, iblk0_bias, acc0_full V c (r.val / 1024) hti ⟨r.val % 1024, rowIn0_lt _⟩ d, er, htok, hc,
    tabAt0_eq V c _ k hk (by show 3200 * (k / 3200) + k % 3200 = k; omega) d]

end Cert.KernelIdeal.Hand

end
-- ==== Proof.KiCover1.lean ====
/-
  Region 1: from the output window's blocks to the whole output array, and each input window's block read at an
  index. The grid is walked row tile by row tile, ten vocabulary tiles to a row tile; the output block of a row tile is
  written back at its last vocabulary tile only, and those blocks tile the output array by rows. Hence the array after
  the run is ONE function of the region-entry contents: row `r` of it is row `r % 1024` of what row tile `r / 1024`
  writes at its last vocabulary tile. The input blocks are rows `1024 * rowTile + ·` of the token column, rows
  `3200 * vocabTile + ·` of the table, and the bias row itself.
-/
import proofs.«417099_j42588895707231_1_alg».proof.Proof.KiR1Defs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-! ## The grid's coordinates and the windows' block indices, decided over the grid -/

/-- A point's vocabulary tile is its position modulo ten. -/
theorem coords1_1 (t : Fin cfg1.N) : ((grid1.coords t) 1).val = t.val % 10 :=
  (by decide +kernel : ∀ t : Fin grid1.N, ((grid1.coords t) 1).val = t.val % 10) t
/-- A point's row tile is its position divided by ten. -/
theorem coords1_0 (t : Fin cfg1.N) : ((grid1.coords t) 0).val = t.val / 10 :=
  (by decide +kernel : ∀ t : Fin grid1.N, ((grid1.coords t) 0).val = t.val / 10) t

/-- The printed index maps at a point: the token column and the output move with the row tile, the table with the
    vocabulary tile, the bias stays; every block index on the second axis is zero. -/
theorem idx_facts1 : ∀ t : Fin cfg1.N, win1_3.index t (0 : Fin 2) = t.val / 10
    ∧ win1_3.index t (1 : Fin 2) = 0
    ∧ win1_0.index t (0 : Fin 2) = t.val / 10
    ∧ win1_0.index t (1 : Fin 2) = 0
    ∧ win1_1.index t (0 : Fin 2) = t.val % 10
    ∧ win1_1.index t (1 : Fin 2) = 0
    ∧ win1_2.index t (0 : Fin 2) = 0
    ∧ win1_2.index t (1 : Fin 2) = 0 :=
  (by decide +kernel : ∀ t : Fin grid1.N, _)

/-! ## Bounds -/

theorem pos1_lt (t : Fin cfg1.N) : t.val < 5860 := lt_of_lt_of_eq t.isLt (show cfg1.N = 5860 from N_1)
/-- The last vocabulary tile of the row tile that holds row `r` is a point of the grid. -/
theorem lastPt1_lt (r : ℕ) (hr : r < 600064) : 10 * (r / 1024) + 9 < cfg1.N := by
  rw [show cfg1.N = 5860 from N_1]; omega
theorem tokRow1_lt (t : Fin cfg1.N) (r : Fin 1024) : 1024 * (t.val / 10) + r.val < 600064 := by
  have := pos1_lt t; have := r.isLt; omega
theorem tabRow1_lt (t : Fin cfg1.N) (v : Fin 3200) : 3200 * (t.val % 10) + v.val < 32000 := by
  have := v.isLt; omega
theorem rowIn1_lt (r : ℕ) : r % 1024 < 1024 := Nat.mod_lt _ (by decide)

/-! ## The input blocks, read at an index -/

/-- Row `r` of the token block at a point is row `1024 * rowTile + r` of the token column. -/
theorem iblk1_tok (c : Dev nD) (t : Fin cfg1.N) (r : Fin 1024) :
    (iblk1 V c 0 t : Vec F S1024x1 .i32) (ix2 r 0)
      = (V c main_v10 : Vec F S600064x1 .i32) (ix2 ⟨1024 * (t.val / 10) + r.val, tokRow1_lt t r⟩ 0) := by
  obtain ⟨-, -, e0, e1, -⟩ := idx_facts1 t
  unfold iblk1
  rw [View.read_apply]
  show V c main_v10 (((cfg1.win 0).blk t).view.emb (ix2 r 0)) = V c main_v10 _
  refine congrArg (V c main_v10) (funext fun a => Fin.ext ?_)
  match a with
  | ⟨0, _⟩ => show win1_0.index t (0 : Fin 2) * 1024 + 1 * r.val = 1024 * (t.val / 10) + r.val; rw [e0]; omega
  | ⟨1, _⟩ => show win1_0.index t (1 : Fin 2) * 1 + 1 * (0 : Fin 1).val = (0 : Fin 1).val; rw [e1]; rfl

/-- Row `v` of the table block at a point is row `3200 * vocabTile + v` of the table. -/
theorem iblk1_tab (c : Dev nD) (t : Fin cfg1.N) (v : Fin 3200) (d : Fin 128) :
    (iblk1 V c 1 t : Vec F S3200x128 .bf16) (ix2 v d)
      = (V c main_v3 : Vec F S32000x128 .bf16) (ix2 ⟨3200 * (t.val % 10) + v.val, tabRow1_lt t v⟩ d) := by
  obtain ⟨-, -, -, -, e0, e1, -⟩ := idx_facts1 t
  unfold iblk1
  rw [View.read_apply]
  show V c main_v3 (((cfg1.win 1).blk t).view.emb (ix2 v d)) = V c main_v3 _
  refine congrArg (V c main_v3) (funext fun a => Fin.ext ?_)
  match a with
  | ⟨0, _⟩ => show win1_1.index t (0 : Fin 2) * 3200 + 1 * v.val = 3200 * (t.val % 10) + v.val; rw [e0]; omega
  | ⟨1, _⟩ => show win1_1.index t (1 : Fin 2) * 128 + 1 * d.val = d.val; rw [e1]; omega

/-- The bias block at a point is the bias row. -/
theorem iblk1_bias (c : Dev nD) (t : Fin cfg1.N) (d : Fin 128) :
    (iblk1 V c 2 t : Vec F S1x128 .f32) (ix2 0 d) = (V c main_v11 : Vec F S1x128 .f32) (ix2 0 d) := by
  obtain ⟨-, -, -, -, -, -, e0, e1⟩ := idx_facts1 t
  unfold iblk1
  rw [View.read_apply]
  show V c main_v11 (((cfg1.win 2).blk t).view.emb (ix2 0 d)) = V c main_v11 _
  refine congrArg (V c main_v11) (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 128 + 1 * d.val = d.val; rw [e1]; omega

/-! ## The output array as one function -/

/-- The output array as ONE function: row `r` of it is row `r % 1024` of what row tile `r / 1024` writes at its last
    vocabulary tile. -/
def G1 (c : Dev nD) : Vec F S600064x128 .f32 := fun j =>
  (k1_pay3 (accN1 V c (10 * ((j 0).val / 1024) + 9) (lastPt1_lt _ (idx2_lt0 j)))
      (iblk1 V c 2 ⟨10 * ((j 0).val / 1024) + 9, lastPt1_lt _ (idx2_lt0 j)⟩) : Vec F S1024x128 .f32)
    (ix2 ⟨(j 0).val % 1024, rowIn1_lt _⟩ (j 1))

/-- The function at an index whose row lies in the row tile whose last vocabulary tile is position `n`. -/
theorem G1_at (c : Dev nD) (n : ℕ) (hn : n < cfg1.N) (i : S600064x128.Idx) (x : S1024x128.Idx)
    (hq : 10 * ((i 0).val / 1024) + 9 = n) (h0 : (x 0).val = (i 0).val % 1024) (h1 : (x 1).val = (i 1).val) :
    G1 V c i = (k1_pay3 (accN1 V c n hn) (iblk1 V c 2 ⟨n, hn⟩) : Vec F S1024x128 .f32) x := by
  subst hq
  unfold G1
  refine congrArg (k1_pay3 (accN1 V c _ _) (iblk1 V c 2 _)) (funext fun a => Fin.ext ?_)
  match a with
  | ⟨0, _⟩ => exact h0.symm
  | ⟨1, _⟩ => exact h1.symm

/-- What a point that writes back writes is its block of that function. -/
theorem flushed1_eq (c : Dev nD) (t : Fin cfg1.N) (hf : (cfg1.win 3).flush t = true) :
    (dat1 V c).flushed 3 t = ((cfg1.win 3).blk t).view.read (Elt F) (G1 V c) := by
  have h9 : t.val % 10 = 9 := (flush1_3 t).mp hf
  obtain ⟨e0, e1, -⟩ := idx_facts1 t
  show (cfg1.win 3).cut (grid1.coords t) ((dat1 V c).after 3 t) = _
  rw [after1_3]
  funext j
  rw [View.read_apply]
  have hj0 : (j 0).val < 1024 := (j 0).isLt
  have hj1 : (j 1).val < 128 := (j 1).isLt
  have hq : 10 * (((((cfg1.win 3).blk t).view.emb j) 0).val / 1024) + 9 = t.val := by
    show 10 * ((win1_3.index t (0 : Fin 2) * 1024 + 1 * (j 0).val) / 1024) + 9 = t.val
    rw [e0]; omega
  have h0 : (j 0).val = ((((cfg1.win 3).blk t).view.emb j) 0).val % 1024 := by
    show (j 0).val = (win1_3.index t (0 : Fin 2) * 1024 + 1 * (j 0).val) % 1024
    omega
  have h1 : (j 1).val = ((((cfg1.win 3).blk t).view.emb j) 1).val := by
    show (j 1).val = win1_3.index t (1 : Fin 2) * 128 + 1 * (j 1).val
    rw [e1]; omega
  exact (G1_at V c t.val t.isLt (((cfg1.win 3).blk t).view.emb j) ((cfg1.win 3).xinj (grid1.coords t) j) hq h0 h1).symm

/-- An index of the output array is in a point's block iff each coordinate is in the block's range on its axis. -/
theorem mem_blk1 (t : Fin cfg1.N) (i : S600064x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v12).slice (win1_3.rect t)).set ↔ _
  rw [View.set_slice_whole, Rect.mem_set_unit]
  exact Iff.rfl

/-- Every index of the output array is in the block written back at the last vocabulary tile of its row's row tile. -/
theorem cover1 (i : S600064x128.Idx) :
    ∃ t : Fin cfg1.N, (cfg1.win 3).flush t = true ∧ i ∈ ((cfg1.win 3).blk t).view.set := by
  have hi0 : (i 0).val < 600064 := idx2_lt0 i
  have hi1 : (i 1).val < 128 := idx2_lt1 i
  refine ⟨⟨10 * ((i 0).val / 1024) + 9, lastPt1_lt _ hi0⟩, (flush1_3 _).mpr (by show (10 * ((i 0).val / 1024) + 9) % 10 = 9; omega), ?_⟩
  obtain ⟨e0, e1, -⟩ := idx_facts1 ⟨10 * ((i 0).val / 1024) + 9, lastPt1_lt _ hi0⟩
  have e0' : win1_3.index ⟨10 * ((i 0).val / 1024) + 9, lastPt1_lt _ hi0⟩ (0 : Fin 2) = (10 * ((i 0).val / 1024) + 9) / 10 := e0
  rw [mem_blk1]
  intro a
  match a with
  | ⟨0, _⟩ => show win1_3.index _ (0 : Fin 2) * 1024 ≤ (i 0).val ∧ (i 0).val < win1_3.index _ (0 : Fin 2) * 1024 + 1024; rw [e0']; omega
  | ⟨1, _⟩ => show win1_3.index _ (1 : Fin 2) * 128 ≤ (i 1).val ∧ (i 1).val < win1_3.index _ (1 : Fin 2) * 128 + 128; rw [e1]; omega

/-- The output array after the run is that function. -/
theorem final1 (c : Dev nD) : (dat1 V c).arrAt 3 cfg1.N = G1 V c :=
  (dat1 V c).arrAt_eq_of_cover 3 (G1 V c) (fun t hf => flushed1_eq V c t hf) cover1

end Cert.KernelIdeal.Hand

end
-- ==== Proof.KiRow1.lean ====
/-
  Region 1: the accumulator in closed form and one row of the output array. For a token word that is a
  vocabulary id `k < 32000`, the ten one-hot products a row tile accumulates sum to row `k` of the table, so the
  output array's row is `max (table[k, ·] + bias, 0)`. At the ideal values, at any region-entry contents.
-/
import proofs.«417099_j42588895707231_1_alg».proof.Proof.KiCover1
import proofs.«417099_j42588895707231_1_alg».proof.Proof.PayIdx
import proofs.«417099_j42588895707231_1_alg».proof.Proof.KiRow0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The arrays of the call, by their literal types -/

variable (V : (c : Dev nD) → (b : Ref sig .tc) → Buf (Elt Ideal) ((c : Thread nD τ).loc b))

/-- the token column -/
abbrev tokA1 (c : Dev nD) : Vec Ideal S600064x1 .i32 := V c main_v10
/-- the table -/
abbrev tabA1 (c : Dev nD) : Vec Ideal S32000x128 .bf16 := V c main_v3
/-- the bias row -/
abbrev biasA1 (c : Dev nD) : Vec Ideal S1x128 .f32 := V c main_v11

/-- Row `n` of the table at column `d`, and zero beyond the table's rows. -/
def tabAt1 (c : Dev nD) (n : ℕ) (d : Fin 128) : EReal :=
  if h : n < 32000 then tabA1 V c (ix2 ⟨n, h⟩ d) else 0

theorem tabAt1_eq (c : Dev nD) (n k : ℕ) (hk : k < 32000) (e : n = k) (d : Fin 128) :
    tabAt1 V c n d = tabA1 V c (ix2 ⟨k, hk⟩ d) := by
  subst e; exact dif_pos hk

/-! ## Bounds -/

theorem accPos1_lt (ti : ℕ) (hti : ti < 586) (vi : ℕ) (hvi : vi < 10) : 10 * ti + vi < cfg1.N := by
  rw [show cfg1.N = 5860 from N_1]; omega
theorem tokRowAt1_lt (ti : ℕ) (hti : ti < 586) (rr : Fin 1024) : 1024 * ti + rr.val < 600064 := by
  have := rr.isLt; omega

/-! ## One point's update, read at an index of the arrays -/

/-- The accumulator's value depends on the position only. -/
theorem accN1_congr (c : Dev nD) (m n : ℕ) (hm : m < cfg1.N) (hn : n < cfg1.N) (e : m = n) :
    accN1 V c m hm = accN1 V c n hn := by
  subst e; rfl

/-- Row `rr` of the token block at a point of row tile `ti`. -/
theorem tok1_at (c : Dev nD) (t : Fin cfg1.N) (ti : ℕ) (hti : ti < 586) (ht : t.val / 10 = ti) (rr : Fin 1024) :
    (iblk1 V c 0 t : Vec Ideal S1024x1 .i32) (ix2 rr 0)
      = tokA1 V c (ix2 ⟨1024 * ti + rr.val, tokRowAt1_lt ti hti rr⟩ 0) := by
  subst ht
  exact iblk1_tok V c t rr

/-- Row `v` of the table block at a point of vocabulary tile `j`. -/
theorem tab1_at (c : Dev nD) (t : Fin cfg1.N) (j : ℕ) (hj : t.val % 10 = j) (v : Fin 3200) (d : Fin 128) :
    (iblk1 V c 1 t : Vec Ideal S3200x128 .bf16) (ix2 v d) = tabAt1 V c (3200 * j + v.val) d := by
  subst hj
  rw [tabAt1_eq V c _ _ (tabRow1_lt t v) rfl d]
  exact iblk1_tab V c t v d

/-- The update at a point of row tile `ti`, vocabulary tile `j`: the one-hot weights of the row's token against
    the tile's rows of the table are added. -/
theorem upd1_at (c : Dev nD) (t : Fin cfg1.N) (ti : ℕ) (hti : ti < 586) (ht : t.val / 10 = ti) (j : ℕ)
    (hj : t.val % 10 = j) (acc : Vec Ideal S1024x128 .f32) (rr : Fin 1024) (d : Fin 128) :
    k1_pay2 (F := Ideal) (grid1.coords t) (iblk1 V c 0 t) acc (iblk1 V c 1 t) (ix2 rr d)
      = acc (ix2 rr d) + ∑ v : Fin 3200,
          hot (tokA1 V c (ix2 ⟨1024 * ti + rr.val, tokRowAt1_lt ti hti rr⟩ 0)) j v * tabAt1 V c (3200 * j + v.val) d := by
  rw [pay2_apply', tok1_at V c t ti hti ht rr, coords1_1, hj]
  refine congrArg (acc (ix2 rr d) + ·) (Finset.sum_congr rfl fun v _ => ?_)
  rw [tab1_at V c t j hj v d]

/-! ## The accumulator in closed form -/

/-- The accumulator after vocabulary tile `vi` of row tile `ti`, read at `(rr, d)`: the partial sum over the
    tiles `0..vi` of the one-hot weights of the row's token against the table's rows. -/
theorem acc1_partial (c : Dev nD) (ti : ℕ) (hti : ti < 586) (vi : ℕ) (hvi : vi < 10) (rr : Fin 1024) (d : Fin 128) :
    (accN1 V c (10 * ti + vi) (accPos1_lt ti hti vi hvi)) (ix2 rr d)
      = ∑ j ∈ Finset.range (vi + 1), ∑ v : Fin 3200,
          hot (tokA1 V c (ix2 ⟨1024 * ti + rr.val, tokRowAt1_lt ti hti rr⟩ 0)) j v * tabAt1 V c (3200 * j + v.val) d := by
  induction vi with
  | zero =>
    refine (congrFun (accN1_first V c ⟨10 * ti + 0, accPos1_lt ti hti 0 hvi⟩
      (by show (10 * ti + 0) % 10 = 0; omega)) (ix2 rr d)).trans ?_
    rw [upd1_at V c ⟨10 * ti + 0, accPos1_lt ti hti 0 hvi⟩ ti hti (by show (10 * ti + 0) / 10 = ti; omega) 0
      (by show (10 * ti + 0) % 10 = 0; omega), pay1_apply', zero_add, Finset.sum_range_one]
  | succ n ih =>
    have hn : n < 10 := by omega
    refine (congrFun (accN1_next V c ⟨10 * ti + (n + 1), accPos1_lt ti hti (n + 1) hvi⟩
      (by show ¬(10 * ti + (n + 1)) % 10 = 0; omega)) (ix2 rr d)).trans ?_
    rw [upd1_at V c ⟨10 * ti + (n + 1), accPos1_lt ti hti (n + 1) hvi⟩ ti hti
      (by show (10 * ti + (n + 1)) / 10 = ti; omega) (n + 1) (by show (10 * ti + (n + 1)) % 10 = n + 1; omega),
      Finset.sum_range_succ _ (n + 1)]
    refine congrArg (· + _) ?_
    refine (congrFun (accN1_congr V c _ (10 * ti + n) _ (accPos1_lt ti hti n hn)
      (by show 10 * ti + (n + 1) - 1 = 10 * ti + n; omega)) (ix2 rr d)).trans ?_
    exact ih hn

/-- After the row tile's last vocabulary tile: the sum over all ten tiles. -/
theorem acc1_full (c : Dev nD) (ti : ℕ) (hti : ti < 586) (rr : Fin 1024) (d : Fin 128) :
    (accN1 V c (10 * ti + 9) (accPos1_lt ti hti 9 (by decide))) (ix2 rr d)
      = ∑ j ∈ Finset.range 10, ∑ v : Fin 3200,
          hot (tokA1 V c (ix2 ⟨1024 * ti + rr.val, tokRowAt1_lt ti hti rr⟩ 0)) j v * tabAt1 V c (3200 * j + v.val) d :=
  acc1_partial V c ti hti 9 (by decide) rr d

/-! ## One row of the output array -/

/-- For a row whose token word is the vocabulary id `k`, the output array's row is the rectified sum of row `k` of
    the table and the bias. -/
theorem G1_row (c : Dev nD) (r : Fin 600064) (d : Fin 128) (k : ℕ) (hk : k < 32000)
    (htok : tokA1 V c (ix2 r 0) = BitVec.ofNat 32 k) :
    (G1 V c : Vec Ideal S600064x128 .f32) (ix2 r d) = max (tabA1 V c (ix2 ⟨k, hk⟩ d) + biasA1 V c (ix2 0 d)) 0 := by
  have hr := r.isLt
  have hti : r.val / 1024 < 586 := by omega
  have er : (⟨1024 * (r.val / 1024) + (⟨r.val % 1024, rowIn1_lt _⟩ : Fin 1024).val,
      tokRowAt1_lt (r.val / 1024) hti ⟨r.val % 1024, rowIn1_lt _⟩⟩ : Fin 600064) = r :=
    Fin.ext (by show 1024 * (r.val / 1024) + r.val % 1024 = r.val; omega)
  have hc := hot_collapse k hk (fun j v => tabAt1 V c (3200 * j + v.val) d)
  beta_reduce at hc
  rw [G1_at V c (10 * (r.val / 1024) + 9) (lastPt1_lt r.val hr) (ix2 r d) (ix2 ⟨r.val % 1024, rowIn1_lt _⟩ d) rfl rfl rfl,
    pay3_apply', iblk1_bias, acc1_full V c (r.val / 1024) hti ⟨r.val % 1024, rowIn1_lt _⟩ d, er, htok, hc,
    tabAt1_eq V c _ k hk (by show 3200 * (k / 3200) + k % 3200 = k; omega) d]

end Cert.KernelIdeal.Hand

end
-- ==== Proof.KiHost.lean ====
/-
  What the host operations of the kernel's program compute, at the ideal instance. Each of the two calls is entered
  with three operand arrays: a token column (the token vector padded by zeros to a whole number of row tiles, as a
  column), a table (the embedding table times a weight matrix) and a bias row. Each is read here at an index in terms
  of the launch contents. The result buffer is ONE function, `tailK`, of the two calls' outputs cut back to their
  unpadded rows and of the two index inputs.
-/
import proofs.«417099_j42588895707231_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.HostVal

open Idealize.ShloMosaic Idealize.ShloMosaic.TcCoe Idealize.ShloMosaic.ValueIdx
open Idealize.ShloMosaic.StableHlo
open Cert.KernelIdeal Cert.KernelIdeal.Gen

variable (m : (ℓ : Loc nD τ sig) → Buf (Elt Ideal) ℓ) (outs : Outs (F := Ideal))

/-! ## The carriers named

Entries of an argument array and of a computed table are extended reals; the arrays are named here at their literal
vector types so that sums and products of their entries are the extended reals' own. -/

/-- the embedding table, as launched -/
abbrev embA (c : Dev nD) : FVec Ideal S32000x128 .f32 := m ((c : Thread nD τ).loc main_arg0)
/-- the first weight matrix, as launched -/
abbrev w1A (c : Dev nD) : FVec Ideal S128x128 .f32 := m ((c : Thread nD τ).loc main_arg1)
/-- the second weight matrix, as launched -/
abbrev w2A (c : Dev nD) : FVec Ideal S128x128 .f32 := m ((c : Thread nD τ).loc main_arg3)
/-- the table the first call is entered with -/
abbrev tab0 (c : Dev nD) : FVec Ideal S32000x128 .bf16 := V3 m c main_v1
/-- the table the second call is entered with -/
abbrev tab1 (c : Dev nD) : FVec Ideal S32000x128 .bf16 := V7 m outs c main_v3

/-! ## Shape operations read at an index -/

/-- A length-n vector cast to an [n, 1] column reads, at (r, u), the operand at r. -/
theorem col_apply {α : Type} {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A length-n vector padded at its high end by p copies of a value reads the operand below n and the value from n on. -/
theorem padHi_apply {α : Type} {n p : ℕ} (x : (⟨1, ![n]⟩ : Shape).Idx → α) (v : S_.Idx → α)
    (h : (⟨1, ![n]⟩ : Shape).Pads (![0] : Fin 1 → Nat) ![p] ![0] ⟨1, ![n + p]⟩) (r : Fin (n + p)) :
    pad ⟨1, ![n + p]⟩ ![0] ![p] ![0] x v h h_S_ (ix1 r)
      = if hr : r.val < n then x (ix1 ⟨r.val, hr⟩) else v (Shape.Idx.first h_S_) := by
  by_cases hr : r.val < n
  · rw [dif_pos hr]
    exact pad_apply_of_inside _ _ _ x v h h_S_ _ (ix1 ⟨r.val, hr⟩) (fun a => by
      match a with
      | ⟨0, _⟩ => show r.val = 0 + r.val * (0 + 1); omega)
  · rw [dif_neg hr]
    exact pad_apply_of_not_inside _ _ _ x v h h_S_ _ (0 : Fin 1) (by
      show ¬(0 ≤ r.val ∧ (r.val - 0) % (0 + 1) = 0 ∧ (r.val - 0) / (0 + 1) < n)
      rintro ⟨_, _, h3⟩
      rw [Nat.sub_zero, Nat.div_one] at h3
      exact hr h3)

/-- The leading 50000 rows of a 50176-row array, read at (r, d). -/
theorem slice50000_apply (x : Vec Ideal S50176x128 .f32) (r : Fin 50000) (d : Fin 128) :
    extractStridedSlice S50000x128 ![0, 0] x slices_S50176x128_S50000x128_0_0 (ix2 r d) = x (ix2 ⟨r.val, by omega⟩ d) :=
  extractStridedSlice_apply _ x slices_S50176x128_S50000x128_0_0 (ix2 r d) (ix2 ⟨r.val, by omega⟩ d) (fun a => by
    match a with
    | ⟨0, _⟩ => show r.val = 0 + r.val; omega
    | ⟨1, _⟩ => show d.val = 0 + d.val; omega)

/-- The leading 600000 rows of a 600064-row array, read at (r, d). -/
theorem slice600000_apply (x : Vec Ideal S600064x128 .f32) (r : Fin 600000) (d : Fin 128) :
    extractStridedSlice S600000x128 ![0, 0] x slices_S600064x128_S600000x128_0_0 (ix2 r d) = x (ix2 ⟨r.val, by omega⟩ d) :=
  extractStridedSlice_apply _ x slices_S600064x128_S600000x128_0_0 (ix2 r d) (ix2 ⟨r.val, by omega⟩ d) (fun a => by
    match a with
    | ⟨0, _⟩ => show r.val = 0 + r.val; omega
    | ⟨1, _⟩ => show d.val = 0 + d.val; omega)

/-! ## The table product -/

/-- The product of the embedding table with a weight matrix, then the narrowing of the format (the identity on
    extended reals). -/
def tabK (x : FVec Ideal S32000x128 .f32) (w : FVec Ideal S128x128 .f32) : FVec Ideal S32000x128 .bf16 :=
  truncf (F := Ideal) .bf16 (Host.dotGeneral (F := Ideal) dot_S32000x128_S128x128_S32000x128_1_0_0_1_n_n none x w) bitsLt_bf16_f32

/-- The left operand's row coordinate is the output's row. -/
theorem lhs_ax0 (i : S32000x128.Idx) (q : dot_S32000x128_S128x128_S32000x128_1_0_0_1_n_n.contr.Idx) :
    (dot_S32000x128_S128x128_S32000x128_1_0_0_1_n_n.lhsIdx i q 0).val = (i 0).val := by
  unfold DotDims.lhsIdx
  rw [dif_neg (show ¬(0 : Fin S32000x128.rank) ∈ dot_S32000x128_S128x128_S32000x128_1_0_0_1_n_n.lhsBatch by decide), dif_pos (show (0 : Fin S32000x128.rank) ∈ dot_S32000x128_S128x128_S32000x128_1_0_0_1_n_n.lhsNonContracting by decide)]
  rfl
/-- The left operand's column coordinate is the contraction index. -/
theorem lhs_ax1 (i : S32000x128.Idx) (q : dot_S32000x128_S128x128_S32000x128_1_0_0_1_n_n.contr.Idx) :
    (dot_S32000x128_S128x128_S32000x128_1_0_0_1_n_n.lhsIdx i q 1).val = (q ⟨0, by decide⟩).val :=
  dot_S32000x128_S128x128_S32000x128_1_0_0_1_n_n.lhsIdx_val_of_single rfl i q
/-- The right operand's row coordinate is the contraction index. -/
theorem rhs_ax0 (i : S32000x128.Idx) (q : dot_S32000x128_S128x128_S32000x128_1_0_0_1_n_n.contr.Idx) :
    (dot_S32000x128_S128x128_S32000x128_1_0_0_1_n_n.rhsIdx i q 0).val = (q ⟨0, by decide⟩).val :=
  dot_S32000x128_S128x128_S32000x128_1_0_0_1_n_n.rhsIdx_val_of_single rfl i q
/-- The right operand's column coordinate is the output's column. -/
theorem rhs_ax1 (i : S32000x128.Idx) (q : dot_S32000x128_S128x128_S32000x128_1_0_0_1_n_n.contr.Idx) :
    (dot_S32000x128_S128x128_S32000x128_1_0_0_1_n_n.rhsIdx i q 1).val = (i 1).val := by
  unfold DotDims.rhsIdx
  rw [dif_neg (show ¬(1 : Fin S128x128.rank) ∈ dot_S32000x128_S128x128_S32000x128_1_0_0_1_n_n.rhsBatch by decide), dif_pos (show (1 : Fin S128x128.rank) ∈ dot_S32000x128_S128x128_S32000x128_1_0_0_1_n_n.rhsNonContracting by decide)]
  rfl

/-- The table product at (v, d) is the sum over the 128 contraction positions of table entry times weight entry. -/
theorem tabK_apply (x : FVec Ideal S32000x128 .f32) (w : FVec Ideal S128x128 .f32) (v : Fin 32000) (d : Fin 128) :
    tabK x w (ix2 v d) = ∑ k : Fin 128, x (ix2 v k) * w (ix2 k d) := by
  unfold tabK
  show Host.dotGeneral (F := Ideal) dot_S32000x128_S128x128_S32000x128_1_0_0_1_n_n none x w (ix2 v d) = _
  simp only [Host.dotGeneral]
  rw [Ideal.dotGeneral_apply, ← Equiv.sum_comp (ValueIdx.contrEquiv1 dot_S32000x128_S128x128_S32000x128_1_0_0_1_n_n 128 rfl rfl).symm]
  refine Finset.sum_congr rfl fun k _ => ?_
  have hk := ValueIdx.contrEquiv1_symm_val dot_S32000x128_S128x128_S32000x128_1_0_0_1_n_n 128 rfl rfl k
  have el : dot_S32000x128_S128x128_S32000x128_1_0_0_1_n_n.lhsIdx (ix2 v d) ((ValueIdx.contrEquiv1 dot_S32000x128_S128x128_S32000x128_1_0_0_1_n_n 128 rfl rfl).symm k) = ix2 v k := funext fun a => Fin.ext (by
    match a with
    | ⟨0, _⟩ => exact lhs_ax0 _ _
    | ⟨1, _⟩ => exact (lhs_ax1 _ _).trans hk)
  have er : dot_S32000x128_S128x128_S32000x128_1_0_0_1_n_n.rhsIdx (ix2 v d) ((ValueIdx.contrEquiv1 dot_S32000x128_S128x128_S32000x128_1_0_0_1_n_n 128 rfl rfl).symm k) = ix2 k d := funext fun a => Fin.ext (by
    match a with
    | ⟨0, _⟩ => exact (rhs_ax0 _ _).trans hk
    | ⟨1, _⟩ => exact rhs_ax1 _ _)
  rw [el, er]

/-! ## What the first call is entered with -/

/-- The first call's token column is the node tokens padded by zeros to 50176, as a column. -/
theorem e_tok0 (c : Dev nD) : (V3 m c main_v5 : Vec Ideal S50176x1 .i32)
    = shapeCast S50176x1 (pad S50176 ![0] ![176] ![0] (m ((c : Thread nD τ).loc main_arg5) : Vec Ideal S50000 .i32) (constantI S_ 32 0#32) pads_S50000_S50176_01760 h_S_) shapeCasts_S50176_S50176x1 := by
  dsimp only [V3, V2, V1, V0, hostOps0_2, hostOps0_1, hostOps0]
  after_results
  rfl

theorem in0_tok (c : Dev nD) (r : Fin 50176) :
    (V3 m c main_v5 : Vec Ideal S50176x1 .i32) (ix2 r 0)
      = if h : r.val < 50000 then (m ((c : Thread nD τ).loc main_arg5) : Vec Ideal S50000 .i32) (ix1 ⟨r.val, h⟩) else 0#32 := by
  refine (congrFun (e_tok0 m c) (ix2 r 0)).trans ?_
  generalize (m ((c : Thread nD τ).loc main_arg5) : Vec Ideal S50000 .i32) = x
  refine (col_apply _ shapeCasts_S50176_S50176x1 r 0).trans ?_
  exact padHi_apply (n := 50000) (p := 176) x (constantI S_ 32 0#32) pads_S50000_S50176_01760 r

/-- The first call's table is the product of the embedding table with the first weight matrix. -/
theorem e_tab0 (c : Dev nD) : tab0 m c = tabK (embA m c) (w1A m c) := by
  refine (V3_of m c main_v1 (by decide)).trans ?_
  refine (V2_of m c main_v1 (by decide)).trans ?_
  dsimp only [V1, V0, hostOps0]
  after_results
  rfl

theorem in0_tab (c : Dev nD) (v : Fin 32000) (d : Fin 128) :
    tab0 m c (ix2 v d) = ∑ k : Fin 128, embA m c (ix2 v k) * w1A m c (ix2 k d) :=
  (congrFun (e_tab0 m c) (ix2 v d)).trans (tabK_apply _ _ v d)

/-- The first call's bias row is the first bias as a [1, 128] row. -/
theorem e_bias0 (c : Dev nD) : (V3 m c main_v6 : Vec Ideal S1x128 .f32)
    = shapeCast S1x128 (m ((c : Thread nD τ).loc main_arg2) : Vec Ideal S128 .f32) shapeCasts_S128_S1x128 := by
  dsimp only [V3, V2, V1, V0, hostOps0_2, hostOps0_1, hostOps0]
  after_results
  rfl

theorem in0_bias (c : Dev nD) (d : Fin 128) :
    (V3 m c main_v6 : Vec Ideal S1x128 .f32) (ix2 0 d) = (m ((c : Thread nD τ).loc main_arg2) : Vec Ideal S128 .f32) (ix1 d) :=
  (congrFun (e_bias0 m c) (ix2 0 d)).trans (shapeCast_a_1a_apply _ shapeCasts_S128_S1x128 0 d)

/-! ## What the second call is entered with -/

/-- From any contents, the three stretches before the second call leave in the token column the edge tokens padded by
    zeros to 600064, as a column. -/
theorem tok1_after (W : Valuation τ sig (Elt Ideal)) :
    (StableHlo.after hostOps1_2 (StableHlo.after hostOps1_1 (StableHlo.after hostOps1 W)) main_v10 : Vec Ideal S600064x1 .i32)
      = shapeCast S600064x1 (pad S600064 ![0] ![64] ![0] (W main_arg6 : Vec Ideal S600000 .i32) (constantI S_ 32 0#32) pads_S600000_S600064_0640 h_S_) shapeCasts_S600064_S600064x1 := by
  dsimp only [hostOps1_2, hostOps1_1, hostOps1]
  after_results
  rfl

/-- an argument array nothing has written before the first call's output -/
theorem v4_arg6 (c : Dev nD) : V4 m outs c main_arg6 = m ((c : Thread nD τ).loc main_arg6) :=
  (V4_of m outs c main_arg6 (by decide)).trans <| (V3_of m c main_arg6 (by decide)).trans <|
    (V2_of m c main_arg6 (by decide)).trans <| (V1_of m c main_arg6 (by decide)).trans rfl

theorem e_tok1 (c : Dev nD) : (V7 m outs c main_v10 : Vec Ideal S600064x1 .i32)
    = shapeCast S600064x1 (pad S600064 ![0] ![64] ![0] (m ((c : Thread nD τ).loc main_arg6) : Vec Ideal S600000 .i32) (constantI S_ 32 0#32) pads_S600000_S600064_0640 h_S_) shapeCasts_S600064_S600064x1 := by
  have e := tok1_after (V4 m outs c)
  rw [v4_arg6 m outs c] at e
  exact e

theorem in1_tok (c : Dev nD) (r : Fin 600064) :
    (V7 m outs c main_v10 : Vec Ideal S600064x1 .i32) (ix2 r 0)
      = if h : r.val < 600000 then (m ((c : Thread nD τ).loc main_arg6) : Vec Ideal S600000 .i32) (ix1 ⟨r.val, h⟩) else 0#32 := by
  refine (congrFun (e_tok1 m outs c) (ix2 r 0)).trans ?_
  generalize (m ((c : Thread nD τ).loc main_arg6) : Vec Ideal S600000 .i32) = x
  refine (col_apply _ shapeCasts_S600064_S600064x1 r 0).trans ?_
  exact padHi_apply (n := 600000) (p := 64) x (constantI S_ 32 0#32) pads_S600000_S600064_0640 r

/-- The second call's table is the product of the embedding table with the second weight matrix. -/
theorem e_tab1 (c : Dev nD) : tab1 m outs c = tabK (embA m c) (w2A m c) := by
  refine (V7_of m outs c main_v3 (by decide)).trans ?_
  refine (V6_of m outs c main_v3 (by decide)).trans ?_
  refine (V5_of m outs c main_v3 (by decide)).trans ?_
  refine (V4_of m outs c main_v3 (by decide)).trans ?_
  refine (V3_of m c main_v3 (by decide)).trans ?_
  refine (V2_of m c main_v3 (by decide)).trans ?_
  dsimp only [V1, V0, hostOps0]
  after_results
  rfl

theorem in1_tab (c : Dev nD) (v : Fin 32000) (d : Fin 128) :
    tab1 m outs c (ix2 v d) = ∑ k : Fin 128, embA m c (ix2 v k) * w2A m c (ix2 k d) :=
  (congrFun (e_tab1 m outs c) (ix2 v d)).trans (tabK_apply _ _ v d)

/-- From any contents, the stretch just before the second call leaves in the bias row the second bias as a row. -/
theorem bias1_after (W : Valuation τ sig (Elt Ideal)) :
    (StableHlo.after hostOps1_2 W main_v11 : Vec Ideal S1x128 .f32)
      = shapeCast S1x128 (W main_arg4 : Vec Ideal S128 .f32) shapeCasts_S128_S1x128 := by
  dsimp only [hostOps1_2]
  after_results
  rfl

theorem v6_arg4 (c : Dev nD) : V6 m outs c main_arg4 = m ((c : Thread nD τ).loc main_arg4) :=
  (V6_of m outs c main_arg4 (by decide)).trans <| (V5_of m outs c main_arg4 (by decide)).trans <|
    (V4_of m outs c main_arg4 (by decide)).trans <| (V3_of m c main_arg4 (by decide)).trans <|
    (V2_of m c main_arg4 (by decide)).trans <| (V1_of m c main_arg4 (by decide)).trans rfl

theorem e_bias1 (c : Dev nD) : (V7 m outs c main_v11 : Vec Ideal S1x128 .f32)
    = shapeCast S1x128 (m ((c : Thread nD τ).loc main_arg4) : Vec Ideal S128 .f32) shapeCasts_S128_S1x128 := by
  have e := bias1_after (V6 m outs c)
  rw [v6_arg4 m outs c] at e
  exact e

theorem in1_bias (c : Dev nD) (d : Fin 128) :
    (V7 m outs c main_v11 : Vec Ideal S1x128 .f32) (ix2 0 d) = (m ((c : Thread nD τ).loc main_arg4) : Vec Ideal S128 .f32) (ix1 d) :=
  (congrFun (e_bias1 m outs c) (ix2 0 d)).trans (shapeCast_a_1a_apply _ shapeCasts_S128_S1x128 0 d)

/-! ## The same reads over carriers of literal type -/

/-- the node tokens, as launched -/
abbrev nodeTokA (c : Dev nD) : IVec S50000 32 := m ((c : Thread nD τ).loc main_arg5)
/-- the edge tokens, as launched -/
abbrev edgeTokA (c : Dev nD) : IVec S600000 32 := m ((c : Thread nD τ).loc main_arg6)
/-- the first bias, as launched -/
abbrev b1A (c : Dev nD) : FVec Ideal S128 .f32 := m ((c : Thread nD τ).loc main_arg2)
/-- the second bias, as launched -/
abbrev b2A (c : Dev nD) : FVec Ideal S128 .f32 := m ((c : Thread nD τ).loc main_arg4)
/-- the token column the first call is entered with -/
abbrev tok0 (c : Dev nD) : IVec S50176x1 32 := V3 m c main_v5
/-- the token column the second call is entered with -/
abbrev tok1 (c : Dev nD) : IVec S600064x1 32 := V7 m outs c main_v10
/-- the bias row the first call is entered with -/
abbrev bias0 (c : Dev nD) : FVec Ideal S1x128 .f32 := V3 m c main_v6
/-- the bias row the second call is entered with -/
abbrev bias1 (c : Dev nD) : FVec Ideal S1x128 .f32 := V7 m outs c main_v11

theorem tok0_apply (c : Dev nD) (r : Fin 50176) :
    tok0 m c (ix2 r 0) = if h : r.val < 50000 then nodeTokA m c (ix1 ⟨r.val, h⟩) else 0#32 := in0_tok m c r
theorem tok1_apply (c : Dev nD) (r : Fin 600064) :
    tok1 m outs c (ix2 r 0) = if h : r.val < 600000 then edgeTokA m c (ix1 ⟨r.val, h⟩) else 0#32 := in1_tok m outs c r
theorem bias0_apply (c : Dev nD) (d : Fin 128) : bias0 m c (ix2 0 d) = b1A m c (ix1 d) := in0_bias m c d
theorem bias1_apply (c : Dev nD) (d : Fin 128) : bias1 m outs c (ix2 0 d) = b2A m c (ix1 d) := in1_bias m outs c d

/-! ## The result -/

/-- The program's last stretch as ONE function of the two calls' sliced outputs and the two index inputs: each edge's
    source row of the node array (a negative source index wrapped by 50000) times the edge's row, added into row
    `dst` of a zero array. -/
def tailK (node : FVec Ideal S50000x128 .f32) (edge : FVec Ideal S600000x128 .f32) (src dst : IVec S600000 32) :
    FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf (F := Ideal)
      (Host.gather gather_S50000x128_S600000x1_S600000x128_1_0_n_n_0_1_1128 node
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      edge)

/-- The last stretch run from any contents. -/
theorem tail_after (W : Valuation τ sig (Elt Ideal)) :
    (StableHlo.after hostOps2 W main_v24 : Vec Ideal S50000x128 .f32)
      = tailK (W main_v8 : Vec Ideal S50000x128 .f32)
          (extractStridedSlice S600000x128 ![0, 0] (W main_v12 : Vec Ideal S600064x128 .f32) slices_S600064x128_S600000x128_0_0)
          (W main_arg7 : Vec Ideal S600000 .i32) (W main_arg8 : Vec Ideal S600000 .i32) := by
  dsimp only [hostOps2]
  after_results
  rfl

/-- The stretch after the first call run from any contents: the node array is the leading rows of the call's output. -/
theorem node_after (W : Valuation τ sig (Elt Ideal)) :
    (StableHlo.after hostOps1 W main_v8 : Vec Ideal S50000x128 .f32)
      = extractStridedSlice S50000x128 ![0, 0] (W main_v7 : Vec Ideal S50176x128 .f32) slices_S50176x128_S50000x128_0_0 := by
  dsimp only [hostOps1]
  after_results

theorem v4_out (c : Dev nD) : V4 m outs c main_v7 = outs 4 main_v7 c := by
  dsimp only [V4]; exact Function.update_self _ _ _

theorem v5_node (c : Dev nD) : (V5 m outs c main_v8 : Vec Ideal S50000x128 .f32)
    = extractStridedSlice S50000x128 ![0, 0] (outs 4 main_v7 c : Vec Ideal S50176x128 .f32) slices_S50176x128_S50000x128_0_0 := by
  have e := node_after (V4 m outs c)
  rw [v4_out m outs c] at e
  exact e

theorem v8_node (c : Dev nD) : (V8 m outs c main_v8 : Vec Ideal S50000x128 .f32)
    = extractStridedSlice S50000x128 ![0, 0] (outs 4 main_v7 c : Vec Ideal S50176x128 .f32) slices_S50176x128_S50000x128_0_0 :=
  (V8_of m outs c main_v8 (by decide)).trans <| (V7_of m outs c main_v8 (by decide)).trans <|
    (V6_of m outs c main_v8 (by decide)).trans (v5_node m outs c)

theorem v8_edge (c : Dev nD) : V8 m outs c main_v12 = outs 8 main_v12 c := by
  dsimp only [V8]; exact Function.update_self _ _ _

theorem v8_arg7 (c : Dev nD) : V8 m outs c main_arg7 = m ((c : Thread nD τ).loc main_arg7) :=
  (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl
theorem v8_arg8 (c : Dev nD) : V8 m outs c main_arg8 = m ((c : Thread nD τ).loc main_arg8) :=
  (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl

theorem result_eq (c : Dev nD) : (V9 m outs c main_v24 : Vec Ideal S50000x128 .f32)
    = tailK (extractStridedSlice S50000x128 ![0, 0] (outs 4 main_v7 c : Vec Ideal S50176x128 .f32) slices_S50176x128_S50000x128_0_0)
        (extractStridedSlice S600000x128 ![0, 0] (outs 8 main_v12 c : Vec Ideal S600064x128 .f32) slices_S600064x128_S600000x128_0_0)
        (m ((c : Thread nD τ).loc main_arg7) : Vec Ideal S600000 .i32) (m ((c : Thread nD τ).loc main_arg8) : Vec Ideal S600000 .i32) := by
  have e := tail_after (V8 m outs c)
  rw [v8_node m outs c, v8_edge m outs c, v8_arg7 m outs c, v8_arg8 m outs c] at e
  exact e

end Cert.KernelIdeal.HostVal

end
-- ==== Proof.RefValue.lean ====
/-
  The reference's result as (shared tail) ∘ (node features, edge features), and the features read at an index.

  * `gatherRow_apply`: a row gather (operand [N, D], start indices [R, 1], one offset axis, the row axis collapsed)
    read at (r, c) is the operand at row `min idx[r, 0] (N − 1)` (the start index read signed, clamped) and column c.
  * `feat50000`, `feat600000`: relu (table[tokens] · w + b) as the program's own term; `tailR`: the scatter-add of
    node[src] * edge at dst as the program's own term. `run_split`: the generated run theorem restated over them.
  * `feat50000_apply`, `feat600000_apply`: at a token in range the feature is max (∑ⱼ table[k, j] · w[j, d] + b[d]) 0.
-/
import proofs.«417099_j42588895707231_1_alg».proof.Proof.Gen.ReferenceIdeal.Run
import proofs.«417099_j42588895707231_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## A row gather read at an index -/

section Row
variable {α : Type}

/-- The dimension numbers of a row gather: operand `[N, D]`, start indices `[R, 1]`, result `[R, D]`; the result's
    axis 1 is the offset axis, the operand's axis 0 is collapsed and is the one the start index names. -/
abbrev rowDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row gather at `(r, c)`: the operand at row `idx[r, 0]` read signed and clamped into `[0, N − 1]`, column `c`. -/
theorem gatherRow_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (c : Fin D) :
    Host.gather (rowDims N R D wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R D wf).start (ix2 r c) idx 0 + (rowDims N R D wf).batchCoord (ix2 r c) 0
        + (rowDims N R D wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R D wf).startIndexMap from List.mem_singleton.mpr rfl)]
    have hsi : (rowDims N R D wf).siIdx (ix2 r c) ⟨List.idxOf (0 : Fin 2) (rowDims N R D wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R D wf).start (ix2 r c) idx 1 + (rowDims N R D wf).batchCoord (ix2 r c) 1
        + (rowDims N R D wf).offCoord (ix2 r c) 1 = c.val
    rw [GatherDims.batchCoord_eq_zero _ _ _ List.not_mem_nil]
    unfold GatherDims.start
    rw [dif_neg (show ¬ (1 : Fin 2) ∈ (rowDims N R D wf).startIndexMap from
      (show ¬ (1 : Fin 2) ∈ ([0] : List (Fin 2)) by decide))]
    unfold GatherDims.offCoord
    rw [dif_pos (show (1 : Fin 2) ∈ (rowDims N R D wf).sKept from (GatherDims.mem_sKept _ _).mpr
      ⟨(show ¬ (1 : Fin 2) ∈ ([0] : List (Fin 2)) by decide), List.not_mem_nil⟩)]
    simp only [Nat.zero_add]
    rfl

end Row

/-! ## The reference's result split: features, then the shared tail -/

/-- The node features, the program's own term for `main_v11`: relu (table[wrap tokens] · w + b). -/
def feat50000 (emb : FVec Ideal S32000x128 .f32) (w : FVec Ideal S128x128 .f32) (b : FVec Ideal S128 .f32)
    (tok : IVec S50000 32) : FVec Ideal S50000x128 .f32 :=
  maximumf (addf (Host.dotGeneral dot_S50000x128_S128x128_S50000x128_1_0_0_1_n_n none (Host.gather gather_S32000x128_S50000x1_S50000x128_1_0_n_n_0_1_1128 (emb) (broadcastInDim S50000x1 ![0] bcast_S50000_S50000x1_0 (select (cmpi .slt (tok) (broadcastInDim S50000 ![] bcast_S_S50000 (constantI S_ 32 0#32))) (addi (tok) (broadcastInDim S50000 ![] bcast_S_S50000 (constantI S_ 32 32000#32))) (tok)))) (w)) (broadcastInDim S50000x128 ![0, 1] bcast_S1x128_S50000x128_0_1 (broadcastInDim S1x128 ![1] bcast_S128_S1x128_1 (b)))) (broadcastInDim S50000x128 ![] bcast_S_S50000x128 (constant S_ .f32 0x00000000#32))

/-- The edge features, the program's own term for `main_v23`: relu (table[wrap tokens] · w + b). -/
def feat600000 (emb : FVec Ideal S32000x128 .f32) (w : FVec Ideal S128x128 .f32) (b : FVec Ideal S128 .f32)
    (tok : IVec S600000 32) : FVec Ideal S600000x128 .f32 :=
  maximumf (addf (Host.dotGeneral dot_S600000x128_S128x128_S600000x128_1_0_0_1_n_n none (Host.gather gather_S32000x128_S600000x1_S600000x128_1_0_n_n_0_1_1128 (emb) (broadcastInDim S600000x1 ![0] bcast_S600000_S600000x1_0 (select (cmpi .slt (tok) (broadcastInDim S600000 ![] bcast_S_S600000 (constantI S_ 32 0#32))) (addi (tok) (broadcastInDim S600000 ![] bcast_S_S600000 (constantI S_ 32 32000#32))) (tok)))) (w)) (broadcastInDim S600000x128 ![0, 1] bcast_S1x128_S600000x128_0_1 (broadcastInDim S1x128 ![1] bcast_S128_S1x128_1 (b)))) (broadcastInDim S600000x128 ![] bcast_S_S600000x128 (constant S_ .f32 0x00000000#32))

/-- The shared tail, the program's own term from `main_v24` to `main_v34`: the scatter-add into zeros, at `dst`, of
    `node[wrap src] * edge`. -/
def tailR (node : FVec Ideal S50000x128 .f32) (edge : FVec Ideal S600000x128 .f32) (src dst : IVec S600000 32) :
    FVec Ideal S50000x128 .f32 :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 (dst)) (mulf (Host.gather gather_S50000x128_S600000x1_S600000x128_1_0_n_n_0_1_1128 (node) (broadcastInDim S600000x1 ![0] bcast_S600000_S600000x1_0 (select (cmpi .slt (src) (broadcastInDim S600000 ![] bcast_S_S600000 (constantI S_ 32 0#32))) (addi (src) (broadcastInDim S600000 ![] bcast_S_S600000 (constantI S_ 32 50000#32))) (src)))) (edge))

/-- The reference's run, its result as the tail of the two features; the arguments unchanged. -/
theorem run_split (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
          = tailR
              (feat50000 (m ((c.tc : Thread nD τ).loc main_arg0)) (m ((c.tc : Thread nD τ).loc main_arg1))
                (m ((c.tc : Thread nD τ).loc main_arg2)) (m ((c.tc : Thread nD τ).loc main_arg5)))
              (feat600000 (m ((c.tc : Thread nD τ).loc main_arg0)) (m ((c.tc : Thread nD τ).loc main_arg3))
                (m ((c.tc : Thread nD τ).loc main_arg4)) (m ((c.tc : Thread nD τ).loc main_arg6)))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      unfold tailR feat50000 feat600000
      exact h c)
    (Value.run (F := Ideal) m ρ)

/-! ## The features read at an index -/

/-- A token word in `[0, 32000)`: the wrap `select (t < 0) (t + 32000) t` is `t`, and the gather's clamp of it into
    `[0, 31999]` is its value. -/
theorem wrap_clamp (t : BitVec 32) (k : ℕ) (hk : k < 32000) (ht : t = BitVec.ofNat 32 k) :
    min (Scalar.select (IntOp.cmpi .slt t 0#32) (IntOp.addi t 32000#32) t).toInt.toNat (32000 - 1) = k := by
  subst ht
  have hi : (BitVec.ofNat 32 k).toInt = (k : ℤ) := StableHlo.Predicate.toInt_ofNat_small k (by omega)
  have hc : IntOp.cmpi .slt (BitVec.ofNat 32 k) 0#32 = 0#1 := by
    show BitVec.ofBool ((BitVec.ofNat 32 k).slt 0#32) = 0#1
    have : (BitVec.ofNat 32 k).slt 0#32 = false := by
      simp only [BitVec.slt, hi, BitVec.toInt_zero, decide_eq_false_iff_not]; omega
    rw [this]; rfl
  rw [hc, select_zero, hi, Int.toNat_natCast]
  omega

/-- The node features are the generated stage `val_main_v11`. -/
theorem feat50000_eq (emb : FVec Ideal S32000x128 .f32) (w : FVec Ideal S128x128 .f32) (b : FVec Ideal S128 .f32)
    (tok : IVec S50000 32) : feat50000 emb w b tok = Read.val_main_v11 (F := Ideal) emb w b tok := rfl

/-- The edge features are the generated stage `val_main_v23`. -/
theorem feat600000_eq (emb : FVec Ideal S32000x128 .f32) (w : FVec Ideal S128x128 .f32) (b : FVec Ideal S128 .f32)
    (tok : IVec S600000 32) : feat600000 emb w b tok = Read.val_main_v23 (F := Ideal) emb w b tok := rfl

/-- The gathered table row of node `r` whose token is `k` in range: row `k` of the table. -/
theorem gather50000_row (emb : FVec Ideal S32000x128 .f32) (tok : IVec S50000 32) (r : Fin 50000) (j : Fin 128)
    (k : ℕ) (hk : k < 32000) (htok : tok (ix1 r) = BitVec.ofNat 32 k) :
    Read.val_main_v6 (F := Ideal) emb tok (ix2 r j) = emb (ix2 ⟨k, hk⟩ j) := by
  unfold Read.val_main_v6
  generalize hy : Read.val_main_v5 (F := Ideal) tok = y
  have hd : gather_S32000x128_S50000x1_S50000x128_1_0_n_n_0_1_1128
      = rowDims 32000 50000 128 gather_S32000x128_S50000x1_S50000x128_1_0_n_n_0_1_1128_wf := rfl
  rw [hd]
  refine (gatherRow_apply (by decide) _ emb y r j).trans ?_
  have hidx : min (y (ix2 r (0 : Fin 1))).toInt.toNat (32000 - 1) = k := by
    subst hy
    rw [Read.val_main_v5_apply, Read.val_main_v4_apply, Read.val_main_v1_apply, Read.val_main_v3_apply,
      Read.val_main_v0_apply, Read.val_main_v2_apply, Read.val_main_c_apply, Read.val_main_c_0_apply]
    have hi : Read.idx_main_v5 (ix2 r (0 : Fin 1)) = ix1 r := by
      funext a; match a with | ⟨0, _⟩ => rfl
    rw [hi]
    exact wrap_clamp _ k hk htok
  exact congrArg (fun q : Fin 32000 => emb (ix2 q j)) (Fin.ext hidx)

/-- The gathered table row of edge `r` whose token is `k` in range: row `k` of the table. -/
theorem gather600000_row (emb : FVec Ideal S32000x128 .f32) (tok : IVec S600000 32) (r : Fin 600000) (j : Fin 128)
    (k : ℕ) (hk : k < 32000) (htok : tok (ix1 r) = BitVec.ofNat 32 k) :
    Read.val_main_v18 (F := Ideal) emb tok (ix2 r j) = emb (ix2 ⟨k, hk⟩ j) := by
  unfold Read.val_main_v18
  generalize hy : Read.val_main_v17 (F := Ideal) tok = y
  have hd : gather_S32000x128_S600000x1_S600000x128_1_0_n_n_0_1_1128
      = rowDims 32000 600000 128 gather_S32000x128_S600000x1_S600000x128_1_0_n_n_0_1_1128_wf := rfl
  rw [hd]
  refine (gatherRow_apply (by decide) _ emb y r j).trans ?_
  have hidx : min (y (ix2 r (0 : Fin 1))).toInt.toNat (32000 - 1) = k := by
    subst hy
    rw [Read.val_main_v17_apply, Read.val_main_v16_apply, Read.val_main_v13_apply, Read.val_main_v15_apply,
      Read.val_main_v12_apply, Read.val_main_v14_apply, Read.val_main_c_1_apply, Read.val_main_c_2_apply]
    have hi : Read.idx_main_v17 (ix2 r (0 : Fin 1)) = ix1 r := by
      funext a; match a with | ⟨0, _⟩ => rfl
    rw [hi]
    exact wrap_clamp _ k hk htok
  exact congrArg (fun q : Fin 32000 => emb (ix2 q j)) (Fin.ext hidx)

/-- The node feature at `(r, d)`, the node's token `k` in range: `max (∑ⱼ table[k, j] · w[j, d] + b[d]) 0`. -/
theorem feat50000_apply (emb : FVec Ideal S32000x128 .f32) (w : FVec Ideal S128x128 .f32) (b : FVec Ideal S128 .f32)
    (tok : IVec S50000 32) (r : Fin 50000) (d : Fin 128) (k : ℕ) (hk : k < 32000)
    (htok : tok (ix1 r) = BitVec.ofNat 32 k) :
    feat50000 emb w b tok (ix2 r d)
      = max ((∑ j : Fin 128, emb (ix2 ⟨k, hk⟩ j) * w (ix2 j d)) + b (ix1 d)) 0 := by
  rw [feat50000_eq, Read.val_main_v11_apply, Read.val_main_v10_apply, Read.val_main_v7_apply, Read.val_main_v9_apply,
    Read.val_main_v8_apply, Read.val_main_call0_v0_apply, Read.val_main_call0_cst_apply,
    Ideal.maximumf_def, Ideal.addf_def, Ideal.ofBits_def, Ideal.ofBits_zero_f32]
  have hb : Read.idx_main_v8 (Read.idx_main_v9 (ix2 r d)) = ix1 d := by
    funext a; match a with | ⟨0, _⟩ => rfl
  have hl : ∀ j : Fin 128, Read.lidx_main_v7 (ix2 r d) j = ix2 r j := fun j => by
    funext a; match a with | ⟨0, _⟩ => rfl | ⟨1, _⟩ => rfl
  have hr : ∀ j : Fin 128, Read.ridx_main_v7 (ix2 r d) j = ix2 j d := fun j => by
    funext a; match a with | ⟨0, _⟩ => rfl | ⟨1, _⟩ => rfl
  rw [hb]
  refine congrArg (fun s => max (s + b (ix1 d)) 0) (Finset.sum_congr rfl fun j _ => ?_)
  rw [hl j, hr j, gather50000_row emb tok r j k hk htok]

/-- The edge feature at `(r, d)`, the edge's token `k` in range: `max (∑ⱼ table[k, j] · w[j, d] + b[d]) 0`. -/
theorem feat600000_apply (emb : FVec Ideal S32000x128 .f32) (w : FVec Ideal S128x128 .f32) (b : FVec Ideal S128 .f32)
    (tok : IVec S600000 32) (r : Fin 600000) (d : Fin 128) (k : ℕ) (hk : k < 32000)
    (htok : tok (ix1 r) = BitVec.ofNat 32 k) :
    feat600000 emb w b tok (ix2 r d)
      = max ((∑ j : Fin 128, emb (ix2 ⟨k, hk⟩ j) * w (ix2 j d)) + b (ix1 d)) 0 := by
  rw [feat600000_eq, Read.val_main_v23_apply, Read.val_main_v22_apply, Read.val_main_v19_apply, Read.val_main_v21_apply,
    Read.val_main_v20_apply, Read.val_main_call1_v0_apply, Read.val_main_call1_cst_apply,
    Ideal.maximumf_def, Ideal.addf_def, Ideal.ofBits_def, Ideal.ofBits_zero_f32]
  have hb : Read.idx_main_v20 (Read.idx_main_v21 (ix2 r d)) = ix1 d := by
    funext a; match a with | ⟨0, _⟩ => rfl
  have hl : ∀ j : Fin 128, Read.lidx_main_v19 (ix2 r d) j = ix2 r j := fun j => by
    funext a; match a with | ⟨0, _⟩ => rfl | ⟨1, _⟩ => rfl
  have hr : ∀ j : Fin 128, Read.ridx_main_v19 (ix2 r d) j = ix2 j d := fun j => by
    funext a; match a with | ⟨0, _⟩ => rfl | ⟨1, _⟩ => rfl
  rw [hb]
  refine congrArg (fun s => max (s + b (ix1 d)) 0) (Finset.sum_congr rfl fun j _ => ?_)
  rw [hl j, hr j, gather600000_row emb tok r j k hk htok]

end Cert.ReferenceIdeal.RefValue

end
-- ==== Proof.PreDecode.lean ====
/-
  The printed precondition ends in two conjuncts that say every node token and every edge token is a signed
  32-bit word in [0, 32000). This module reads those two conjuncts back: from "the printed function is 1" to
  "each token is the word of a natural number below 32000". The conjunction is a chain of `and`s of scalars;
  `and x y = 1` gives `x = 1` and `y = 1`, so only the last two links are opened. Each link is an all-reduction
  by `and` of an elementwise mask, which is 1 only if every element of the mask is 1; the mask at an element is
  the `and` of the two signed comparisons of the token with the broadcast constants 0 and 32000.
-/
import proofs.«417099_j42588895707231_1_alg».proof.Proof.Gen.Pre_finite_inputs
import Idealize.ShloMosaic.Lib.StableHlo.Predicate
import Idealize.ShloMosaic.Lib.ReduceAll
import Idealize.ShloMosaic.Lib.ValueIdx

noncomputable section

namespace Cert.Hand.Pre

open Idealize.ShloMosaic Cert.Pre_finite_inputs

/-- The rank-0 shape has one index. -/
instance subsingleton_scalar_idx : Subsingleton S_.Idx := ⟨fun a b => funext fun d => d.elim0⟩

/-- A 32-bit word `x` with `0 ≤ x` and `x < 32000` as signed integers is the word of a natural number below 32000:
    a non-negative signed value is the unsigned value, and the word of its unsigned value is the word itself. -/
theorem word_range (x : BitVec 32) (h0 : IntOp.cmpi .sge x 0#32 = 1#1) (h1 : IntOp.cmpi .slt x 32000#32 = 1#1) :
    ∃ k : ℕ, k < 32000 ∧ x = BitVec.ofNat 32 k := by
  unfold IntOp.cmpi at h0 h1
  simp only [StableHlo.Predicate.ofBool_eq_one_iff, BitVec.sle, BitVec.slt, decide_eq_true_eq] at h0 h1
  have e0 : (0#32 : BitVec 32).toInt = 0 := by decide
  have e1 : (32000#32 : BitVec 32).toInt = 32000 := by decide
  rw [e0] at h0
  rw [e1] at h1
  have hx := x.isLt
  have hlt : x.toNat < 32000 := by
    rw [BitVec.toInt_eq_toNat_cond] at h0 h1
    split at h0 <;> omega
  refine ⟨x.toNat, hlt, ?_⟩
  apply BitVec.eq_of_toNat_eq
  rw [BitVec.toNat_ofNat]
  exact (Nat.mod_eq_of_lt hx).symm

/-- The last link of the chain. If the second part of the printed function is 1, then the scalar carried into it is 1
    and, at every index, the carried mask is 1 and the token is signed-below the carried scalar constant. -/
theorem part2_decode (a6 : IVec S600000 32) (v30 : IVec S_ 1) (v32 : IVec S600000 1) (c12 : IVec S_ 32)
    (h : fn_part2 (F := Ideal) a6 v30 v32 c12 ValueIdx.ix0 = 1#1) (i : S600000.Idx) :
    v30 ValueIdx.ix0 = 1#1 ∧ v32 i = 1#1 ∧ IntOp.cmpi .slt (a6 i) (c12 ValueIdx.ix0) = 1#1 := by
  unfold fn_part2 at h
  dsimp only at h
  obtain ⟨h30, h36⟩ := IntOp.andi_eq_one.1 h
  have e := Host.reduce_andi_all _ _ _ _ _ h36 i
  obtain ⟨e1, e2⟩ := IntOp.andi_eq_one.1 e
  refine ⟨h30, e1, ?_⟩
  have hb : broadcastInDim S600000 ![] Facts.bcast_S_S600000 c12 i = c12 ValueIdx.ix0 :=
    congrArg c12 (Subsingleton.elim _ _)
  rw [← hb]
  exact e2

/-- The last two links. If the first part of the printed function is 1, every node token and every edge token is
    signed-at-least 0 and signed-below 32000. -/
theorem part1_decode (a4 : FVec Ideal S128 .f32) (a5 : IVec S50000 32) (a6 : IVec S600000 32) (v13 : IVec S_ 1)
    (v16 : IVec S128x128 1) (h : fn_part1 (F := Ideal) a4 a5 a6 v13 v16 ValueIdx.ix0 = 1#1) :
    (∀ i : S50000.Idx, IntOp.cmpi .sge (a5 i) 0#32 = 1#1 ∧ IntOp.cmpi .slt (a5 i) 32000#32 = 1#1) ∧
    (∀ i : S600000.Idx, IntOp.cmpi .sge (a6 i) 0#32 = 1#1 ∧ IntOp.cmpi .slt (a6 i) 32000#32 = 1#1) := by
  unfold fn_part1 at h
  dsimp only at h
  have p := fun i => part2_decode _ _ _ _ h i
  constructor
  · intro i
    have h30 := (p (ValueIdx.ix1 (0 : Fin 600000))).1
    obtain ⟨-, h29⟩ := IntOp.andi_eq_one.1 h30
    have e := Host.reduce_andi_all _ _ _ _ _ h29 i
    obtain ⟨e1, e2⟩ := IntOp.andi_eq_one.1 e
    exact ⟨e1, e2⟩
  · intro i
    exact ⟨(p i).2.1, (p i).2.2⟩

/-- The whole printed precondition, read at its one index: the two token ranges. -/
theorem tokens_decode (a0 : FVec Ideal S32000x128 .f32) (a1 : FVec Ideal S128x128 .f32) (a2 : FVec Ideal S128 .f32)
    (a3 : FVec Ideal S128x128 .f32) (a4 : FVec Ideal S128 .f32) (a5 : IVec S50000 32) (a6 a7 a8 : IVec S600000 32)
    (h : fn (F := Ideal) a0 a1 a2 a3 a4 a5 a6 a7 a8 = (fun _ => 1#1)) :
    (∀ i : S50000.Idx, IntOp.cmpi .sge (a5 i) 0#32 = 1#1 ∧ IntOp.cmpi .slt (a5 i) 32000#32 = 1#1) ∧
    (∀ i : S600000.Idx, IntOp.cmpi .sge (a6 i) 0#32 = 1#1 ∧ IntOp.cmpi .slt (a6 i) 32000#32 = 1#1) := by
  have e := congrFun h ValueIdx.ix0
  unfold fn at e
  dsimp only at e
  exact part1_decode _ _ _ _ _ e

/-- Every node token is the word of a natural number below 32000. -/
theorem node_tok_range (a0 : FVec Ideal Cert.Pre_finite_inputs.S32000x128 .f32) (a1 : FVec Ideal Cert.Pre_finite_inputs.S128x128 .f32)
    (a2 : FVec Ideal Cert.Pre_finite_inputs.S128 .f32) (a3 : FVec Ideal Cert.Pre_finite_inputs.S128x128 .f32)
    (a4 : FVec Ideal Cert.Pre_finite_inputs.S128 .f32) (a5 : IVec Cert.Pre_finite_inputs.S50000 32)
    (a6 a7 a8 : IVec Cert.Pre_finite_inputs.S600000 32)
    (h : Cert.Pre_finite_inputs.fn (F := Ideal) a0 a1 a2 a3 a4 a5 a6 a7 a8 = (fun _ => 1#1)) (r : Fin 50000) :
    ∃ k : ℕ, k < 32000 ∧ a5 (ValueIdx.ix1 r) = BitVec.ofNat 32 k :=
  let d := (tokens_decode a0 a1 a2 a3 a4 a5 a6 a7 a8 h).1 (ValueIdx.ix1 r)
  word_range _ d.1 d.2

/-- Every edge token is the word of a natural number below 32000. -/
theorem edge_tok_range (a0 : FVec Ideal Cert.Pre_finite_inputs.S32000x128 .f32) (a1 : FVec Ideal Cert.Pre_finite_inputs.S128x128 .f32)
    (a2 : FVec Ideal Cert.Pre_finite_inputs.S128 .f32) (a3 : FVec Ideal Cert.Pre_finite_inputs.S128x128 .f32)
    (a4 : FVec Ideal Cert.Pre_finite_inputs.S128 .f32) (a5 : IVec Cert.Pre_finite_inputs.S50000 32)
    (a6 a7 a8 : IVec Cert.Pre_finite_inputs.S600000 32)
    (h : Cert.Pre_finite_inputs.fn (F := Ideal) a0 a1 a2 a3 a4 a5 a6 a7 a8 = (fun _ => 1#1)) (r : Fin 600000) :
    ∃ k : ℕ, k < 32000 ∧ a6 (ValueIdx.ix1 r) = BitVec.ofNat 32 k :=
  let d := (tokens_decode a0 a1 a2 a3 a4 a5 a6 a7 a8 h).2 (ValueIdx.ix1 r)
  word_range _ d.1 d.2

end Cert.Hand.Pre

end
-- ==== Proof.Bridge.lean ====
/-
  The bridge between the two idealized programs. With every token a vocabulary id, one row of what a kernel region
  leaves in its output array is `max(table[token] + bias, 0)`, the table being `emb_table @ w` (the host computes it
  before the region): the reference's `max((emb_table[token] @ w) + bias, 0)`, term by term, because the one-hot
  product picks the token's row of the table and `0 * x = 0`, `1 * x = x` hold for every extended real. The rows the
  kernel computes for its padding tokens are sliced off. Both programs then apply the same tail (gather by `src`,
  multiply, scatter-add by `dst`) to these two feature arrays.
-/
import proofs.«417099_j42588895707231_1_alg».proof.Proof.KiRegs
import proofs.«417099_j42588895707231_1_alg».proof.Proof.KiRow0
import proofs.«417099_j42588895707231_1_alg».proof.Proof.KiRow1
import proofs.«417099_j42588895707231_1_alg».proof.Proof.KiHost
import proofs.«417099_j42588895707231_1_alg».proof.Proof.RefValue
import proofs.«417099_j42588895707231_1_alg».proof.Proof.PreDecode

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.KernelIdeal.HostVal

variable (m : (ℓ : Loc nD τ sig) → Buf (Elt Ideal) ℓ)

/-- The two programs' tails are one function of the feature arrays and the two index inputs. -/
theorem tail_eq (node : FVec Ideal S50000x128 .f32) (edge : FVec Ideal S600000x128 .f32) (src dst : IVec S600000 32) :
    tailK node edge src dst = Cert.ReferenceIdeal.RefValue.tailR node edge src dst := rfl

/-- Region 0's output, its padding rows sliced off, is the reference's node features. -/
theorem node_eq (c : Dev nD) (hpre : ∀ r : Fin 50000, ∃ k : ℕ, k < 32000 ∧ nodeTokA m c (ix1 r) = BitVec.ofNat 32 k) :
    extractStridedSlice S50000x128 ![0, 0] (outsK m 4 main_v7 c : Vec Ideal S50176x128 .f32) slices_S50176x128_S50000x128_0_0
      = Cert.ReferenceIdeal.RefValue.feat50000 (embA m c) (w1A m c) (b1A m c) (nodeTokA m c) := by
  funext j
  obtain ⟨r, d, rfl⟩ : ∃ (r : Fin 50000) (d : Fin 128), j = ix2 r d := ⟨j 0, j 1, eq_ix2 j⟩
  obtain ⟨k, hk, htok⟩ := hpre r
  rw [slice50000_apply, Cert.ReferenceIdeal.RefValue.feat50000_apply _ _ _ _ r d k hk htok]
  rw [outsK_v7 m c]
  have hrow : tokA0 (Vin0 m) c (ix2 ⟨r.val, by omega⟩ 0) = BitVec.ofNat 32 k := by
    refine (tok0_apply m c ⟨r.val, by omega⟩).trans ?_
    rw [dif_pos r.isLt]; exact htok
  refine (congrFun (final0 (Vin0 m) c) _).trans ?_
  refine (G0_row (Vin0 m) c ⟨r.val, by omega⟩ d k hk hrow).trans ?_
  rw [show tabA0 (Vin0 m) c (ix2 ⟨k, hk⟩ d) = tab0 m c (ix2 ⟨k, hk⟩ d) from rfl, in0_tab,
    show biasA0 (Vin0 m) c (ix2 0 d) = bias0 m c (ix2 0 d) from rfl, bias0_apply]

/-- Region 1's output, its padding rows sliced off, is the reference's edge features. -/
theorem edge_eq (c : Dev nD) (hpre : ∀ r : Fin 600000, ∃ k : ℕ, k < 32000 ∧ edgeTokA m c (ix1 r) = BitVec.ofNat 32 k) :
    extractStridedSlice S600000x128 ![0, 0] (outsK m 8 main_v12 c : Vec Ideal S600064x128 .f32) slices_S600064x128_S600000x128_0_0
      = Cert.ReferenceIdeal.RefValue.feat600000 (embA m c) (w2A m c) (b2A m c) (edgeTokA m c) := by
  funext j
  obtain ⟨r, d, rfl⟩ : ∃ (r : Fin 600000) (d : Fin 128), j = ix2 r d := ⟨j 0, j 1, eq_ix2 j⟩
  obtain ⟨k, hk, htok⟩ := hpre r
  rw [slice600000_apply, Cert.ReferenceIdeal.RefValue.feat600000_apply _ _ _ _ r d k hk htok]
  rw [outsK_v12 m c]
  have hrow : tokA1 (Vin1 m) c (ix2 ⟨r.val, by omega⟩ 0) = BitVec.ofNat 32 k := by
    refine (tok1_apply m (outsA m) c ⟨r.val, by omega⟩).trans ?_
    rw [dif_pos r.isLt]; exact htok
  refine (congrFun (final1 (Vin1 m) c) _).trans ?_
  refine (G1_row (Vin1 m) c ⟨r.val, by omega⟩ d k hk hrow).trans ?_
  rw [show tabA1 (Vin1 m) c (ix2 ⟨k, hk⟩ d) = tab1 m (outsA m) c (ix2 ⟨k, hk⟩ d) from rfl, in1_tab,
    show biasA1 (Vin1 m) c (ix2 0 d) = bias1 m (outsA m) c (ix2 0 d) from rfl, bias1_apply]

/-- The kernel program's result buffer at the end of the run, in the reference's terms. -/
theorem result_closed (c : Dev nD)
    (hnode : ∀ r : Fin 50000, ∃ k : ℕ, k < 32000 ∧ nodeTokA m c (ix1 r) = BitVec.ofNat 32 k)
    (hedge : ∀ r : Fin 600000, ∃ k : ℕ, k < 32000 ∧ edgeTokA m c (ix1 r) = BitVec.ofNat 32 k) :
    (V9 m (outsK m) c main_v24 : Vec Ideal S50000x128 .f32)
      = Cert.ReferenceIdeal.RefValue.tailR
          (Cert.ReferenceIdeal.RefValue.feat50000 (embA m c) (w1A m c) (b1A m c) (nodeTokA m c))
          (Cert.ReferenceIdeal.RefValue.feat600000 (embA m c) (w2A m c) (b2A m c) (edgeTokA m c))
          (m ((c : Thread nD τ).loc main_arg7)) (m ((c : Thread nD τ).loc main_arg8)) := by
  rw [result_eq m (outsK m) c, node_eq m c hnode, edge_eq m c hedge]
  exact tail_eq _ _ _ _

end Cert.KernelIdeal.Hand

end
-- ==== Proof.lean ====
/-
  The certificate of a one-hot-matmul embedding gather against jnp's row gather.

  The kernel computes `relu(onehot(tokens) @ (emb_table @ w) + bias)` for the node tokens and for the edge tokens, each
  by a Pallas call that walks 1024-row tiles and, inside a row tile, ten 3200-wide vocabulary tiles, adding the tile's
  one-hot product into an accumulator kept in scratch (zeroed at the first vocabulary tile) and writing
  `max(acc + bias, 0)` at the last; the reference computes `relu(emb_table[tokens] @ w + bias)`. Both then gather the
  node features by `src`, multiply by the edge features and scatter-add by `dst`. Over the extended reals, for tokens
  that are vocabulary ids (the precondition says so: outside that range the reference's own lookup is out of range),
  the one-hot product of a token with the table is the token's row of the table, and `(onehot @ emb) @ w = onehot @
  (emb @ w)` is here just "row k of emb @ w is (row k of emb) @ w"; nothing needs finiteness.

  frame_Kernel, frame_KernelIdeal — each program's @main is host operations around two kernel regions; per region the
    body obligation is proved from three whole-body runs (first / middle / last vocabulary tile) under an invariant
    that carries the accumulator's contents from point to point; the regions are segments of the several-regions
    launch, and the run ends with every unscoped buffer at a named valuation: the arguments are read off it.
  frame_ReferenceIdeal — the reference's run with the result dropped.
  preserves_Kernel_KernelIdeal — the ideal pass rewrote nothing.
  algebraic_KernelIdeal_ReferenceIdeal — the kernel's result buffer, read off the same run, is the shared tail of the
    two regions' sliced outputs; each output row is `max(table[token] + bias, 0)`, which is the reference's feature row.
-/
import proofs.«417099_j42588895707231_1_alg».proof.Defs
import proofs.«417099_j42588895707231_1_alg».proof.Proof.Gen.Kernel
import proofs.«417099_j42588895707231_1_alg».proof.Proof.Gen.KernelIdeal
import proofs.«417099_j42588895707231_1_alg».proof.Proof.Gen.ReferenceIdeal
import proofs.«417099_j42588895707231_1_alg».proof.Proof.Gen.ReferenceIdeal.Run
import proofs.«417099_j42588895707231_1_alg».proof.Proof.Gen.ReferenceIdeal.Read
import proofs.«417099_j42588895707231_1_alg».proof.Proof.Gen.Pre_finite_inputs
import proofs.«417099_j42588895707231_1_alg».proof.Proof.KbRegs
import proofs.«417099_j42588895707231_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal.HostVal Cert.ReferenceIdeal.RefValue in
/-- Both idealized programs end with the shared tail of the reference's two feature arrays: the kernel's by the
    bridge, the reference's by its own run, at arguments that agree. -/
theorem algebraic : Cert.algebraic_KernelIdeal_ReferenceIdeal := by
  intro m ρ m' ρ' hpre hagree
  have hnode : ∀ (c : Dev Cert.KernelIdeal.nD) (r : Fin 50000), ∃ k : ℕ, k < 32000 ∧ nodeTokA m c (ix1 r) = BitVec.ofNat 32 k :=
    fun c r => Cert.Hand.Pre.node_tok_range _ _ _ _ _ _ _ _ _ (hpre c) r
  have hedge : ∀ (c : Dev Cert.KernelIdeal.nD) (r : Fin 600000), ∃ k : ℕ, k < 32000 ∧ edgeTokA m c (ix1 r) = BitVec.ofNat 32 k :=
    fun c r => Cert.Hand.Pre.edge_tok_range _ _ _ _ _ _ _ _ _ (hpre c) r
  refine ⟨fun c => tailR (feat50000 (embA m c) (w1A m c) (b1A m c) (nodeTokA m c)) (feat600000 (embA m c) (w2A m c) (b2A m c) (edgeTokA m c))
      (m ((c : Thread Cert.KernelIdeal.nD Cert.KernelIdeal.τ).loc Cert.KernelIdeal.main_arg7)) (m ((c : Thread Cert.KernelIdeal.nD Cert.KernelIdeal.τ).loc Cert.KernelIdeal.main_arg8)), ?_, ?_⟩
  · refine (θ_run Cert.KernelIdeal.defs _ _).mono (fun r h c => ⟨?_, ?_⟩) (Cert.KernelIdeal.Hand.run_all m ρ)
    · exact (h c _ (Cert.KernelIdeal.Hand.mem_uc Cert.KernelIdeal.main_v24 (by decide))).trans (Cert.KernelIdeal.Hand.result_closed m c (hnode c) (hedge c))
    · exact ⟨(h c _ (Cert.KernelIdeal.Hand.mem_uc Cert.KernelIdeal.main_arg0 (by decide))).trans (Cert.KernelIdeal.Gen.V9_main_arg0 m (Cert.KernelIdeal.Hand.outsK m) c),
        (h c _ (Cert.KernelIdeal.Hand.mem_uc Cert.KernelIdeal.main_arg1 (by decide))).trans (Cert.KernelIdeal.Gen.V9_main_arg1 m (Cert.KernelIdeal.Hand.outsK m) c),
        (h c _ (Cert.KernelIdeal.Hand.mem_uc Cert.KernelIdeal.main_arg2 (by decide))).trans (Cert.KernelIdeal.Gen.V9_main_arg2 m (Cert.KernelIdeal.Hand.outsK m) c),
        (h c _ (Cert.KernelIdeal.Hand.mem_uc Cert.KernelIdeal.main_arg3 (by decide))).trans (Cert.KernelIdeal.Gen.V9_main_arg3 m (Cert.KernelIdeal.Hand.outsK m) c),
        (h c _ (Cert.KernelIdeal.Hand.mem_uc Cert.KernelIdeal.main_arg4 (by decide))).trans (Cert.KernelIdeal.Gen.V9_main_arg4 m (Cert.KernelIdeal.Hand.outsK m) c),
        (h c _ (Cert.KernelIdeal.Hand.mem_uc Cert.KernelIdeal.main_arg5 (by decide))).trans (Cert.KernelIdeal.Gen.V9_main_arg5 m (Cert.KernelIdeal.Hand.outsK m) c),
        (h c _ (Cert.KernelIdeal.Hand.mem_uc Cert.KernelIdeal.main_arg6 (by decide))).trans (Cert.KernelIdeal.Gen.V9_main_arg6 m (Cert.KernelIdeal.Hand.outsK m) c),
        (h c _ (Cert.KernelIdeal.Hand.mem_uc Cert.KernelIdeal.main_arg7 (by decide))).trans (Cert.KernelIdeal.Gen.V9_main_arg7 m (Cert.KernelIdeal.Hand.outsK m) c),
        (h c _ (Cert.KernelIdeal.Hand.mem_uc Cert.KernelIdeal.main_arg8 (by decide))).trans (Cert.KernelIdeal.Gen.V9_main_arg8 m (Cert.KernelIdeal.Hand.outsK m) c)⟩
  · refine (θ_run Cert.ReferenceIdeal.defs _ _).mono (fun r h c => ⟨?_, (h c).2⟩) (run_split m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
